-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S2x320000 : Shape := ⟨2, ![2, 320000]⟩
abbrev S10000x384 : Shape := ⟨2, ![10000, 384]⟩
abbrev S384 : Shape := ⟨1, ![384]⟩
abbrev S384x128 : Shape := ⟨2, ![384, 128]⟩
abbrev S128 : Shape := ⟨1, ![128]⟩
abbrev S512x256 : Shape := ⟨2, ![512, 256]⟩
abbrev S256 : Shape := ⟨1, ![256]⟩
abbrev S256x256 : Shape := ⟨2, ![256, 256]⟩
abbrev S128x384 : Shape := ⟨2, ![128, 384]⟩
abbrev S384x10000 : Shape := ⟨2, ![384, 10000]⟩
abbrev S10000 : Shape := ⟨1, ![10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x384 : S_.BroadcastsInDim S10000x384 (![] : Fin 0 → Fin S10000x384.rank)
  reducesTo_S10000x384_S_d0_1 : S10000x384.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x384 : S_.BroadcastsInDim S128x384 (![] : Fin 0 → Fin S128x384.rank)
  reducesTo_S128x384_S_d0_1 : S128x384.ReducesTo [0, 1] S_
  bcast_S_S384x10000 : S_.BroadcastsInDim S384x10000 (![] : Fin 0 → Fin S384x10000.rank)
  reducesTo_S384x10000_S_d0_1 : S384x10000.ReducesTo [0, 1] S_
  bcast_S_S10000 : S_.BroadcastsInDim S10000 (![] : Fin 0 → Fin S10000.rank)
  reducesTo_S10000_S_d0 : S10000.ReducesTo [0] S_

variable [Facts]

def fn_part6 {F : FTy → Type} [FloatOps F] (main_arg22 : FVec F S10000 .f32) (main_v98 : IVec S_ 1) (main_v101 : IVec S384x10000 1) (main_c_39 : IVec S_ 1) : IVec S_ 1 :=
  let main_v102 : IVec S_ 1 := (fun x v => Host.reduce IntOp.andi x v reducesTo_S384x10000_S_d0_1 h_S_) main_v101 main_c_39
  let main_v103 : IVec S_ 1 := andi main_v98 main_v102
  let main_v104 : FVec F S10000 .f32 := Host.absf main_arg22
  let main_cst_40 : FVec F S_ .f32 := constant S_ .f32 0x7F800000#32
  let main_v105 : FVec F S10000 .f32 := broadcastInDim S10000 ![] bcast_S_S10000 main_cst_40
  let main_v106 : IVec S10000 1 := cmpf .olt main_v104 main_v105
  let main_c_41 : IVec S_ 1 := constantI S_ 1 1#1
  let main_v107 : IVec S_ 1 := (fun x v => Host.reduce IntOp.andi x v reducesTo_S10000_S_d0 h_S_) main_v106 main_c_41
  let main_v108 : IVec S_ 1 := andi main_v103 main_v107
  main_v108

def fn_part5 {F : FTy → Type} [FloatOps F] (main_arg19 : FVec F S128x384 .f32) (main_arg20 : FVec F S384 .f32) (main_arg21 : FVec F S384x10000 .f32) (main_arg22 : FVec F S10000 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S128x384 .f32 := Host.absf main_arg19
  let main_cst_34 : FVec F S_ .f32 := constant S_ .f32 0x7F800000#32
  let main_v90 : FVec F S128x384 .f32 := broadcastInDim S128x384 ![] bcast_S_S128x384 main_cst_34
  let main_v91 : IVec S128x384 1 := cmpf .olt main_v89 main_v90
  let main_c_35 : IVec S_ 1 := constantI S_ 1 1#1
  let main_v92 : IVec S_ 1 := (fun x v => Host.reduce IntOp.andi x v reducesTo_S128x384_S_d0_1 h_S_) main_v91 main_c_35
  let main_v93 : IVec S_ 1 := andi main_v88 main_v92
  let main_v94 : FVec F S384 .f32 := Host.absf main_arg20
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_v99 : FVec F S384x10000 .f32 := Host.absf main_arg21
  let main_cst_38 : FVec F S_ .f32 := constant S_ .f32 0x7F800000#32
  let main_v100 : FVec F S384x10000 .f32 := broadcastInDim S384x10000 ![] bcast_S_S384x10000 main_cst_38
  let main_v101 : IVec S384x10000 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S256x256 .f32) (main_arg16 : FVec F S256 .f32) (main_arg17 : FVec F S256x256 .f32) (main_arg18 : FVec F S256 .f32) (main_arg19 : FVec F S128x384 .f32) (main_arg20 : FVec F S384 .f32) (main_arg21 : FVec F S384x10000 .f32) (main_arg22 : FVec F S10000 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg17
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S128x384 .f32) (main_arg20 : FVec F S384 .f32) (main_arg21 : FVec F S384x10000 .f32) (main_arg22 : FVec F S10000 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S128x384 .f32) (main_arg20 : FVec F S384 .f32) (main_arg21 : FVec F S384x10000 .f32) (main_arg22 : FVec F S10000 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S384x128 .f32) (main_arg6 : FVec F S128 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S128x384 .f32) (main_arg20 : FVec F S384 .f32) (main_arg21 : FVec F S384x10000 .f32) (main_arg22 : FVec F S10000 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S10000x128 .f32) (main_arg1 : FVec F S10000x10000 .f32) (main_arg2 : IVec S2x320000 32) (main_arg3 : FVec F S10000x384 .f32) (main_arg4 : FVec F S384 .f32) (main_arg5 : FVec F S384x128 .f32) (main_arg6 : FVec F S128 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S128x384 .f32) (main_arg20 : FVec F S384 .f32) (main_arg21 : FVec F S384x10000 .f32) (main_arg22 : FVec F S10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x384 .f32 := Host.absf main_arg3
  let main_cst_2 : FVec F S_ .f32 := constant S_ .f32 0x7F800000#32
  let main_v10 : FVec F S10000x384 .f32 := broadcastInDim S10000x384 ![] bcast_S_S10000x384 main_cst_2
  let main_v11 : IVec S10000x384 1 := cmpf .olt main_v9 main_v10
  let main_c_3 : IVec S_ 1 := constantI S_ 1 1#1
  let main_v12 : IVec S_ 1 := (fun x v => Host.reduce IntOp.andi x v reducesTo_S10000x384_S_d0_1 h_S_) main_v11 main_c_3
  let main_v13 : IVec S_ 1 := andi main_v8 main_v12
  let main_v14 : FVec F S384 .f32 := Host.absf main_arg4
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S10000x128 : Shape := ⟨2, ![10000, 128]⟩
abbrev S10000x10000 : Shape := ⟨2, ![10000, 10000]⟩
abbrev S2x320000 : Shape := ⟨2, ![2, 320000]⟩
abbrev S10000x384 : Shape := ⟨2, ![10000, 384]⟩
abbrev S384 : Shape := ⟨1, ![384]⟩
abbrev S384x128 : Shape := ⟨2, ![384, 128]⟩
abbrev S128 : Shape := ⟨1, ![128]⟩
abbrev S512x256 : Shape := ⟨2, ![512, 256]⟩
abbrev S256 : Shape := ⟨1, ![256]⟩
abbrev S256x256 : Shape := ⟨2, ![256, 256]⟩
abbrev S128x384 : Shape := ⟨2, ![128, 384]⟩
abbrev S384x10000 : Shape := ⟨2, ![384, 10000]⟩
abbrev S10000 : Shape := ⟨1, ![10000]⟩
abbrev S10000x256 : Shape := ⟨2, ![10000, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S2000x256 : Shape := ⟨2, ![2000, 256]⟩
abbrev S1x256 : Shape := ⟨2, ![1, 256]⟩
abbrev S1000x256 : Shape := ⟨2, ![1000, 256]⟩
abbrev S1000x128 : Shape := ⟨2, ![1000, 128]⟩
abbrev S200x128 : Shape := ⟨2, ![200, 128]⟩
abbrev S200x10000 : Shape := ⟨2, ![200, 10000]⟩
abbrev S200x384 : Shape := ⟨2, ![200, 384]⟩
abbrev S1x384 : Shape := ⟨2, ![1, 384]⟩
abbrev S1x10000 : Shape := ⟨2, ![1, 10000]⟩

abbrev nBuf : Space → Nat
  | .hbm => 64
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S2x320000, .i32⟩
  | .hbm, ⟨3, _⟩ => ⟨S10000x384, .f32⟩
  | .hbm, ⟨4, _⟩ => ⟨S384, .f32⟩
  | .hbm, ⟨5, _⟩ => ⟨S384x128, .f32⟩
  | .hbm, ⟨6, _⟩ => ⟨S128, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S128x384, .f32⟩
  | .hbm, ⟨20, _⟩ => ⟨S384, .f32⟩
  | .hbm, ⟨21, _⟩ => ⟨S384x10000, .f32⟩
  | .hbm, ⟨22, _⟩ => ⟨S10000, .f32⟩
  | .hbm, ⟨23, _⟩ => ⟨S10000x256, .f32⟩
  | .hbm, ⟨24, _⟩ => ⟨S1x320000, .i32⟩
  | .hbm, ⟨25, _⟩ => ⟨S320000, .i32⟩
  | .hbm, ⟨26, _⟩ => ⟨S1x320000, .i32⟩
  | .hbm, ⟨27, _⟩ => ⟨S320000, .i32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x256, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000x256, .f32⟩
  | .hbm, ⟨46, _⟩ => ⟨S256x256, .f32⟩
  | .hbm, ⟨47, _⟩ => ⟨S256x256, .bf16⟩
  | .hbm, ⟨48, _⟩ => ⟨S256x256, .f32⟩
  | .hbm, ⟨49, _⟩ => ⟨S256x256, .bf16⟩
  | .hbm, ⟨50, _⟩ => ⟨S256x256, .bf16⟩
  | .hbm, ⟨51, _⟩ => ⟨S320000x256, .f32⟩
  | .hbm, ⟨52, _⟩ => ⟨S_, .f32⟩
  | .hbm, ⟨53, _⟩ => ⟨S10000x256, .f32⟩
  | .hbm, ⟨54, _⟩ => ⟨S320000x1, .i32⟩
  | .hbm, ⟨55, _⟩ => ⟨S10000x256, .f32⟩
  | .hbm, ⟨56, _⟩ => ⟨S256x256, .bf16⟩
  | .hbm, ⟨57, _⟩ => ⟨S256x256, .bf16⟩
  | .hbm, ⟨58, _⟩ => ⟨S256x256, .bf16⟩
  | .hbm, ⟨59, _⟩ => ⟨S256x256, .bf16⟩
  | .hbm, ⟨60, _⟩ => ⟨S10000x128, .f32⟩
  | .hbm, ⟨61, _⟩ => ⟨S128x384, .bf16⟩
  | .hbm, ⟨62, _⟩ => ⟨S384x10000, .bf16⟩
  | .hbm, ⟨63, _⟩ => ⟨S10000x10000, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S256x256, .bf16⟩
  | .local _ .vmem, ⟨8, _⟩ => ⟨S256, .f32⟩
  | .local _ .vmem, ⟨9, _⟩ => ⟨S2000x256, .f32⟩
  | .local _ .vmem, ⟨10, _⟩ => ⟨S2000x256, .f32⟩
  | .local _ .vmem, ⟨11, _⟩ => ⟨S1000x256, .f32⟩
  | .local _ .vmem, ⟨12, _⟩ => ⟨S1000x256, .f32⟩
  | .local _ .vmem, ⟨13, _⟩ => ⟨S256x256, .bf16⟩
  | .local _ .vmem, ⟨14, _⟩ => ⟨S256, .f32⟩
  | .local _ .vmem, ⟨15, _⟩ => ⟨S256x256, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S256x256, .bf16⟩
  | .local _ .vmem, ⟨20, _⟩ => ⟨S256, .f32⟩
  | .local _ .vmem, ⟨21, _⟩ => ⟨S1000x128, .f32⟩
  | .local _ .vmem, ⟨22, _⟩ => ⟨S1000x128, .f32⟩
  | .local _ .vmem, ⟨23, _⟩ => ⟨S200x128, .f32⟩
  | .local _ .vmem, ⟨24, _⟩ => ⟨S200x128, .f32⟩
  | .local _ .vmem, ⟨25, _⟩ => ⟨S128x384, .bf16⟩
  | .local _ .vmem, ⟨26, _⟩ => ⟨S384, .f32⟩
  | .local _ .vmem, ⟨27, _⟩ => ⟨S384x10000, .bf16⟩
  | .local _ .vmem, ⟨28, _⟩ => ⟨S10000, .f32⟩
  | .local _ .vmem, ⟨29, _⟩ => ⟨S200x10000, .f32⟩
  | .local _ .vmem, ⟨30, _⟩ => ⟨S200x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x10000 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S200x10000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S10000x128_S10000x128_S10000x256_d1 : Shape.Concatenates [S10000x128, S10000x128] S10000x256 1
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  slices_S512x256_S256x256_0_0 : S512x256.Slices ![0, 0] S256x256
  bitsLt_bf16_f32 : FTy.bits .bf16 < FTy.bits .f32
  slices_S512x256_S256x256_256_0 : S512x256.Slices ![256, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  bcast_S_S10000x256 : S_.BroadcastsInDim S10000x256 (![] : Fin 0 → Fin S10000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  broadcasts_S1x256_S1000x256 : S1x256.Broadcasts S1000x256
  slices_S1000x256_o0_128_S1000x128 : S1000x256.Slices ![0, 128] S1000x128
  inb_S1000x128_S1000x128_0_0 : ∀ a, (![0, 0] : Fin 2 → Nat) a + S1000x128.size a ≤ S1000x128.size a
  h_S1000x128 : 0 < S1000x128.numel
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S200x384 : S1x384.Broadcasts S200x384
  inb_S384x10000_S384x10000_0_0 : ∀ a, (![0, 0] : Fin 2 → Nat) a + S384x10000.size a ≤ S384x10000.size a
  h_S384x10000 : 0 < S384x10000.numel
  shapeCasts_S384x10000_S384x10000 : S384x10000.ShapeCasts S384x10000
  inb_S10000_S10000_0 : ∀ a, (![0] : Fin 1 → Nat) a + S10000.size a ≤ S10000.size a
  h_S10000 : 0 < S10000.numel
  shapeCasts_S10000_S1x10000 : S10000.ShapeCasts S1x10000
  broadcasts_S1x10000_S200x10000 : S1x10000.Broadcasts S200x10000
  inb_S200x10000_S200x10000_0_0 : ∀ a, (![0, 0] : Fin 2 → Nat) a + S200x10000.size a ≤ S200x10000.size a
  h_S200x10000 : 0 < S200x10000.numel
  gather_S10000x256_S320000x1_S320000x256_1_0_n_n_0_1_1256_wf : GatherDims.WF S10000x256 S320000x1 S320000x256 [1] [0] [] [0] [] 1 ![1, 256]
  dot_S2000x256_S256x256_S2000x256_1_0_0_1_n_n_wf : DotDims.WF S2000x256 S256x256 S2000x256 [1] [0] [0] [1] [] []
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  dot_S200x128_S128x384_S200x384_1_0_0_1_n_n_wf : DotDims.WF S200x128 S128x384 S200x384 [1] [0] [0] [1] [] []
  dot_S200x384_S384x10000_S200x10000_1_0_0_1_n_n_wf : DotDims.WF S200x384 S384x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S320000x256.size a
  hwx0_0 : ∀ i : grid0.Coords, EltTy.bits .f32 = 32 ∨ (Rect.block (s := S320000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S320000x256.size a
  hwx0_1 : ∀ i : grid0.Coords, EltTy.bits .f32 = 32 ∨ (Rect.block (s := S320000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S320000x256.size a
  hwx0_7 : ∀ i : grid0.Coords, EltTy.bits .f32 = 32 ∨ (Rect.block (s := S320000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S10000x128.size a
  hwx1_9 : ∀ i : grid1.Coords, EltTy.bits .f32 = 32 ∨ (Rect.block (s := S10000x128) S1000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x128.size a ≤ S10000x128.size a
  hwx2_0 : ∀ i : grid2.Coords, EltTy.bits .f32 = 32 ∨ (Rect.block (s := S10000x128) S200x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x384.size a ≤ S128x384.size a
  hwx2_1 : ∀ i : grid2.Coords, EltTy.bits .bf16 = 32 ∨ (Rect.block (s := S128x384) S128x384.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384.size a ≤ S384.size a
  hwx2_2 : ∀ i : grid2.Coords, EltTy.bits .f32 = 32 ∨ (Rect.block (s := S384) S384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x10000.size a ≤ S384x10000.size a
  hwx2_3 : ∀ i : grid2.Coords, EltTy.bits .bf16 = 32 ∨ (Rect.block (s := S384x10000) S384x10000.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10000.size a ≤ S10000.size a
  hwx2_4 : ∀ i : grid2.Coords, EltTy.bits .f32 = 32 ∨ (Rect.block (s := S10000) S10000.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S200x10000.size a ≤ S10000x10000.size a
  hwx2_5 : ∀ i : grid2.Coords, EltTy.bits .f32 = 32 ∨ (Rect.block (s := S10000x10000) S200x10000.size (cc2_transform_5 i) (hinb2_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S200x128_S128x384_S200x384_1_0_0_1_n_n : DotDims S200x128 S128x384 S200x384 where
  lhsContracting := [1]
  rhsContracting := [0]
  lhsNonContracting := [0]
  rhsNonContracting := [1]
  lhsBatch := []
  rhsBatch := []
  wf := dot_S200x128_S128x384_S200x384_1_0_0_1_n_n_wf
def dot_S200x384_S384x10000_S200x10000_1_0_0_1_n_n : DotDims S200x384 S384x10000 S200x10000 where
  lhsContracting := [1]
  rhsContracting := [0]
  lhsNonContracting := [0]
  rhsNonContracting := [1]
  lhsBatch := []
  rhsBatch := []
  wf := dot_S200x384_S384x10000_S200x10000_1_0_0_1_n_n_wf

abbrev win0_0 : Pipeline.Window sig grid0 :=
  Pipeline.Window.ofSpec (Memref.whole main_v11) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v27) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v32) S200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S128x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S384x10000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S10000.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S200x10000.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S2x320000 : Shape := ⟨2, ![2, 320000]⟩
abbrev S10000x384 : Shape := ⟨2, ![10000, 384]⟩
abbrev S384 : Shape := ⟨1, ![384]⟩
abbrev S384x128 : Shape := ⟨2, ![384, 128]⟩
abbrev S128 : Shape := ⟨1, ![128]⟩
abbrev S512x256 : Shape := ⟨2, ![512, 256]⟩
abbrev S256 : Shape := ⟨1, ![256]⟩
abbrev S256x256 : Shape := ⟨2, ![256, 256]⟩
abbrev S128x384 : Shape := ⟨2, ![128, 384]⟩
abbrev S384x10000 : Shape := ⟨2, ![384, 10000]⟩
abbrev S10000 : Shape := ⟨1, ![10000]⟩
abbrev S10000x256 : Shape := ⟨2, ![10000, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x256 : Shape := ⟨2, ![1, 256]⟩
abbrev S1x384 : Shape := ⟨2, ![1, 384]⟩
abbrev S1x10000 : Shape := ⟨2, ![1, 10000]⟩

abbrev nBuf : Space → Nat
  | .hbm => 185
  | .vmem => 0
  | .smem => 0
  | _ => 0

abbrev hbmTy0_0 (i : Nat) : BufTy := match i % 128 with
  | 0 => ⟨S10000x128, .f32⟩
  | 1 => ⟨S10000x10000, .f32⟩
  | 2 => ⟨S2x320000, .i32⟩
  | 3 => ⟨S10000x384, .f32⟩
  | 4 => ⟨S384, .f32⟩
  | 5 => ⟨S384x128, .f32⟩
  | 6 => ⟨S128, .f32⟩
  | 7 => ⟨S512x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S128x384, .f32⟩
  | 20 => ⟨S384, .f32⟩
  | 21 => ⟨S384x10000, .f32⟩
  | 22 => ⟨S10000, .f32⟩
  | 23 => ⟨S10000x256, .f32⟩
  | 24 => ⟨S1x320000, .i32⟩
  | 25 => ⟨S320000, .i32⟩
  | 26 => ⟨S1x320000, .i32⟩
  | 27 => ⟨S320000, .i32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x256, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x256, .f32⟩
  | 46 => ⟨S320000x512, .f32⟩
  | 47 => ⟨S320000x256, .f32⟩
  | 48 => ⟨S1x256, .f32⟩
  | 49 => ⟨S320000x256, .f32⟩
  | 50 => ⟨S320000x256, .f32⟩
  | 51 => ⟨S_, .f32⟩
  | 52 => ⟨S320000x256, .f32⟩
  | 53 => ⟨S320000x256, .i1⟩
  | 54 => ⟨S_, .f32⟩
  | 55 => ⟨S320000x256, .f32⟩
  | 56 => ⟨S320000x256, .i1⟩
  | 57 => ⟨S_, .f32⟩
  | 58 => ⟨S_, .f32⟩
  | 59 => ⟨S320000x256, .f32⟩
  | 60 => ⟨S320000x256, .f32⟩
  | 61 => ⟨S320000x256, .f32⟩
  | 62 => ⟨S_, .f32⟩
  | 63 => ⟨S320000x256, .f32⟩
  | 64 => ⟨S320000x256, .f32⟩
  | 65 => ⟨S320000x256, .f32⟩
  | 66 => ⟨S320000x256, .f32⟩
  | 67 => ⟨S1x256, .f32⟩
  | 68 => ⟨S320000x256, .f32⟩
  | 69 => ⟨S320000x256, .f32⟩
  | 70 => ⟨S_, .f32⟩
  | 71 => ⟨S320000x256, .f32⟩
  | 72 => ⟨S320000x256, .i1⟩
  | 73 => ⟨S_, .f32⟩
  | 74 => ⟨S320000x256, .f32⟩
  | 75 => ⟨S320000x256, .i1⟩
  | 76 => ⟨S_, .f32⟩
  | 77 => ⟨S_, .f32⟩
  | 78 => ⟨S320000x256, .f32⟩
  | 79 => ⟨S320000x256, .f32⟩
  | 80 => ⟨S320000x256, .f32⟩
  | 81 => ⟨S_, .f32⟩
  | 82 => ⟨S320000x256, .f32⟩
  | 83 => ⟨S320000x256, .f32⟩
  | 84 => ⟨S320000x256, .f32⟩
  | 85 => ⟨S_, .f32⟩
  | 86 => ⟨S10000x256, .f32⟩
  | 87 => ⟨S320000x1, .i32⟩
  | 88 => ⟨S10000x256, .f32⟩
  | 89 => ⟨S10000x256, .f32⟩
  | 90 => ⟨S1x256, .f32⟩
  | 91 => ⟨S10000x256, .f32⟩
  | 92 => ⟨S10000x256, .f32⟩
  | 93 => ⟨S_, .f32⟩
  | 94 => ⟨S10000x256, .f32⟩
  | 95 => ⟨S10000x256, .i1⟩
  | 96 => ⟨S_, .f32⟩
  | 97 => ⟨S10000x256, .f32⟩
  | 98 => ⟨S10000x256, .i1⟩
  | 99 => ⟨S_, .f32⟩
  | 100 => ⟨S_, .f32⟩
  | 101 => ⟨S10000x256, .f32⟩
  | 102 => ⟨S10000x256, .f32⟩
  | 103 => ⟨S10000x256, .f32⟩
  | 104 => ⟨S_, .f32⟩
  | 105 => ⟨S10000x256, .f32⟩
  | 106 => ⟨S10000x256, .f32⟩
  | 107 => ⟨S10000x256, .f32⟩
  | 108 => ⟨S10000x256, .f32⟩
  | 109 => ⟨S1x256, .f32⟩
  | 110 => ⟨S10000x256, .f32⟩
  | 111 => ⟨S10000x256, .f32⟩
  | 112 => ⟨S_, .f32⟩
  | 113 => ⟨S10000x256, .f32⟩
  | 114 => ⟨S10000x256, .i1⟩
  | 115 => ⟨S_, .f32⟩
  | 116 => ⟨S10000x256, .f32⟩
  | 117 => ⟨S10000x256, .i1⟩
  | 118 => ⟨S_, .f32⟩
  | 119 => ⟨S_, .f32⟩
  | 120 => ⟨S10000x256, .f32⟩
  | 121 => ⟨S10000x256, .f32⟩
  | 122 => ⟨S10000x256, .f32⟩
  | 123 => ⟨S_, .f32⟩
  | 124 => ⟨S10000x256, .f32⟩
  | 125 => ⟨S10000x256, .f32⟩
  | 126 => ⟨S10000x256, .f32⟩
  | 127 => ⟨S10000x256, .f32⟩
  | _ => ⟨S10000x128, .f32⟩

abbrev hbmTy0_1 (i : Nat) : BufTy := match i % 128 with
  | 0 => ⟨S1x256, .f32⟩
  | 1 => ⟨S10000x256, .f32⟩
  | 2 => ⟨S10000x256, .f32⟩
  | 3 => ⟨S_, .f32⟩
  | 4 => ⟨S10000x256, .f32⟩
  | 5 => ⟨S10000x256, .i1⟩
  | 6 => ⟨S_, .f32⟩
  | 7 => ⟨S10000x256, .f32⟩
  | 8 => ⟨S10000x256, .i1⟩
  | 9 => ⟨S_, .f32⟩
  | 10 => ⟨S_, .f32⟩
  | 11 => ⟨S10000x256, .f32⟩
  | 12 => ⟨S10000x256, .f32⟩
  | 13 => ⟨S10000x256, .f32⟩
  | 14 => ⟨S_, .f32⟩
  | 15 => ⟨S10000x256, .f32⟩
  | 16 => ⟨S10000x256, .f32⟩
  | 17 => ⟨S10000x256, .f32⟩
  | 18 => ⟨S10000x256, .f32⟩
  | 19 => ⟨S1x256, .f32⟩
  | 20 => ⟨S10000x256, .f32⟩
  | 21 => ⟨S10000x256, .f32⟩
  | 22 => ⟨S_, .f32⟩
  | 23 => ⟨S10000x256, .f32⟩
  | 24 => ⟨S10000x256, .i1⟩
  | 25 => ⟨S_, .f32⟩
  | 26 => ⟨S10000x256, .f32⟩
  | 27 => ⟨S10000x256, .i1⟩
  | 28 => ⟨S_, .f32⟩
  | 29 => ⟨S_, .f32⟩
  | 30 => ⟨S10000x256, .f32⟩
  | 31 => ⟨S10000x256, .f32⟩
  | 32 => ⟨S10000x256, .f32⟩
  | 33 => ⟨S_, .f32⟩
  | 34 => ⟨S10000x256, .f32⟩
  | 35 => ⟨S10000x256, .f32⟩
  | 36 => ⟨S10000x256, .f32⟩
  | 37 => ⟨S10000x128, .f32⟩
  | 38 => ⟨S10000x384, .f32⟩
  | 39 => ⟨S1x384, .f32⟩
  | 40 => ⟨S10000x384, .f32⟩
  | 41 => ⟨S10000x384, .f32⟩
  | 42 => ⟨S_, .f32⟩
  | 43 => ⟨S10000x384, .f32⟩
  | 44 => ⟨S10000x384, .f32⟩
  | 45 => ⟨S10000x10000, .f32⟩
  | 46 => ⟨S1x10000, .f32⟩
  | 47 => ⟨S10000x10000, .f32⟩
  | 48 => ⟨S10000x10000, .f32⟩
  | 49 => ⟨S10000x10000, .f32⟩
  | 50 => ⟨S10000x10000, .f32⟩
  | 51 => ⟨S_, .f32⟩
  | 52 => ⟨S10000x10000, .f32⟩
  | 53 => ⟨S10000x10000, .f32⟩
  | 54 => ⟨S_, .f32⟩
  | 55 => ⟨S10000x10000, .f32⟩
  | 56 => ⟨S10000x10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_cst_1 : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_v4 : Ref sig .tc := ⟨.hbm, 79, rfl⟩
abbrev main_call1_v5 : Ref sig .tc := ⟨.hbm, 80, rfl⟩
abbrev main_call1_cst_2 : Ref sig .tc := ⟨.hbm, 81, rfl⟩
abbrev main_call1_v6 : Ref sig .tc := ⟨.hbm, 82, rfl⟩
abbrev main_call1_v7 : Ref sig .tc := ⟨.hbm, 83, rfl⟩
abbrev main_v29 : Ref sig .tc := ⟨.hbm, 84, rfl⟩
abbrev main_cst : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_cst_1 : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_v4 : Ref sig .tc := ⟨.hbm, 102, rfl⟩
abbrev main_call2_v5 : Ref sig .tc := ⟨.hbm, 103, rfl⟩
abbrev main_call2_cst_2 : Ref sig .tc := ⟨.hbm, 104, rfl⟩
abbrev main_call2_v6 : Ref sig .tc := ⟨.hbm, 105, rfl⟩
abbrev main_call2_v7 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_call3_cst_1 : Ref sig .tc := ⟨.hbm, 118, rfl⟩
abbrev main_call3_call0_v0 : Ref sig .tc := ⟨.hbm, 119, rfl⟩
abbrev main_call3_call0_v1 : Ref sig .tc := ⟨.hbm, 120, rfl⟩
abbrev main_call3_v4 : Ref sig .tc := ⟨.hbm, 121, rfl⟩
abbrev main_call3_v5 : Ref sig .tc := ⟨.hbm, 122, rfl⟩
abbrev main_call3_cst_2 : Ref sig .tc := ⟨.hbm, 123, rfl⟩
abbrev main_call3_v6 : Ref sig .tc := ⟨.hbm, 124, rfl⟩
abbrev main_call3_v7 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_call4_cst : Ref sig .tc := ⟨.hbm, 131, rfl⟩
abbrev main_call4_v0 : Ref sig .tc := ⟨.hbm, 132, rfl⟩
abbrev main_call4_v1 : Ref sig .tc := ⟨.hbm, 133, rfl⟩
abbrev main_call4_cst_0 : Ref sig .tc := ⟨.hbm, 134, rfl⟩
abbrev main_call4_v2 : Ref sig .tc := ⟨.hbm, 135, rfl⟩
abbrev main_call4_v3 : Ref sig .tc := ⟨.hbm, 136, rfl⟩
abbrev main_call4_cst_1 : Ref sig .tc := ⟨.hbm, 137, rfl⟩
abbrev main_call4_call0_v0 : Ref sig .tc := ⟨.hbm, 138, rfl⟩
abbrev main_call4_call0_v1 : Ref sig .tc := ⟨.hbm, 139, rfl⟩
abbrev main_call4_v4 : Ref sig .tc := ⟨.hbm, 140, rfl⟩
abbrev main_call4_v5 : Ref sig .tc := ⟨.hbm, 141, rfl⟩
abbrev main_call4_cst_2 : Ref sig .tc := ⟨.hbm, 142, rfl⟩
abbrev main_call4_v6 : Ref sig .tc := ⟨.hbm, 143, rfl⟩
abbrev main_call4_v7 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_call5_cst : Ref sig .tc := ⟨.hbm, 150, rfl⟩
abbrev main_call5_v0 : Ref sig .tc := ⟨.hbm, 151, rfl⟩
abbrev main_call5_v1 : Ref sig .tc := ⟨.hbm, 152, rfl⟩
abbrev main_call5_cst_0 : Ref sig .tc := ⟨.hbm, 153, rfl⟩
abbrev main_call5_v2 : Ref sig .tc := ⟨.hbm, 154, rfl⟩
abbrev main_call5_v3 : Ref sig .tc := ⟨.hbm, 155, rfl⟩
abbrev main_call5_cst_1 : Ref sig .tc := ⟨.hbm, 156, rfl⟩
abbrev main_call5_call0_v0 : Ref sig .tc := ⟨.hbm, 157, rfl⟩
abbrev main_call5_call0_v1 : Ref sig .tc := ⟨.hbm, 158, rfl⟩
abbrev main_call5_v4 : Ref sig .tc := ⟨.hbm, 159, rfl⟩
abbrev main_call5_v5 : Ref sig .tc := ⟨.hbm, 160, rfl⟩
abbrev main_call5_cst_2 : Ref sig .tc := ⟨.hbm, 161, rfl⟩
abbrev main_call5_v6 : Ref sig .tc := ⟨.hbm, 162, rfl⟩
abbrev main_call5_v7 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_call6_cst : Ref sig .tc := ⟨.hbm, 170, rfl⟩
abbrev main_call6_v0 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_cst_3 : Ref sig .tc := ⟨.hbm, 179, rfl⟩
abbrev main_v65 : Ref sig .tc := ⟨.hbm, 180, rfl⟩
abbrev main_v66 : Ref sig .tc := ⟨.hbm, 181, rfl⟩
abbrev main_cst_4 : Ref sig .tc := ⟨.hbm, 182, rfl⟩
abbrev main_v67 : Ref sig .tc := ⟨.hbm, 183, rfl⟩
abbrev main_v68 : Ref sig .tc := ⟨.hbm, 184, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  slices_S10000x256_S10000x128_0_128 : S10000x256.Slices ![0, 128] S10000x128
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  bcast_S_S10000x384 : S_.BroadcastsInDim S10000x384 (![] : Fin 0 → Fin S10000x384.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  gather_S10000x256_S320000x1_S320000x256_1_0_n_n_0_1_1256_wf : GatherDims.WF S10000x256 S320000x1 S320000x256 [1] [0] [] [0] [] 1 ![1, 256]
  dot_S320000x512_S512x256_S320000x256_1_0_0_1_n_n_wf : DotDims.WF S320000x512 S512x256 S320000x256 [1] [0] [0] [1] [] []
  dot_S320000x256_S256x256_S320000x256_1_0_0_1_n_n_wf : DotDims.WF S320000x256 S256x256 S320000x256 [1] [0] [0] [1] [] []
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  dot_S10000x128_S128x384_S10000x384_1_0_0_1_n_n_wf : DotDims.WF S10000x128 S128x384 S10000x384 [1] [0] [0] [1] [] []
  dot_S10000x384_S384x10000_S10000x10000_1_0_0_1_n_n_wf : DotDims.WF S10000x384 S384x10000 S10000x10000 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x384_S384x10000_S10000x10000_1_0_0_1_n_n : DotDims S10000x384 S384x10000 S10000x10000 where
  lhsContracting := [1]
  rhsContracting := [0]
  lhsNonContracting := [0]
  rhsNonContracting := [1]
  lhsBatch := []
  rhsBatch := []
  wf := dot_S10000x384_S384x10000_S10000x10000_1_0_0_1_n_n_wf

class Facts : Prop extends Facts₀ where

variable [Facts]
-- ==== Proof.Spec.lean ====
/-
  The mathematics both programs compute, stated once over the extended reals with no program in sight.

  A node feature row x (128 numbers, doubled to 256) is gathered at each edge's two end points; an edge's message is a
  two-layer perceptron of the 512 numbers [x_dst, x_src] with `elu` after each layer; messages are summed into their
  target node; each node's sum goes through two more such perceptrons, the last 128 coordinates are kept, and a final
  perceptron (`max · 0` after the first layer, the logistic function `1 / (1 + e^(-o))` after the second) gives one
  row of the 10000 × 10000 result.

  `elu h` is `h` where `h > 0` and `e^h - 1` elsewhere. A dense layer's entry is a finite sum of products plus a bias
  (`lin`); the first layer of the message perceptron may be computed either over the 512 concatenated numbers (`msgR`)
  or as two 256-term sums against the upper and lower halves of the weight matrix (`msgK`): the two agree because a sum
  over 512 terms splits into the sums over its first and last 256 terms, which needs only that addition of extended
  reals is commutative and associative (`msgK_eq_msgR`); no finiteness is used anywhere.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-- A matrix of extended reals, indexed as the programs' rank-2 arrays are. -/
abbrev Mat (a b : Nat) := (⟨2, ![a, b]⟩ : Shape).Idx → EReal
/-- A vector of extended reals, indexed as the programs' rank-1 arrays are. -/
abbrev Row (a : Nat) := (⟨1, ![a]⟩ : Shape).Idx → EReal

/-- `elu`: the identity on the positive half line, `e^h - 1` elsewhere (at `-∞` that is `-1`). -/
def elu (h : EReal) : EReal := Scalar.select (Ideal.cmp .ogt h 0) h (Ideal.exp h - 1)

/-- The logistic function in the form both programs spell it. -/
def sigm (o : EReal) : EReal := Ideal.div 1 (1 + Ideal.exp (-o))

/-- Entry `j` of a dense layer: the row against column `j` of the weights, plus the bias. -/
def lin {K N : Nat} (x : Fin K → EReal) (W : Mat K N) (b : Row N) (j : Fin N) : EReal :=
  (∑ k : Fin K, x k * W (ix2 k j)) + b (ix1 j)

/-- The same entry when the row comes in two halves, each against its own weight matrix. -/
def lin2 {K N : Nat} (x y : Fin K → EReal) (Wt Wb : Mat K N) (b : Row N) (j : Fin N) : EReal :=
  ((∑ k : Fin K, x k * Wt (ix2 k j)) + (∑ k : Fin K, y k * Wb (ix2 k j))) + b (ix1 j)

/-- Entry `j` of a two-layer perceptron with `elu` after each layer. -/
def mlp {K H N : Nat} (x : Fin K → EReal) (W1 : Mat K H) (b1 : Row H) (W2 : Mat H N) (b2 : Row N) (j : Fin N) : EReal :=
  elu (lin (fun k => elu (lin x W1 b1 k)) W2 b2 j)

/-- Rows `0 … 255` of a 512-row matrix. -/
def top (W : Mat 512 256) : Mat 256 256 := fun i => W (ix2 ⟨(i 0).val, by have := (i 0).isLt; simp at this; omega⟩ (i 1))
/-- Rows `256 … 511` of a 512-row matrix. -/
def bot (W : Mat 512 256) : Mat 256 256 := fun i => W (ix2 ⟨256 + (i 0).val, by have := (i 0).isLt; simp at this; omega⟩ (i 1))

/-- Two rows of 256 laid end to end. -/
def cat (x y : Fin 256 → EReal) : Fin 512 → EReal :=
  fun l => if h : l.val < 256 then x ⟨l.val, h⟩ else y ⟨l.val - 256, by have := l.isLt; omega⟩

/-- The edge messages, first layer over the concatenated 512 numbers. -/
def msgR (xd xs : Mat 320000 256) (W1 : Mat 512 256) (b1 : Row 256) (W2 : Mat 256 256) (b2 : Row 256) : Mat 320000 256 :=
  fun i => mlp (cat (fun l => xd (ix2 (i 0) l)) (fun l => xs (ix2 (i 0) l))) W1 b1 W2 b2 (i 1)

/-- The edge messages, first layer as two 256-term sums against the two halves of the weights. -/
def msgK (xd xs : Mat 320000 256) (Wt Wb : Mat 256 256) (b1 : Row 256) (W2 : Mat 256 256) (b2 : Row 256) : Mat 320000 256 :=
  fun i => elu (lin (fun k => elu (lin2 (fun l => xd (ix2 (i 0) l)) (fun l => xs (ix2 (i 0) l)) Wt Wb b1 k)) W2 b2 (i 1))

/-- The node update: two perceptrons in a row, then the last 128 of the 256 coordinates. -/
def hc (agg : Mat 10000 256) (Wa : Mat 256 256) (ba : Row 256) (Wb : Mat 256 256) (bb : Row 256)
    (Wc : Mat 256 256) (bc : Row 256) (Wd : Mat 256 256) (bd : Row 256) : Mat 10000 128 :=
  fun i => mlp (fun k => mlp (fun l => agg (ix2 (i 0) l)) Wa ba Wb bb k) Wc bc Wd bd
    ⟨128 + (i 1).val, by have := (i 1).isLt; simp at this; omega⟩

/-- The output layer: `max · 0` after the first dense layer, the logistic function after the second. -/
def out (h : Mat 10000 128) (W1 : Mat 128 384) (b1 : Row 384) (W2 : Mat 384 10000) (b2 : Row 10000) : Mat 10000 10000 :=
  fun i => sigm (lin (fun k => max (lin (fun l => h (ix2 (i 0) l)) W1 b1 k) 0) W2 b2 (i 1))

end Cert.Spec

end
-- ==== Proof.KDefs.lean ====
/-
  The kernel program's host side, cut as the reference's is: the gathered end-point features and the sum of messages
  into target nodes are the same host operations in both programs; between them sit the three kernels, whose results
  are the specification's `msgK`, `hc` and `out`. `valK` is the result array as a function of the argument arrays.
-/
import proofs.«150242_j29703993819981_1_alg».proof.Proof.Gen.KernelIdeal
import proofs.«150242_j29703993819981_1_alg».proof.Proof.Spec

noncomputable section

namespace Cert.KernelIdeal.Hand

open Cert.KernelIdeal Cert.KernelIdeal.Gen
open Idealize.ShloMosaic

variable {F : FTy → Type} [FloatOps F]

/-- Row 0 of the edge list: the source node of each edge. -/
def srcOf (a2 : IVec S2x320000 32) : IVec S320000 32 :=
  shapeCast S320000 (extractStridedSlice S1x320000 ![0, 0] a2 slices_S2x320000_S1x320000_0_0) shapeCasts_S1x320000_S320000
/-- Row 1 of the edge list: the target node of each edge. -/
def dstOf (a2 : IVec S2x320000 32) : IVec S320000 32 :=
  shapeCast S320000 (extractStridedSlice S1x320000 ![1, 0] a2 slices_S2x320000_S1x320000_1_0) shapeCasts_S1x320000_S320000
/-- A node index as the gather takes it: a negative one counted from the end, as a column. -/
def idxN (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)
/-- The node features doubled along the feature axis. -/
def xcat (a0 : FVec F S10000x128 .f32) : FVec F S10000x256 .f32 :=
  concatenate S10000x256 1 [⟨S10000x128, a0⟩, ⟨S10000x128, a0⟩] concatenates_S10000x128_S10000x128_S10000x256_d1
/-- One feature row per edge, taken at the given node indices. -/
def gat (x : FVec F S10000x256 .f32) (i : IVec S320000x1 32) : FVec F S320000x256 .f32 :=
  Host.gather gather_S10000x256_S320000x1_S320000x256_1_0_n_n_0_1_1256 x i
/-- The target node's features of every edge. -/
def xd (a0 : FVec F S10000x128 .f32) (a2 : IVec S2x320000 32) : FVec F S320000x256 .f32 := gat (xcat a0) (idxN (dstOf a2))
/-- The source node's features of every edge. -/
def xs (a0 : FVec F S10000x128 .f32) (a2 : IVec S2x320000 32) : FVec F S320000x256 .f32 := gat (xcat a0) (idxN (srcOf a2))
/-- The messages summed into their target nodes. -/
def aggOf (msg : FVec F S320000x256 .f32) (a2 : IVec S2x320000 32) : FVec F S10000x256 .f32 :=
  Host.scatterAdd scatter_S10000x256_S320000x1_S320000x256_1_0_0_1
    (broadcastInDim S10000x256 ![] bcast_S_S10000x256 (constant S_ .f32 0x00000000#32))
    (broadcastInDim S320000x1 ![0] bcast_S320000_S320000x1_0 (dstOf a2)) msg

/-- The kernel program's result array as a function of the argument arrays it reads, over the extended reals. -/
def valK (a0 : FVec Ideal S10000x128 .f32) (a2 : IVec S2x320000 32) (a7 : FVec Ideal S512x256 .f32) (a8 : FVec Ideal S256 .f32)
    (a9 : FVec Ideal S256x256 .f32) (a10 : FVec Ideal S256 .f32) (a11 : FVec Ideal S256x256 .f32) (a12 : FVec Ideal S256 .f32)
    (a13 : FVec Ideal S256x256 .f32) (a14 : FVec Ideal S256 .f32) (a15 : FVec Ideal S256x256 .f32) (a16 : FVec Ideal S256 .f32)
    (a17 : FVec Ideal S256x256 .f32) (a18 : FVec Ideal S256 .f32) (a19 : FVec Ideal S128x384 .f32) (a20 : FVec Ideal S384 .f32)
    (a21 : FVec Ideal S384x10000 .f32) (a22 : FVec Ideal S10000 .f32) : FVec Ideal S10000x10000 .f32 :=
  Spec.out (Spec.hc (aggOf (F := Ideal) (Spec.msgK (xd a0 a2) (xs a0 a2) (Spec.top a7) (Spec.bot a7) a8 a9 a10) a2)
    a11 a12 a13 a14 a15 a16 a17 a18) a19 a20 a21 a22

end Cert.KernelIdeal.Hand

end
-- ==== Proof.KReg0.lean ====
/-
  The first kernel region, read as a value: grid point t writes rows 2000·t … 2000·t + 1999 of the message array, each entry the
  two-layer perceptron of that edge's two feature rows; the 160 row blocks cover the array.
-/
import proofs.«150242_j29703993819981_1_alg».proof.Proof.Gen.KernelIdeal.Frame
import proofs.«150242_j29703993819981_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Reg0

/-! ## A product of a block of rows with a square matrix, read at an entry -/

theorem lhs_rows_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_rows_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_rows_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_rows_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of the product accumulated into zero is the 256-term sum of row p against column q. -/
theorem rows_mul_at (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_rows_0 _ _
    | ⟨1, _⟩ => exact (lhs_rows_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_rows_0 _ _).trans hk
    | ⟨1, _⟩ => exact rhs_rows_1 _ _)
  rw [el, er]

/-- A row of 256 biases laid under every row of the block, read at (p, q), is bias q. -/
theorem bias_at (b : Vec Ideal S256 .f32) (p : Fin 2000) (q : Fin 256) :
    broadcastTo S2000x256 (shapeCast S1x256 b shapeCasts_S256_S1x256) broadcasts_S1x256_S2000x256 (ix2 p q) = b (ix1 q) := by
  refine (broadcastTo_apply _ _ (ix2 p q) (ix2 (⟨0, by decide⟩ : Fin 1) q) (fun a => ?_)).trans ?_
  · match a with
    | ⟨0, _⟩ => rfl
    | ⟨1, _⟩ => rfl
  · refine (shapeCast_addUnit_apply (![256]) b shapeCasts_S256_S1x256 _).trans ?_
    exact congrArg b (funext fun a => by match a with | ⟨0, _⟩ => rfl)

/-- The exponential-linear unit as the body spells it, read at an entry. -/
theorem elu_at {s : Shape} (h : FVec Ideal s .f32) (i : s.Idx) :
    select (cmpf .ogt h (broadcast s (Scalar.ofBits (F := Ideal) .f32 0x00000000#32))) h
        (subf (exp h) (broadcast s (Scalar.ofBits (F := Ideal) .f32 0x3F800000#32))) i = Spec.elu (h i) := by
  show Scalar.select (Ideal.cmp .ogt (h i) (Ideal.ofBits .f32 0x00000000#32)) (h i) (Ideal.exp (h i) - Ideal.ofBits .f32 0x3F800000#32) = _
  rw [Ideal.ofBits_zero_f32, Ideal.ofBits_one_f32]
  rfl

/-! ## The body's arithmetic at an entry -/

/-- A dense layer on a block of rows, as the body spells it (round the rows' format, multiply, lay the biases under), at (p, q). -/
theorem layer_at (a : FVec Ideal S2000x256 .f32) (w : Vec Ideal S256x256 .bf16) (b : Vec Ideal S256 .f32) (p : Fin 2000) (q : Fin 256) :
    addf (matmul dot_S2000x256_S256x256_S2000x256_1_0_0_1_n_n none (truncf .bf16 a bitsLt_bf16_f32) (shapeCast S256x256 w shapeCasts_S256x256_S256x256 : FVec Ideal S256x256 .bf16)
          (constant (F := Ideal) S2000x256 .f32 0x00000000#32))
        (broadcastTo S2000x256 (shapeCast S1x256 b shapeCasts_S256_S1x256) broadcasts_S1x256_S2000x256) (ix2 p q)
      = Spec.lin (fun k => a (ix2 p k)) w b q := by
  rw [shapeCast_self]
  refine (addf_apply _ _ _).trans ?_
  rw [rows_mul_at, bias_at]
  rfl

/-- The first layer, whose input row comes in two halves each against its own weights: two products added, then the biases. -/
theorem layer2_at (xd xs : Vec Ideal S2000x256 .f32) (wt wb : Vec Ideal S256x256 .bf16) (b : Vec Ideal S256 .f32) (p : Fin 2000) (q : Fin 256) :
    addf (addf
          (matmul dot_S2000x256_S256x256_S2000x256_1_0_0_1_n_n none
            (truncf .bf16 (shapeCast S2000x256 xd shapeCasts_S2000x256_S2000x256 : FVec Ideal S2000x256 .f32) bitsLt_bf16_f32)
            (shapeCast S256x256 wt shapeCasts_S256x256_S256x256 : FVec Ideal S256x256 .bf16) (constant (F := Ideal) S2000x256 .f32 0x00000000#32))
          (matmul dot_S2000x256_S256x256_S2000x256_1_0_0_1_n_n none
            (truncf .bf16 (shapeCast S2000x256 xs shapeCasts_S2000x256_S2000x256 : FVec Ideal S2000x256 .f32) bitsLt_bf16_f32)
            (shapeCast S256x256 wb shapeCasts_S256x256_S256x256 : FVec Ideal S256x256 .bf16) (constant (F := Ideal) S2000x256 .f32 0x00000000#32)))
        (broadcastTo S2000x256 (shapeCast S1x256 b shapeCasts_S256_S1x256) broadcasts_S1x256_S2000x256) (ix2 p q)
      = Spec.lin2 (fun l => xd (ix2 p l)) (fun l => xs (ix2 p l)) wt wb b q := by
  simp only [shapeCast_self]
  refine (addf_apply _ _ _).trans ?_
  rw [bias_at]
  refine congrArg (· + b (ix1 q)) ?_
  refine (addf_apply _ _ _).trans ?_
  rw [rows_mul_at, rows_mul_at]
  rfl

/-- The body's result at row p, column q of the block: the two-layer perceptron of the block's two feature rows p. -/
theorem pay_at (xd xs : Vec Ideal S2000x256 .f32) (wt wb : Vec Ideal S256x256 .bf16) (b1 : Vec Ideal S256 .f32)
    (w2 : Vec Ideal S256x256 .bf16) (b2 : Vec Ideal S256 .f32) (p : Fin 2000) (q : Fin 256) :
    k0_pay1 xd wt xs wb b1 w2 b2 (ix2 p q)
      = Spec.elu (Spec.lin (fun k => Spec.elu (Spec.lin2 (fun l => xd (ix2 p l)) (fun l => xs (ix2 p l)) wt wb b1 k)) w2 b2 q) := by
  unfold k0_pay1
  refine (elu_at _ _).trans (congrArg Spec.elu ?_)
  refine (layer_at _ w2 b2 p q).trans ?_
  refine congrArg (fun f => Spec.lin f w2 b2 q) (funext fun k => ?_)
  refine (elu_at _ _).trans (congrArg Spec.elu ?_)
  exact layer2_at xd xs wt wb b1 p k

/-! ## The blocks the body reads, as entries of the arrays -/

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point t: the two feature windows and the message window at row block t, the weights and
    biases whole. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The target-feature block at point t is rows 2000·t … of the target-feature array. -/
theorem rows_read0 (c : Dev nD) (t : Fin cfg0.N) (x : S2000x256.Idx) (k : S320000x256.Idx)
    (hk0 : (k 0).val = 2000 * t.val + (x 0).val) (hk1 : (k 1).val = (x 1).val) :
    (iblk0 V c 0 t : Vec Ideal S2000x256 .f32) x = (V c main_v11 : S320000x256.Idx → EReal) k := by
  obtain ⟨e0, e1, -⟩ := blocks_at t
  show V c main_v11 (((cfg0.win 0).blk t).view.emb x) = V c main_v11 k
  refine congrArg _ (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The source-feature block at point t is rows 2000·t … of the source-feature array. -/
theorem rows_read1 (c : Dev nD) (t : Fin cfg0.N) (x : S2000x256.Idx) (k : S320000x256.Idx)
    (hk0 : (k 0).val = 2000 * t.val + (x 0).val) (hk1 : (k 1).val = (x 1).val) :
    (iblk0 V c 1 t : Vec Ideal S2000x256 .f32) x = (V c main_v18 : S320000x256.Idx → EReal) k := by
  obtain ⟨-, -, e0, e1, -⟩ := blocks_at t
  show V c main_v18 (((cfg0.win 1).blk t).view.emb x) = V c main_v18 k
  refine congrArg _ (funext fun a => Fin.ext ?_)
  match a with
  | ⟨0, _⟩ => show win0_1.index t (0 : Fin 2) * 2000 + 1 * (x 0).val = (k 0).val; rw [e0, hk0]; omega
  | ⟨1, _⟩ => show win0_1.index t (1 : Fin 2) * 256 + 1 * (x 1).val = (k 1).val; rw [e1, hk1]; omega

/-- undefined -/
theorem whole_read2 (c : Dev nD) (t : Fin cfg0.N) :
    (iblk0 V c 2 t : Vec Ideal S256x256 .bf16) = (V c main_v20 : S256x256.Idx → EReal) := by
  obtain ⟨-, -, -, -, e0, e1, -⟩ := blocks_at t
  funext x
  show V c main_v20 (((cfg0.win 2).blk t).view.emb x) = V c main_v20 x
  refine congrArg _ (funext fun a => Fin.ext ?_)
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- undefined -/
theorem whole_read3 (c : Dev nD) (t : Fin cfg0.N) :
    (iblk0 V c 3 t : Vec Ideal S256x256 .bf16) = (V c main_v22 : S256x256.Idx → EReal) := by
  obtain ⟨-, -, -, -, -, -, e0, e1, -⟩ := blocks_at t
  funext x
  show V c main_v22 (((cfg0.win 3).blk t).view.emb x) = V c main_v22 x
  refine congrArg _ (funext fun a => Fin.ext ?_)
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The window over the first biases is that whole array at every point. -/
theorem whole_read4 (c : Dev nD) (t : Fin cfg0.N) :
    (iblk0 V c 4 t : Vec Ideal S256 .f32) = (V c main_arg8 : S256.Idx → EReal) := by
  obtain ⟨-, -, -, -, -, -, -, -, e0, -⟩ := blocks_at t
  funext x
  show V c main_arg8 (((cfg0.win 4).blk t).view.emb x) = V c main_arg8 x
  refine congrArg _ (funext fun a => Fin.ext ?_)
  match a with
  | ⟨0, _⟩ => show win0_4.index t (0 : Fin 1) * 256 + 1 * (x 0).val = (x 0).val; rw [e0]; omega

/-- undefined -/
theorem whole_read5 (c : Dev nD) (t : Fin cfg0.N) :
    (iblk0 V c 5 t : Vec Ideal S256x256 .bf16) = (V c main_v23 : S256x256.Idx → EReal) := by
  obtain ⟨-, -, -, -, -, -, -, -, -, e0, e1, -⟩ := blocks_at t
  funext x
  show V c main_v23 (((cfg0.win 5).blk t).view.emb x) = V c main_v23 x
  refine congrArg _ (funext fun a => Fin.ext ?_)
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega

/-- The window over the second biases is that whole array at every point. -/
theorem whole_read6 (c : Dev nD) (t : Fin cfg0.N) :
    (iblk0 V c 6 t : Vec Ideal S256 .f32) = (V c main_arg10 : S256.Idx → EReal) := by
  obtain ⟨-, -, -, -, -, -, -, -, -, -, -, e0, -⟩ := blocks_at t
  funext x
  show V c main_arg10 (((cfg0.win 6).blk t).view.emb x) = V c main_arg10 x
  refine congrArg _ (funext fun a => Fin.ext ?_)
  match a with
  | ⟨0, _⟩ => show win0_6.index t (0 : Fin 1) * 256 + 1 * (x 0).val = (x 0).val; rw [e0]; omega

/-! ## What a point writes back, and the whole array -/

/-- An entry of the body's result over blocks that are rows of the arrays, against the specification at the array's index. -/
theorem block_entry (Xd Xs : Spec.Mat 320000 256) (Wt Wb : Spec.Mat 256 256) (B1 : Spec.Row 256) (W2 : Spec.Mat 256 256) (B2 : Spec.Row 256)
    (xd xs : Vec Ideal S2000x256 .f32) (wt wb : Vec Ideal S256x256 .bf16) (b1 : Vec Ideal S256 .f32)
    (w2 : Vec Ideal S256x256 .bf16) (b2 : Vec Ideal S256 .f32)
    (hwt : wt = Wt) (hwb : wb = Wb) (hb1 : b1 = B1) (hw2 : w2 = W2) (hb2 : b2 = B2)
    (i : S320000x256.Idx) (j : S2000x256.Idx)
    (hd : ∀ l : Fin 256, xd (ix2 (j 0) l) = Xd (ix2 (i 0) l)) (hs : ∀ l : Fin 256, xs (ix2 (j 0) l) = Xs (ix2 (i 0) l))
    (hq : (i 1).val = (j 1).val) :
    k0_pay1 xd wt xs wb b1 w2 b2 j = Spec.msgK Xd Xs Wt Wb B1 W2 B2 i := by
  subst hwt hwb hb1 hw2 hb2
  obtain ⟨p, q, rfl⟩ : ∃ (p : Fin 2000) (q : Fin 256), j = ix2 p q := ⟨j 0, j 1, eq_ix2 j⟩
  change ∀ l : Fin 256, xd (ix2 p l) = Xd (ix2 (i 0) l) at hd
  change ∀ l : Fin 256, xs (ix2 p l) = Xs (ix2 (i 0) l) at hs
  change (i 1).val = q.val at hq
  rw [pay_at]
  unfold Spec.msgK
  have hq' : q = i 1 := Fin.ext hq.symm
  subst hq'
  simp only [hd, hs]

/-- WHAT POINT t WRITES BACK is block t of the specification's message array of the region's inputs. -/
theorem block_written (c : Dev nD) (t : Fin cfg0.N) :
    (dat0 (F := Ideal) V c).flushed 7 t = ((cfg0.win 7).blk t).view.read (Elt Ideal)
      (Spec.msgK (V c main_v11) (V c main_v18) (V c main_v20) (V c main_v22) (V c main_arg8) (V c main_v23) (V c main_arg10)) := by
  show (cfg0.win 7).cut (grid0.coords t) ((dat0 V c).after 7 t) = _
  rw [after0_7]
  unfold out0_7
  rw [View.canon_unit_zero hz2]
  simp only [View.ld_unit_zero (S := S2000x256) hz2, View.ld_unit_zero (S := S256x256) hz2, View.ld_unit_zero (S := S256) hz1]
  obtain ⟨-, -, -, -, -, -, -, -, -, -, -, -, e0, e1⟩ := blocks_at t
  refine funext fun (j : S2000x256.Idx) => ?_
  show k0_pay1 (iblk0 V c 0 t) (iblk0 V c 2 t) (iblk0 V c 1 t) (iblk0 V c 3 t) (iblk0 V c 4 t) (iblk0 V c 5 t) (iblk0 V c 6 t) j
      = Spec.msgK (V c main_v11) (V c main_v18) (V c main_v20) (V c main_v22) (V c main_arg8) (V c main_v23) (V c main_arg10)
          (((cfg0.win 7).blk t).view.emb j)
  refine block_entry (V c main_v11) (V c main_v18) (V c main_v20) (V c main_v22) (V c main_arg8) (V c main_v23) (V c main_arg10)
    (iblk0 V c 0 t) (iblk0 V c 1 t) (iblk0 V c 2 t) (iblk0 V c 3 t) (iblk0 V c 4 t) (iblk0 V c 5 t) (iblk0 V c 6 t)
    (whole_read2 V c t) (whole_read3 V c t) (whole_read4 V c t) (whole_read5 V c t) (whole_read6 V c t)
    (((cfg0.win 7).blk t).view.emb j) j (fun l => ?_) (fun l => ?_) ?_
  · refine rows_read0 V c t (ix2 (j 0) l) _ ?_ rfl
    show win0_7.index t (0 : Fin 2) * 2000 + 1 * (j 0).val = 2000 * t.val + (j 0).val
    rw [e0]; omega
  · refine rows_read1 V c t (ix2 (j 0) l) _ ?_ rfl
    show win0_7.index t (0 : Fin 2) * 2000 + 1 * (j 0).val = 2000 * t.val + (j 0).val
    rw [e0]; omega
  · show win0_7.index t (1 : Fin 2) * 256 + 1 * (j 1).val = (j 1).val
    rw [e1]; omega

/-- An index of the message array is in point t's block iff each coordinate is in the block's range on its axis. -/
theorem mem_block (t : Fin cfg0.N) (i : S320000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v24).slice (win0_7.rect t)).set ↔ _
  rw [View.set_slice_whole, Rect.mem_set_unit]
  exact Iff.rfl

/-- Row r of the message array lies in the block of point r / 2000: the 160 row blocks cover the array. -/
theorem blocks_cover (i : S320000x256.Idx) :
    ∃ t : Fin cfg0.N, (cfg0.win 7).flush t = true ∧ i ∈ ((cfg0.win 7).blk t).view.set := by
  have h0 : (i 0).val < 320000 := (i 0).isLt
  have h1 : (i 1).val < 256 := (i 1).isLt
  have ht : (i 0).val / 2000 < cfg0.N := by rw [show cfg0.N = 160 from N_0]; omega
  obtain ⟨-, -, -, -, -, -, -, -, -, -, -, -, e0, e1⟩ := blocks_at ⟨(i 0).val / 2000, ht⟩
  refine ⟨⟨(i 0).val / 2000, ht⟩, flush0_7 _, ?_⟩
  rw [mem_block]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 256 ≤ (i 1).val ∧ (i 1).val < win0_7.index ⟨(i 0).val / 2000, ht⟩ (1 : Fin 2) * 256 + 256
    rw [e1]; omega

end Reg0

/-- After the first region the message array holds `Spec.msgK` of the region's seven input arrays as it found them. -/
theorem reg0_final (c : Dev nD) :
    (dat0 (F := Ideal) V c).arrAt 7 cfg0.N
      = Spec.msgK (V c main_v11) (V c main_v18) (V c main_v20) (V c main_v22) (V c main_arg8) (V c main_v23) (V c main_arg10) :=
  (dat0 (F := Ideal) V c).arrAt_eq_of_cover 7
    (Spec.msgK (V c main_v11) (V c main_v18) (V c main_v20) (V c main_v22) (V c main_arg8) (V c main_v23) (V c main_arg10))
    (fun t _ => Reg0.block_written V c t) Reg0.blocks_cover

end Cert.KernelIdeal.Hand

end
-- ==== Proof.KReg1.lean ====
/-
  The second kernel region, read as a value: grid point t writes rows 1000·t … 1000·t + 999 of the node-update array, each entry
  two perceptrons in a row of that node's summed messages, kept on the last 128 coordinates; the 10 row blocks cover the array.
-/
import proofs.«150242_j29703993819981_1_alg».proof.Proof.Gen.KernelIdeal.Frame
import proofs.«150242_j29703993819981_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

open scoped BigOperators

variable (V : (c : Dev nD) → (b : Ref sig .tc) → Buf (Elt Ideal) ((c : Thread nD τ).loc b))

namespace Reg1

/-! ## One element of a matrix product, of a bias row and of elu -/

/-- Row coordinate of the left factor's index at an output index: the output's row. -/
theorem lhs_dot_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl
/-- Column coordinate of the left factor's index: the summation index. -/
theorem lhs_dot_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
/-- Row coordinate of the right factor's index: the summation index. -/
theorem rhs_dot_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
/-- Column coordinate of the right factor's index: the output's column. -/
theorem rhs_dot_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl

/-- Entry (p, q) of a block of 1000 rows times a 256 × 256 matrix is the 256-term sum of products along row p and
    column q; the change of number format on the way in is the identity on extended reals. -/
theorem mm_apply (x : FVec Ideal S1000x256 .f32) (W : FVec Ideal S256x256 .bf16) (p : Fin 1000) (q : Fin 256) :
    matmul dot_S1000x256_S256x256_S1000x256_1_0_0_1_n_n none (truncf .bf16 x bitsLt_bf16_f32) W
        (constant (F := Ideal) S1000x256 .f32 0x00000000#32) (ix2 p q)
      = ∑ k : Fin 256, x (ix2 p k) * W (ix2 k q) := by
  simp only [matmul]
  rw [Ideal.matmul_constant_zero_apply,
    ← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q)
      ((ValueIdx.contrEquiv1 dot_S1000x256_S256x256_S1000x256_1_0_0_1_n_n 256 rfl rfl).symm k) = ix2 p k :=
    funext fun a => Fin.ext (by
      match a with
      | ⟨0, _⟩ => exact lhs_dot_0 _ _
      | ⟨1, _⟩ => exact (lhs_dot_1 _ _).trans hk)
  have er : dot_S1000x256_S256x256_S1000x256_1_0_0_1_n_n.rhsIdx (ix2 p q)
      ((ValueIdx.contrEquiv1 dot_S1000x256_S256x256_S1000x256_1_0_0_1_n_n 256 rfl rfl).symm k) = ix2 k q :=
    funext fun a => Fin.ext (by
      match a with
      | ⟨0, _⟩ => exact (rhs_dot_0 _ _).trans hk
      | ⟨1, _⟩ => exact rhs_dot_1 _ _)
  rw [el, er]
  rfl

/-- A bias row laid under every row of the block reads its own entry q at (p, q). -/
theorem bias_apply (b : Vec Ideal S256 .f32) (p : Fin 1000) (q : Fin 256) :
    broadcastTo S1000x256 (shapeCast S1x256 b shapeCasts_S256_S1x256) broadcasts_S1x256_S1000x256 (ix2 p q) = b (ix1 q) := by
  refine (broadcastTo_apply _ _ (ix2 p q) (ix2 (⟨0, by decide⟩ : Fin 1) q) fun a => ?_).trans ?_
  · match a with
    | ⟨0, _⟩ => rfl
    | ⟨1, _⟩ => rfl
  · refine (shapeCast_addUnit_apply ![256] b shapeCasts_S256_S1x256 _).trans ?_
    exact congrArg b (funext fun a => by match a with | ⟨0, _⟩ => rfl)

/-- The program's spelling of elu at one element: the words 0x00000000 and 0x3F800000 are the numbers 0 and 1. -/
theorem act_apply (h : FVec Ideal S1000x256 .f32) (i : S1000x256.Idx) :
    select (cmpf .ogt h (broadcast S1000x256 (Scalar.ofBits (F := Ideal) .f32 0x00000000#32))) h
        (subf (exp h) (broadcast S1000x256 (Scalar.ofBits (F := Ideal) .f32 0x3F800000#32))) i = Spec.elu (h i) := by
  show Scalar.select (Ideal.cmp .ogt (h i) (Ideal.ofBits .f32 0x00000000#32)) (h i) (Ideal.exp (h i) - Ideal.ofBits .f32 0x3F800000#32) = _
  rw [Ideal.ofBits_zero_f32, Ideal.ofBits_one_f32]
  rfl

/-! ## The body's arithmetic at one element -/

/-- A dense layer before its elu at (p, q): row p of the block against column q of the weights, plus the bias. -/
theorem pre_apply (x : FVec Ideal S1000x256 .f32) (W : FVec Ideal S256x256 .bf16) (b : Vec Ideal S256 .f32) (p : Fin 1000) (q : Fin 256) :
    addf (matmul dot_S1000x256_S256x256_S1000x256_1_0_0_1_n_n none (truncf .bf16 x bitsLt_bf16_f32) W
        (constant (F := Ideal) S1000x256 .f32 0x00000000#32))
      (broadcastTo S1000x256 (shapeCast S1x256 b shapeCasts_S256_S1x256) broadcasts_S1x256_S1000x256) (ix2 p q)
      = Spec.lin (fun k => x (ix2 p k)) W b q :=
  congrArg₂ (· + ·) (mm_apply x W p q) (bias_apply b p q)

/-- A dense layer with its elu at (p, q). -/
theorem layer_apply (x : FVec Ideal S1000x256 .f32) (W : FVec Ideal S256x256 .bf16) (b : Vec Ideal S256 .f32) (p : Fin 1000) (q : Fin 256) :
    select (cmpf .ogt (addf (matmul dot_S1000x256_S256x256_S1000x256_1_0_0_1_n_n none (truncf .bf16 x bitsLt_bf16_f32) W
            (constant (F := Ideal) S1000x256 .f32 0x00000000#32))
          (broadcastTo S1000x256 (shapeCast S1x256 b shapeCasts_S256_S1x256) broadcasts_S1x256_S1000x256))
        (broadcast S1000x256 (Scalar.ofBits (F := Ideal) .f32 0x00000000#32)))
      (addf (matmul dot_S1000x256_S256x256_S1000x256_1_0_0_1_n_n none (truncf .bf16 x bitsLt_bf16_f32) W
            (constant (F := Ideal) S1000x256 .f32 0x00000000#32))
          (broadcastTo S1000x256 (shapeCast S1x256 b shapeCasts_S256_S1x256) broadcasts_S1x256_S1000x256))
      (subf (exp (addf (matmul dot_S1000x256_S256x256_S1000x256_1_0_0_1_n_n none (truncf .bf16 x bitsLt_bf16_f32) W
            (constant (F := Ideal) S1000x256 .f32 0x00000000#32))
          (broadcastTo S1000x256 (shapeCast S1x256 b shapeCasts_S256_S1x256) broadcasts_S1x256_S1000x256)))
        (broadcast S1000x256 (Scalar.ofBits (F := Ideal) .f32 0x3F800000#32))) (ix2 p q)
      = Spec.elu (Spec.lin (fun k => x (ix2 p k)) W b q) :=
  (act_apply _ _).trans (congrArg Spec.elu (pre_apply x W b p q))

/-- The cast of the last weight matrix to its own shape changes nothing. -/
theorem pay2_eq (x7 : Vec Ideal S256x256 .bf16) : k1_pay2 x7 = x7 := by
  unfold k1_pay2
  exact shapeCast_self _ _

/-- The first perceptron and the product with the third weights at (p, q): the 256-term sum, over the perceptron's
    coordinates of row p, against column q. -/
theorem pay3_apply (x0 : Vec Ideal S1000x256 .f32) (x1 : Vec Ideal S256x256 .bf16) (x2 : Vec Ideal S256 .f32)
    (x3 : Vec Ideal S256x256 .bf16) (x4 : Vec Ideal S256 .f32) (x5 : Vec Ideal S256x256 .bf16) (p : Fin 1000) (q : Fin 256) :
    k1_pay3 x0 x1 x2 x3 x4 x5 (ix2 p q)
      = ∑ k : Fin 256, Spec.mlp (fun l => x0 (ix2 p l)) x1 x2 x3 x4 k * x5 (ix2 k q) := by
  unfold k1_pay3
  simp only [shapeCast_self]
  refine (mm_apply _ _ p q).trans (Finset.sum_congr rfl fun k _ => congrArg (· * x5 (ix2 k q)) ?_)
  refine (layer_apply _ x3 x4 p k).trans ?_
  exact congrArg Spec.elu (congrArg (fun f => Spec.lin f x3 x4 k) (funext fun k' => layer_apply x0 x1 x2 p k'))

/-- The rest of the second perceptron and the cut to the last 128 columns at (p, j), for any block v of products with
    the third weights. -/
theorem pay1_apply (b3 : Vec Ideal S256 .f32) (W4 : FVec Ideal S256x256 .bf16) (b4 : Vec Ideal S256 .f32)
    (v : FVec Ideal S1000x256 .f32) (p : Fin 1000) (j : Fin 128) :
    k1_pay1 b3 W4 b4 v (ix2 p j)
      = Spec.elu (Spec.lin (fun k => Spec.elu (v (ix2 p k) + b3 (ix1 k))) W4 b4 ⟨128 + j.val, by have := j.isLt; omega⟩) := by
  unfold k1_pay1
  refine (extractStridedSlice_apply _ _ _ (ix2 p j) (ix2 p ⟨128 + j.val, by have := j.isLt; omega⟩) fun a => ?_).trans ?_
  · match a with
    | ⟨0, _⟩ => show p.val = 0 + p.val; omega
    | ⟨1, _⟩ => rfl
  refine (act_apply _ _).trans (congrArg Spec.elu ?_)
  refine (congrArg₂ (· + ·) (mm_apply _ W4 p _) (bias_apply b4 p _)).trans ?_
  exact congrArg (· + b4 (ix1 _)) (Finset.sum_congr rfl fun k _ => congrArg (· * W4 (ix2 k _))
    ((act_apply _ _).trans (congrArg Spec.elu (congrArg (v (ix2 p k) + ·) (bias_apply b3 p k)))))

/-- The whole body at (p, j): the two perceptrons of row p of the block, at coordinate 128 + j. -/
theorem pay_apply (x0 : Vec Ideal S1000x256 .f32) (x1 : Vec Ideal S256x256 .bf16) (x2 : Vec Ideal S256 .f32)
    (x3 : Vec Ideal S256x256 .bf16) (x4 : Vec Ideal S256 .f32) (x5 : Vec Ideal S256x256 .bf16) (x6 : Vec Ideal S256 .f32)
    (x7 : Vec Ideal S256x256 .bf16) (x8 : Vec Ideal S256 .f32) (p : Fin 1000) (j : Fin 128) :
    k1_pay1 x6 (k1_pay2 x7) x8 (k1_pay3 x0 x1 x2 x3 x4 x5) (ix2 p j)
      = Spec.mlp (fun k => Spec.mlp (fun l => x0 (ix2 p l)) x1 x2 x3 x4 k) x5 x6 x7 x8
          ⟨128 + j.val, by have := j.isLt; omega⟩ := by
  rw [pay2_eq]
  refine (pay1_apply x6 x7 x8 _ p j).trans ?_
  refine congrArg Spec.elu (congrArg (fun f => Spec.lin f x7 x8 _) (funext fun k => congrArg Spec.elu ?_))
  exact congrArg (· + x6 (ix1 k)) (pay3_apply x0 x1 x2 x3 x4 x5 p k)

/-! ## From the blocks to the array -/

theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-- The index maps over the 10 grid points: the summed messages and the result move one block of rows per point, the
    weights and biases stay at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Point t's block of the summed messages is rows 1000 t … 1000 t + 999 of that array. -/
theorem blk0_apply (c : Dev nD) (t : Fin cfg1.N) (p : Fin 1000) (l : Fin 256) :
    (iblk1 V c 0 t : Vec Ideal S1000x256 .f32) (ix2 p l)
      = (V c main_v27 : S10000x256.Idx → EReal) (ix2 ⟨1000 * t.val + p.val, by have : t.val < 10 := t.isLt; have := p.isLt; omega⟩ l) := by
  obtain ⟨e0, e1, -⟩ := idx_facts t
  unfold iblk1
  rw [View.read_apply]
  show V c main_v27 _ = V c main_v27 _
  refine congrArg _ (funext fun a => Fin.ext ?_)
  match a with
  | ⟨0, _⟩ => show win1_0.index t (0 : Fin 2) * 1000 + 1 * p.val = 1000 * t.val + p.val; rw [e0]; omega
  | ⟨1, _⟩ => show win1_0.index t (1 : Fin 2) * 256 + 1 * l.val = l.val; rw [e1]; omega

/-! The weights and biases are read whole at every point: their one block is the array. -/

theorem blk1_eq (c : Dev nD) (t : Fin cfg1.N) :
    (iblk1 V c 1 t : Vec Ideal S256x256 .bf16) = (V c main_v28 : S256x256.Idx → EReal) := by
  have e := idx_facts t
  funext y
  unfold iblk1
  rw [View.read_apply]
  show V c main_v28 _ = V c main_v28 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem blk2_eq (c : Dev nD) (t : Fin cfg1.N) :
    (iblk1 V c 2 t : Vec Ideal S256 .f32) = (V c main_arg12 : S256.Idx → EReal) := by
  have e := idx_facts t
  funext y
  unfold iblk1
  rw [View.read_apply]
  show V c main_arg12 _ = V c main_arg12 y
  refine congrArg _ (funext fun a => Fin.ext ?_)
  match a with
  | ⟨0, _⟩ => show win1_2.index t (0 : Fin 1) * 256 + 1 * (y 0).val = (y 0).val; omega

theorem blk3_eq (c : Dev nD) (t : Fin cfg1.N) :
    (iblk1 V c 3 t : Vec Ideal S256x256 .bf16) = (V c main_v29 : S256x256.Idx → EReal) := by
  have e := idx_facts t
  funext y
  unfold iblk1
  rw [View.read_apply]
  show V c main_v29 _ = V c main_v29 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem blk4_eq (c : Dev nD) (t : Fin cfg1.N) :
    (iblk1 V c 4 t : Vec Ideal S256 .f32) = (V c main_arg14 : S256.Idx → EReal) := by
  have e := idx_facts t
  funext y
  unfold iblk1
  rw [View.read_apply]
  show V c main_arg14 _ = V c main_arg14 y
  refine congrArg _ (funext fun a => Fin.ext ?_)
  match a with
  | ⟨0, _⟩ => show win1_4.index t (0 : Fin 1) * 256 + 1 * (y 0).val = (y 0).val; omega

theorem blk5_eq (c : Dev nD) (t : Fin cfg1.N) :
    (iblk1 V c 5 t : Vec Ideal S256x256 .bf16) = (V c main_v30 : S256x256.Idx → EReal) := by
  have e := idx_facts t
  funext y
  unfold iblk1
  rw [View.read_apply]
  show V c main_v30 _ = V c main_v30 y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

theorem blk6_eq (c : Dev nD) (t : Fin cfg1.N) :
    (iblk1 V c 6 t : Vec Ideal S256 .f32) = (V c main_arg16 : S256.Idx → EReal) := by
  have e := idx_facts t
  funext y
  unfold iblk1
  rw [View.read_apply]
  show V c main_arg16 _ = V c main_arg16 y
  refine congrArg _ (funext fun a => Fin.ext ?_)
  match a with
  | ⟨0, _⟩ => show win1_6.index t (0 : Fin 1) * 256 + 1 * (y 0).val = (y 0).val; omega

theorem blk7_eq (c : Dev nD) (t : Fin cfg1.N) :
    (iblk1 V c 7 t : Vec Ideal S256x256 .bf16) = (V c main_v31 : S256x256.Idx → EReal) := by
  have e := idx_facts t
  funext y
  unfold iblk1
  rw [View.read_apply]
  show V c main_v31 _ = V c main_v31 y
  refine congrArg _ (funext fun a => Fin.ext ?_)
  match a with
  | ⟨0, _⟩ => show win1_7.index t (0 : Fin 2) * 256 + 1 * (y 0).val = (y 0).val; omega
  | ⟨1, _⟩ => show win1_7.index t (1 : Fin 2) * 256 + 1 * (y 1).val = (y 1).val; omega

theorem blk8_eq (c : Dev nD) (t : Fin cfg1.N) :
    (iblk1 V c 8 t : Vec Ideal S256 .f32) = (V c main_arg18 : S256.Idx → EReal) := by
  have e := idx_facts t
  funext y
  unfold iblk1
  rw [View.read_apply]
  show V c main_arg18 _ = V c main_arg18 y
  refine congrArg _ (funext fun a => Fin.ext ?_)
  match a with
  | ⟨0, _⟩ => show win1_8.index t (0 : Fin 1) * 256 + 1 * (y 0).val = (y 0).val; omega

/-- The body's result on a block holding rows 1000 n … 1000 n + 999 of the summed messages A is the same rows of the node
    update of A: entry y of the block is entry i of the array when i is y moved down 1000 n rows. -/
theorem block_fun_eq (x0 : Vec Ideal S1000x256 .f32) (A : Spec.Mat 10000 256) (x1 : Vec Ideal S256x256 .bf16)
    (x2 : Vec Ideal S256 .f32) (x3 : Vec Ideal S256x256 .bf16) (x4 : Vec Ideal S256 .f32) (x5 : Vec Ideal S256x256 .bf16)
    (x6 : Vec Ideal S256 .f32) (x7 : Vec Ideal S256x256 .bf16) (x8 : Vec Ideal S256 .f32) (n : Nat) (hn : n < 10)
    (h0 : ∀ (p : Fin 1000) (l : Fin 256), x0 (ix2 p l) = A (ix2 ⟨1000 * n + p.val, by have := p.isLt; omega⟩ l))
    (y : S1000x128.Idx) (i : S10000x128.Idx) (hi0 : (i 0).val = 1000 * n + (y 0).val) (hi1 : (i 1).val = (y 1).val) :
    k1_pay1 x6 (k1_pay2 x7) x8 (k1_pay3 x0 x1 x2 x3 x4 x5) y = Spec.hc A x1 x2 x3 x4 x5 x6 x7 x8 i := by
  obtain ⟨p, j, rfl⟩ : ∃ (p : Fin 1000) (j : Fin 128), y = ix2 p j := ⟨y 0, y 1, eq_ix2 y⟩
  have hb : 1000 * n + p.val < 10000 := by have := p.isLt; omega
  obtain ⟨r, j', rfl⟩ : ∃ (r : Fin 10000) (j' : Fin 128), i = ix2 r j' := ⟨i 0, i 1, eq_ix2 i⟩
  obtain rfl : r = ⟨1000 * n + p.val, hb⟩ := Fin.ext hi0
  obtain rfl : j' = j := Fin.ext hi1
  rw [pay_apply]
  unfold Spec.hc
  refine congrArg (fun f => Spec.mlp f x5 x6 x7 x8 _) (funext fun k => ?_)
  exact congrArg (fun f => Spec.mlp f x1 x2 x3 x4 k) (funext fun l => h0 p l)

/-- What point t writes back is block t of the node update of the nine arrays as the region found them. -/
theorem flushed_eq (c : Dev nD) (t : Fin cfg1.N) :
    (dat1 (F := Ideal) V c).flushed 9 t = ((cfg1.win 9).blk t).view.read (Elt Ideal)
      (Spec.hc (V c main_v27) (V c main_v28) (V c main_arg12) (V c main_v29) (V c main_arg14) (V c main_v30)
        (V c main_arg16) (V c main_v31) (V c main_arg18)) := by
  show (cfg1.win 9).cut (grid1.coords t) ((dat1 V c).after 9 t) = _
  rw [after1_9]
  unfold out1_9
  rw [View.canon_unit_zero hz2]
  simp only [View.ld_unit_zero (S := S1000x256) hz2, View.ld_unit_zero (S := S256x256) hz2, View.ld_unit_zero (S := S256) hz1]
  rw [blk1_eq V c t, blk2_eq V c t, blk3_eq V c t, blk4_eq V c t, blk5_eq V c t, blk6_eq V c t, blk7_eq V c t, blk8_eq V c t]
  have e := idx_facts t
  funext j
  refine block_fun_eq (iblk1 V c 0 t) (V c main_v27) (V c main_v28) (V c main_arg12) (V c main_v29) (V c main_arg14)
    (V c main_v30) (V c main_arg16) (V c main_v31) (V c main_arg18) t.val t.isLt (fun p l => blk0_apply V c t p l) j
    (((cfg1.win 9).blk t).view.emb j) ?_ ?_
  · show win1_9.index t (0 : Fin 2) * 1000 + 1 * (j 0).val = 1000 * t.val + (j 0).val; omega
  · show win1_9.index t (1 : Fin 2) * 128 + 1 * (j 1).val = (j 1).val; omega

/-- An index of the result array lies in point t's block iff each coordinate lies in the block's range on its axis. -/
theorem mem_blk (t : Fin cfg1.N) (i : S10000x128.Idx) :
    i ∈ ((cfg1.win 9).blk t).view.set ↔ ∀ a : Fin 2, win1_9.index t a * S1000x128.size a ≤ (i a).val
      ∧ (i a).val < win1_9.index t a * S1000x128.size a + S1000x128.size a := by
  show i ∈ ((View.whole main_v32).slice (win1_9.rect t)).set ↔ _
  rw [View.set_slice_whole, Rect.mem_set_unit]
  exact Iff.rfl

/-- Row r of the result lies in the block of point r / 1000, and every point writes its block back: the 10 blocks cover
    the array. -/
theorem cover (i : S10000x128.Idx) :
    ∃ t : Fin cfg1.N, (cfg1.win 9).flush t = true ∧ i ∈ ((cfg1.win 9).blk t).view.set := by
  have h0 : (i 0).val < 10000 := (i 0).isLt
  have h1 : (i 1).val < 128 := (i 1).isLt
  have ht : (i 0).val / 1000 < cfg1.N := by show _ < 10; omega
  have e := idx_facts ⟨(i 0).val / 1000, ht⟩
  have e0 : win1_9.index ⟨(i 0).val / 1000, ht⟩ (0 : Fin 2) = (i 0).val / 1000 := e.2.2.2.2.2.2.2.2.2.2.2.2.2.2.1
  have e1 : win1_9.index ⟨(i 0).val / 1000, ht⟩ (1 : Fin 2) = 0 := e.2.2.2.2.2.2.2.2.2.2.2.2.2.2.2
  refine ⟨⟨(i 0).val / 1000, ht⟩, flush1_9 _, ?_⟩
  rw [mem_blk]
  intro a
  match a with
  | ⟨0, _⟩ =>
    show win1_9.index ⟨(i 0).val / 1000, ht⟩ (0 : Fin 2) * 1000 ≤ (i 0).val
      ∧ (i 0).val < win1_9.index ⟨(i 0).val / 1000, ht⟩ (0 : Fin 2) * 1000 + 1000
    rw [e0]; omega
  | ⟨1, _⟩ =>
    show win1_9.index ⟨(i 0).val / 1000, ht⟩ (1 : Fin 2) * 128 ≤ (i 1).val
      ∧ (i 1).val < win1_9.index ⟨(i 0).val / 1000, ht⟩ (1 : Fin 2) * 128 + 128
    rw [e1]; omega

end Reg1

/-- After the second region its result array holds `Spec.hc` of the region's nine input arrays as it found them. -/
theorem reg1_final (c : Dev nD) :
    (dat1 (F := Ideal) V c).arrAt 9 cfg1.N
      = Spec.hc (V c main_v27) (V c main_v28) (V c main_arg12) (V c main_v29) (V c main_arg14) (V c main_v30) (V c main_arg16) (V c main_v31) (V c main_arg18) :=
  (dat1 (F := Ideal) V c).arrAt_eq_of_cover 9 _ (fun t _ => Reg1.flushed_eq V c t) Reg1.cover

end Cert.KernelIdeal.Hand

end
-- ==== Proof.KReg2.lean ====
/-
  The third kernel region, read as a value: grid point t writes rows 200·t … 200·t + 199 of the result, each entry the output
  layer of that node's 128 numbers; the 50 row blocks cover the array.
-/
import proofs.«150242_j29703993819981_1_alg».proof.Proof.Gen.KernelIdeal.Frame
import proofs.«150242_j29703993819981_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

namespace Reg2

/-! ### The two matrix products read at an index -/

theorem lhs_a_0 (i : S200x384.Idx) (q : dot_S200x128_S128x384_S200x384_1_0_0_1_n_n.contr.Idx) :
    (dot_S200x128_S128x384_S200x384_1_0_0_1_n_n.lhsIdx i q 0).val = (i 0).val := by
  unfold DotDims.lhsIdx
  rw [dif_neg (show ¬(0 : Fin S200x128.rank) ∈ dot_S200x128_S128x384_S200x384_1_0_0_1_n_n.lhsBatch by decide),
    dif_pos (show (0 : Fin S200x128.rank) ∈ dot_S200x128_S128x384_S200x384_1_0_0_1_n_n.lhsNonContracting by decide)]
  rfl
theorem lhs_a_1 (i : S200x384.Idx) (q : dot_S200x128_S128x384_S200x384_1_0_0_1_n_n.contr.Idx) :
    (dot_S200x128_S128x384_S200x384_1_0_0_1_n_n.lhsIdx i q 1).val = (q ⟨0, by decide⟩).val :=
  dot_S200x128_S128x384_S200x384_1_0_0_1_n_n.lhsIdx_val_of_single rfl i q
theorem rhs_a_0 (i : S200x384.Idx) (q : dot_S200x128_S128x384_S200x384_1_0_0_1_n_n.contr.Idx) :
    (dot_S200x128_S128x384_S200x384_1_0_0_1_n_n.rhsIdx i q 0).val = (q ⟨0, by decide⟩).val :=
  dot_S200x128_S128x384_S200x384_1_0_0_1_n_n.rhsIdx_val_of_single rfl i q
theorem rhs_a_1 (i : S200x384.Idx) (q : dot_S200x128_S128x384_S200x384_1_0_0_1_n_n.contr.Idx) :
    (dot_S200x128_S128x384_S200x384_1_0_0_1_n_n.rhsIdx i q 1).val = (i 1).val := by
  unfold DotDims.rhsIdx
  rw [dif_neg (show ¬(1 : Fin S128x384.rank) ∈ dot_S200x128_S128x384_S200x384_1_0_0_1_n_n.rhsBatch by decide),
    dif_pos (show (1 : Fin S128x384.rank) ∈ dot_S200x128_S128x384_S200x384_1_0_0_1_n_n.rhsNonContracting by decide)]
  rfl

/-- Entry (p, k) of the first product: row p of the left factor against column k of the right one. -/
theorem mmA_apply (l : FVec Ideal S200x128 .bf16) (r : FVec Ideal S128x384 .bf16) (p : Fin 200) (k : Fin 384) :
    matmul dot_S200x128_S128x384_S200x384_1_0_0_1_n_n none l r (constant (F := Ideal) S200x384 .f32 0x00000000#32) (ix2 p k)
      = ∑ a : Fin 128, l (ix2 p a) * r (ix2 a k) := by
  refine (Ideal.matmul_constant_zero_apply dot_S200x128_S128x384_S200x384_1_0_0_1_n_n none l r (ix2 p k)).trans ?_
  rw [← Equiv.sum_comp (ValueIdx.contrEquiv1 dot_S200x128_S128x384_S200x384_1_0_0_1_n_n 128 rfl rfl).symm]
  refine Finset.sum_congr rfl fun a _ => ?_
  have hk := ValueIdx.contrEquiv1_symm_val dot_S200x128_S128x384_S200x384_1_0_0_1_n_n 128 rfl rfl a
  have el : dot_S200x128_S128x384_S200x384_1_0_0_1_n_n.lhsIdx (ix2 p k)
      ((ValueIdx.contrEquiv1 dot_S200x128_S128x384_S200x384_1_0_0_1_n_n 128 rfl rfl).symm a) = ix2 p a :=
    funext fun ax => Fin.ext (by
      match ax with
      | ⟨0, _⟩ => exact lhs_a_0 _ _
      | ⟨1, _⟩ => exact (lhs_a_1 _ _).trans hk)
  have er : dot_S200x128_S128x384_S200x384_1_0_0_1_n_n.rhsIdx (ix2 p k)
      ((ValueIdx.contrEquiv1 dot_S200x128_S128x384_S200x384_1_0_0_1_n_n 128 rfl rfl).symm a) = ix2 a k :=
    funext fun ax => Fin.ext (by
      match ax with
      | ⟨0, _⟩ => exact (rhs_a_0 _ _).trans hk
      | ⟨1, _⟩ => exact rhs_a_1 _ _)
  rw [el, er]

theorem lhs_b_0 (i : S200x10000.Idx) (q : dot_S200x384_S384x10000_S200x10000_1_0_0_1_n_n.contr.Idx) :
    (dot_S200x384_S384x10000_S200x10000_1_0_0_1_n_n.lhsIdx i q 0).val = (i 0).val := by
  unfold DotDims.lhsIdx
  rw [dif_neg (show ¬(0 : Fin S200x384.rank) ∈ dot_S200x384_S384x10000_S200x10000_1_0_0_1_n_n.lhsBatch by decide),
    dif_pos (show (0 : Fin S200x384.rank) ∈ dot_S200x384_S384x10000_S200x10000_1_0_0_1_n_n.lhsNonContracting by decide)]
  rfl
theorem lhs_b_1 (i : S200x10000.Idx) (q : dot_S200x384_S384x10000_S200x10000_1_0_0_1_n_n.contr.Idx) :
    (dot_S200x384_S384x10000_S200x10000_1_0_0_1_n_n.lhsIdx i q 1).val = (q ⟨0, by decide⟩).val :=
  dot_S200x384_S384x10000_S200x10000_1_0_0_1_n_n.lhsIdx_val_of_single rfl i q
theorem rhs_b_0 (i : S200x10000.Idx) (q : dot_S200x384_S384x10000_S200x10000_1_0_0_1_n_n.contr.Idx) :
    (dot_S200x384_S384x10000_S200x10000_1_0_0_1_n_n.rhsIdx i q 0).val = (q ⟨0, by decide⟩).val :=
  dot_S200x384_S384x10000_S200x10000_1_0_0_1_n_n.rhsIdx_val_of_single rfl i q
theorem rhs_b_1 (i : S200x10000.Idx) (q : dot_S200x384_S384x10000_S200x10000_1_0_0_1_n_n.contr.Idx) :
    (dot_S200x384_S384x10000_S200x10000_1_0_0_1_n_n.rhsIdx i q 1).val = (i 1).val := by
  unfold DotDims.rhsIdx
  rw [dif_neg (show ¬(1 : Fin S384x10000.rank) ∈ dot_S200x384_S384x10000_S200x10000_1_0_0_1_n_n.rhsBatch by decide),
    dif_pos (show (1 : Fin S384x10000.rank) ∈ dot_S200x384_S384x10000_S200x10000_1_0_0_1_n_n.rhsNonContracting by decide)]
  rfl

/-- Entry (p, k) of the second product: row p of the left factor against column k of the right one. -/
theorem mmB_apply (l : FVec Ideal S200x384 .bf16) (r : FVec Ideal S384x10000 .bf16) (p : Fin 200) (k : Fin 10000) :
    matmul dot_S200x384_S384x10000_S200x10000_1_0_0_1_n_n none l r (constant (F := Ideal) S200x10000 .f32 0x00000000#32) (ix2 p k)
      = ∑ a : Fin 384, l (ix2 p a) * r (ix2 a k) := by
  refine (Ideal.matmul_constant_zero_apply dot_S200x384_S384x10000_S200x10000_1_0_0_1_n_n none l r (ix2 p k)).trans ?_
  rw [← Equiv.sum_comp (ValueIdx.contrEquiv1 dot_S200x384_S384x10000_S200x10000_1_0_0_1_n_n 384 rfl rfl).symm]
  refine Finset.sum_congr rfl fun a _ => ?_
  have hk := ValueIdx.contrEquiv1_symm_val dot_S200x384_S384x10000_S200x10000_1_0_0_1_n_n 384 rfl rfl a
  have el : dot_S200x384_S384x10000_S200x10000_1_0_0_1_n_n.lhsIdx (ix2 p k)
      ((ValueIdx.contrEquiv1 dot_S200x384_S384x10000_S200x10000_1_0_0_1_n_n 384 rfl rfl).symm a) = ix2 p a :=
    funext fun ax => Fin.ext (by
      match ax with
      | ⟨0, _⟩ => exact lhs_b_0 _ _
      | ⟨1, _⟩ => exact (lhs_b_1 _ _).trans hk)
  have er : dot_S200x384_S384x10000_S200x10000_1_0_0_1_n_n.rhsIdx (ix2 p k)
      ((ValueIdx.contrEquiv1 dot_S200x384_S384x10000_S200x10000_1_0_0_1_n_n 384 rfl rfl).symm a) = ix2 a k :=
    funext fun ax => Fin.ext (by
      match ax with
      | ⟨0, _⟩ => exact (rhs_b_0 _ _).trans hk
      | ⟨1, _⟩ => exact rhs_b_1 _ _)
  rw [el, er]

/-! ### The body's arithmetic at one entry -/

/-- The hidden layer at (p, k): the first dense layer of row p, then `max · 0`. -/
theorem hidden_apply (x0 : FVec Ideal S200x128 .f32) (x1 : FVec Ideal S128x384 .bf16) (x2 : FVec Ideal S384 .f32)
    (h0 : S200x128.ShapeCasts S200x128) (hb : FTy.bits .bf16 < FTy.bits .f32) (h1 : S128x384.ShapeCasts S128x384)
    (h2 : S384.ShapeCasts S1x384) (h3 : S1x384.Broadcasts S200x384) (p : Fin 200) (k : Fin 384) :
    maximumf
        (addf
          (matmul dot_S200x128_S128x384_S200x384_1_0_0_1_n_n none (truncf .bf16 (shapeCast S200x128 x0 h0) hb)
            (shapeCast S128x384 x1 h1) (constant (F := Ideal) S200x384 .f32 0x00000000#32))
          (broadcastTo S200x384 (shapeCast S1x384 x2 h2) h3))
        (broadcast S200x384 (Scalar.ofBits (F := Ideal) .f32 0x00000000#32)) (ix2 p k)
      = max (Spec.lin (fun l => x0 (ix2 p l)) x1 x2 k) 0 := by
  rw [maximumf_apply, addf_apply, broadcast_apply, mmA_apply, shapeCast_self, shapeCast_self]
  rw [broadcastTo_1b_ab_apply, shapeCast_a_1a_apply]
  show max _ (Ideal.ofBits .f32 0x00000000#32) = _
  rw [Ideal.ofBits_zero_f32]
  rfl

/-- An exponential at an index is the exponential of the element. -/
theorem exp_apply {s : Shape} {φ : FTy} (a : FVec Ideal s φ) (i : s.Idx) : exp a i = Ideal.exp (a i) := rfl

/-- The output layer at (p, q) over any hidden block: the second dense layer of row p, then the logistic function. -/
theorem out_apply (hid : FVec Ideal S200x384 .f32) (x3 : FVec Ideal S384x10000 .bf16) (x4 : FVec Ideal S10000 .f32)
    (hb : FTy.bits .bf16 < FTy.bits .f32) (h1 : S384x10000.ShapeCasts S384x10000)
    (h2 : S10000.ShapeCasts S1x10000) (h3 : S1x10000.Broadcasts S200x10000) (p : Fin 200) (q : Fin 10000) :
    divf (broadcast S200x10000 (Scalar.ofBits (F := Ideal) .f32 0x3F800000#32))
        (addf (broadcast S200x10000 (Scalar.ofBits (F := Ideal) .f32 0x3F800000#32))
          (exp (subf (broadcast S200x10000 (Scalar.ofBits (F := Ideal) .f32 0x00000000#32))
            (addf
              (matmul dot_S200x384_S384x10000_S200x10000_1_0_0_1_n_n none (truncf .bf16 hid hb)
                (shapeCast S384x10000 x3 h1) (constant (F := Ideal) S200x10000 .f32 0x00000000#32))
              (broadcastTo S200x10000 (shapeCast S1x10000 x4 h2) h3))))) (ix2 p q)
      = Spec.sigm (Spec.lin (fun k => hid (ix2 p k)) x3 x4 q) := by
  rw [divf_apply, addf_apply, broadcast_apply, exp_apply, subf_apply, broadcast_apply, addf_apply, mmB_apply, shapeCast_self, broadcastTo_1b_ab_apply, shapeCast_a_1a_apply]
  show Ideal.div (Ideal.ofBits .f32 0x3F800000#32)
      (Ideal.ofBits .f32 0x3F800000#32 + Ideal.exp (Ideal.ofBits .f32 0x00000000#32 - _)) = _
  rw [Ideal.ofBits_one_f32, Ideal.ofBits_zero_f32, zero_sub]
  rfl

/-- The body's result at (p, q) is the output layer of row p of its first block. -/
theorem pay_apply (x0 : FVec Ideal S200x128 .f32) (x1 : FVec Ideal S128x384 .bf16) (x2 : FVec Ideal S384 .f32)
    (x3 : FVec Ideal S384x10000 .bf16) (x4 : FVec Ideal S10000 .f32) (p : Fin 200) (q : Fin 10000) :
    k2_pay1 (F := Ideal) x0 x1 x2 x3 x4 (ix2 p q)
      = Spec.sigm (Spec.lin (fun k => max (Spec.lin (fun l => x0 (ix2 p l)) x1 x2 k) 0) x3 x4 q) := by
  unfold k2_pay1
  refine (out_apply _ x3 x4 _ _ _ _ p q).trans ?_
  refine congrArg Spec.sigm (congrArg (fun f => Spec.lin f x3 x4 q) (funext fun k => ?_))
  exact hidden_apply x0 x1 x2 _ _ _ _ _ p k

/-! ### From the blocks to the array -/

theorem hz : (![0, 0] : Fin 2 → Nat) = fun _ => 0 := funext fun a => by fin_cases a <;> rfl
theorem hz1 : (![0] : Fin 1 → Nat) = fun _ => 0 := funext fun a => by fin_cases a <;> rfl

/-- The body's result at (p, q), once each block is known as a part of its array (row p of the first block is row r of
    the node array, the others are the whole weight arrays): entry (r, q) of `Spec.out`. -/
theorem out_of_blocks (A : Spec.Mat 10000 128) (W1 : Spec.Mat 128 384) (b1 : Spec.Row 384) (W2 : Spec.Mat 384 10000)
    (b2 : Spec.Row 10000) (x0 : FVec Ideal S200x128 .f32) (x1 : FVec Ideal S128x384 .bf16) (x2 : FVec Ideal S384 .f32)
    (x3 : FVec Ideal S384x10000 .bf16) (x4 : FVec Ideal S10000 .f32) (r : Fin 10000) (p : Fin 200) (q : Fin 10000)
    (e0 : ∀ l : Fin 128, x0 (ix2 p l) = A (ix2 r l)) (e1 : x1 = W1) (e2 : x2 = b1) (e3 : x3 = W2) (e4 : x4 = b2) :
    k2_pay1 (F := Ideal) x0 x1 x2 x3 x4 (ix2 p q) = Spec.out A W1 b1 W2 b2 (ix2 r q) := by
  subst e1 e2 e3 e4
  rw [pay_apply]
  simp only [e0]
  rfl

/-- The block index of each window at a grid point: the row blocks move with the point, the weights stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row p of the node block at point t is row 200·t + p of the node array. -/
theorem blk0_apply (c : Dev nD) (t : Fin cfg2.N) (p : Fin 200) (l : Fin 128) (r : Fin 10000)
    (hr : r.val = t.val * 200 + p.val) :
    (iblk2 V c 0 t : FVec Ideal S200x128 .f32) (ix2 p l)
      = (V c main_v32 : S10000x128.Idx → Elt Ideal .f32) (ix2 r l) := by
  obtain ⟨e00, e01, -⟩ := idx_facts t
  show (V c main_v32 : S10000x128.Idx → Elt Ideal .f32) (((cfg2.win 0).blk t).view.emb (ix2 p l)) = _
  refine congrArg (V c main_v32 : S10000x128.Idx → Elt Ideal .f32) (funext fun a => Fin.ext ?_)
  match a with
  | ⟨0, _⟩ => show win2_0.index t (0 : Fin 2) * 200 + 1 * p.val = r.val; rw [e00, hr]; omega
  | ⟨1, _⟩ => show win2_0.index t (1 : Fin 2) * 128 + 1 * l.val = l.val; rw [e01]; omega

/-- The first weight block is the whole array at every point. -/
theorem blk1_eq (c : Dev nD) (t : Fin cfg2.N) :
    (iblk2 V c 1 t : FVec Ideal S128x384 .bf16) = (V c main_v33 : S128x384.Idx → Elt Ideal .bf16) := by
  obtain ⟨-, -, e10, e11, -⟩ := idx_facts t
  funext y
  show (V c main_v33 : S128x384.Idx → Elt Ideal .bf16) (((cfg2.win 1).blk t).view.emb y) = _
  refine congrArg (V c main_v33 : S128x384.Idx → Elt Ideal .bf16) (funext fun a => Fin.ext ?_)
  match a with
  | ⟨0, _⟩ => show win2_1.index t (0 : Fin 2) * 128 + 1 * (y 0).val = (y 0).val; rw [e10]; omega
  | ⟨1, _⟩ => show win2_1.index t (1 : Fin 2) * 384 + 1 * (y 1).val = (y 1).val; rw [e11]; omega

/-- The first bias block is the whole array at every point. -/
theorem blk2_eq (c : Dev nD) (t : Fin cfg2.N) :
    (iblk2 V c 2 t : FVec Ideal S384 .f32) = (V c main_arg20 : S384.Idx → Elt Ideal .f32) := by
  obtain ⟨-, -, -, -, e20, -⟩ := idx_facts t
  funext y
  show (V c main_arg20 : S384.Idx → Elt Ideal .f32) (((cfg2.win 2).blk t).view.emb y) = _
  refine congrArg (V c main_arg20 : S384.Idx → Elt Ideal .f32) (funext fun a => Fin.ext ?_)
  match a with
  | ⟨0, _⟩ => show win2_2.index t (0 : Fin 1) * 384 + 1 * (y 0).val = (y 0).val; rw [e20]; omega

/-- The second weight block is the whole array at every point. -/
theorem blk3_eq (c : Dev nD) (t : Fin cfg2.N) :
    (iblk2 V c 3 t : FVec Ideal S384x10000 .bf16) = (V c main_v34 : S384x10000.Idx → Elt Ideal .bf16) := by
  obtain ⟨-, -, -, -, -, e30, e31, -⟩ := idx_facts t
  funext y
  show (V c main_v34 : S384x10000.Idx → Elt Ideal .bf16) (((cfg2.win 3).blk t).view.emb y) = _
  refine congrArg (V c main_v34 : S384x10000.Idx → Elt Ideal .bf16) (funext fun a => Fin.ext ?_)
  match a with
  | ⟨0, _⟩ => show win2_3.index t (0 : Fin 2) * 384 + 1 * (y 0).val = (y 0).val; rw [e30]; omega
  | ⟨1, _⟩ => show win2_3.index t (1 : Fin 2) * 10000 + 1 * (y 1).val = (y 1).val; rw [e31]; omega

/-- The second bias block is the whole array at every point. -/
theorem blk4_eq (c : Dev nD) (t : Fin cfg2.N) :
    (iblk2 V c 4 t : FVec Ideal S10000 .f32) = (V c main_arg22 : S10000.Idx → Elt Ideal .f32) := by
  obtain ⟨-, -, -, -, -, -, -, e40, -⟩ := idx_facts t
  funext y
  show (V c main_arg22 : S10000.Idx → Elt Ideal .f32) (((cfg2.win 4).blk t).view.emb y) = _
  refine congrArg (V c main_arg22 : S10000.Idx → Elt Ideal .f32) (funext fun a => Fin.ext ?_)
  match a with
  | ⟨0, _⟩ => show win2_4.index t (0 : Fin 1) * 10000 + 1 * (y 0).val = (y 0).val; rw [e40]; omega

/-- What grid point t writes back is block t of `Spec.out` of the five arrays. -/
theorem flushed_eq (c : Dev nD) (t : Fin cfg2.N) :
    (dat2 (F := Ideal) V c).flushed 5 t
      = ((cfg2.win 5).blk t).view.read (Elt Ideal)
          (Spec.out (V c main_v32) (V c main_v33) (V c main_arg20) (V c main_v34) (V c main_arg22)) := by
  show (cfg2.win 5).cut (grid2.coords t) ((dat2 V c).after 5 t) = _
  rw [after2_5]
  unfold out2_5
  rw [View.canon_unit_zero hz]
  simp only [View.ld_unit_zero (S := S200x128) hz, View.ld_unit_zero (S := S128x384) hz,
    View.ld_unit_zero (S := S384) hz1, View.ld_unit_zero (S := S384x10000) hz, View.ld_unit_zero (S := S10000) hz1]
  obtain ⟨-, -, -, -, -, -, -, -, e50, e51⟩ := idx_facts t
  have hN : cfg2.N = 50 := N_2
  have ht : t.val < 50 := hN ▸ t.isLt
  funext j
  obtain ⟨p, q, rfl⟩ : ∃ (p : Fin 200) (q : Fin 10000), j = ix2 p q := ⟨j 0, j 1, eq_ix2 j⟩
  have hr : t.val * 200 + p.val < 10000 := by have := p.isLt; omega
  have hemb : ((cfg2.win 5).blk t).view.emb (ix2 p q) = ix2 (⟨t.val * 200 + p.val, hr⟩ : Fin 10000) q := by
    funext a
    apply Fin.ext
    match a with
    | ⟨0, _⟩ => show win2_5.index t (0 : Fin 2) * 200 + 1 * p.val = t.val * 200 + p.val; rw [e50]; omega
    | ⟨1, _⟩ => show win2_5.index t (1 : Fin 2) * 10000 + 1 * q.val = q.val; rw [e51]; omega
  show k2_pay1 (F := Ideal) (iblk2 V c 0 t) (iblk2 V c 1 t) (iblk2 V c 2 t) (iblk2 V c 3 t) (iblk2 V c 4 t) (ix2 p q)
    = Spec.out (V c main_v32) (V c main_v33) (V c main_arg20) (V c main_v34) (V c main_arg22)
        (((cfg2.win 5).blk t).view.emb (ix2 p q))
  rw [hemb]
  exact out_of_blocks _ _ _ _ _ _ _ _ _ _ ⟨t.val * 200 + p.val, hr⟩ p q
    (fun l => blk0_apply V c t p l _ rfl) (blk1_eq V c t) (blk2_eq V c t) (blk3_eq V c t) (blk4_eq V c t)

/-- An index of the result array lies in point t's block iff each coordinate is in the block's range on its axis. -/
theorem mem_blk (t : Fin cfg2.N) (i : S10000x10000.Idx) :
    i ∈ ((cfg2.win 5).blk t).view.set
      ↔ ∀ a : Fin 2, win2_5.index t a * S200x10000.size a ≤ (i a).val
          ∧ (i a).val < win2_5.index t a * S200x10000.size a + S200x10000.size a := by
  show i ∈ ((View.whole main_v35).slice (win2_5.rect t)).set ↔ _
  rw [View.set_slice_whole, Rect.mem_set_unit]
  exact Iff.rfl

/-- Row r of the result lies in the block of point r / 200, and every point writes back. -/
theorem cover (i : S10000x10000.Idx) :
    ∃ t : Fin cfg2.N, (cfg2.win 5).flush t = true ∧ i ∈ ((cfg2.win 5).blk t).view.set := by
  have hi0 : (i 0).val < 10000 := (i 0).isLt
  have hi1 : (i 1).val < 10000 := (i 1).isLt
  have hN : cfg2.N = 50 := N_2
  obtain ⟨t, ht⟩ : ∃ t : Fin cfg2.N, t.val = (i 0).val / 200 := ⟨⟨(i 0).val / 200, by rw [hN]; omega⟩, rfl⟩
  obtain ⟨-, -, -, -, -, -, -, -, e50, e51⟩ := idx_facts t
  refine ⟨t, flush2_5 t, ?_⟩
  rw [mem_blk]
  intro a
  match a with
  | ⟨0, _⟩ =>
    show win2_5.index t (0 : Fin 2) * 200 ≤ (i 0).val ∧ (i 0).val < win2_5.index t (0 : Fin 2) * 200 + 200
    rw [e50, ht]; omega
  | ⟨1, _⟩ =>
    show win2_5.index t (1 : Fin 2) * 10000 ≤ (i 1).val ∧ (i 1).val < win2_5.index t (1 : Fin 2) * 10000 + 10000
    rw [e51]; omega

end Reg2

/-- After the third region the result array holds `Spec.out` of the region's five input arrays as it found them. -/
theorem reg2_final (c : Dev nD) :
    (dat2 (F := Ideal) V c).arrAt 5 cfg2.N
      = Spec.out (V c main_v32) (V c main_v33) (V c main_arg20) (V c main_v34) (V c main_arg22) :=
  (dat2 (F := Ideal) V c).arrAt_eq_of_cover 5
    (Spec.out (V c main_v32) (V c main_v33) (V c main_arg20) (V c main_v34) (V c main_arg22))
    (fun t _ => Reg2.flushed_eq V c t) Reg2.cover

end Cert.KernelIdeal.Hand

end
-- ==== Proof.KValue.lean ====
/-
  The kernel program's result array as a function of its arguments: the fold of buffer contents through @main — host
  stretch, region, host stretch, region, host stretch, region — read at the result buffer, each region's output by its
  value lemma, each host stretch by its operations, each argument read back to the launch memory.
-/
import proofs.«150242_j29703993819981_1_alg».proof.Proof.Gen.KernelIdeal.Frame
import proofs.«150242_j29703993819981_1_alg».proof.Proof.KDefs
import proofs.«150242_j29703993819981_1_alg».proof.Proof.KReg0
import proofs.«150242_j29703993819981_1_alg».proof.Proof.KReg1
import proofs.«150242_j29703993819981_1_alg».proof.Proof.KReg2
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A buffer that no operation of a host stretch writes: each operation's written buffer is another reference. -/
macro "unwritten" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-! ## A buffer nothing has written yet still holds what the launch memory gave it -/

theorem keep1 (c : Dev nD) (b : Ref sig .tc)
    (h0 : ∀ op ∈ (hostOps0 : List (HloOp τ sig (Elt Ideal))), Proc.devRef .tc b ∉ op.writes) :
    W1 (F := Ideal) m ρ c (Proc.devRef .tc b) = m ((c.tc : Thread nD τ).loc b) :=
  StableHlo.after_of_forall_not_mem _ _ h0

theorem keep2 (c : Dev nD) (b : Ref sig .tc)
    (h0 : ∀ op ∈ (hostOps0 : List (HloOp τ sig (Elt Ideal))), Proc.devRef .tc b ∉ op.writes)
    (r0 : ∀ w, Pipeline.arrRef spec0 w ≠ b) :
    W2 (F := Ideal) m ρ c (Proc.devRef .tc b) = m ((c.tc : Thread nD τ).loc b) :=
  (W2_of_ne m ρ c b r0).trans (keep1 m ρ c b h0)

theorem keep3 (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes) :
    W3 (F := Ideal) m ρ c (Proc.devRef .tc b) = m ((c.tc : Thread nD τ).loc b) :=
  (StableHlo.after_of_forall_not_mem _ _ h1).trans (keep2 m ρ c b h0 r0)

theorem keep4 (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b) :
    W4 (F := Ideal) m ρ c (Proc.devRef .tc b) = m ((c.tc : Thread nD τ).loc b) :=
  (W4_of_ne m ρ c b r1).trans (keep3 m ρ c b h0 r0 h1)

theorem keep5 (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes) :
    W5 (F := Ideal) m ρ c (Proc.devRef .tc b) = m ((c.tc : Thread nD τ).loc b) :=
  (StableHlo.after_of_forall_not_mem _ _ h2).trans (keep4 m ρ c b h0 r0 h1 r1)

/-! ## What the first kernel finds: the gathered end-point features, the two halves of the first weight matrix, the rest as launched -/

/-- The edges' target nodes, as the host read them off the edge list. -/
theorem v1_v4 (c : Dev nD) : V1 (F := Ideal) m ρ c main_v4 = dstOf (m ((c.tc : Thread nD τ).loc main_arg2)) := by
  show StableHlo.after hostOps0 _ (Proc.devRef .tc main_v4) = _
  after_results
  rfl

theorem v1_v11 (c : Dev nD) :
    (V1 (F := Ideal) m ρ c main_v11 : FVec Ideal S320000x256 .f32) = xd (F := Ideal) (m ((c.tc : Thread nD τ).loc main_arg0)) (m ((c.tc : Thread nD τ).loc main_arg2)) := by
  show StableHlo.after hostOps0 _ (Proc.devRef .tc main_v11) = _
  after_results
  rfl

theorem v1_v18 (c : Dev nD) :
    (V1 (F := Ideal) m ρ c main_v18 : FVec Ideal S320000x256 .f32) = xs (F := Ideal) (m ((c.tc : Thread nD τ).loc main_arg0)) (m ((c.tc : Thread nD τ).loc main_arg2)) := by
  show StableHlo.after hostOps0 _ (Proc.devRef .tc main_v18) = _
  after_results
  rfl

open Idealize.ShloMosaic.ValueIdx in
theorem v1_v20 (c : Dev nD) :
    (V1 (F := Ideal) m ρ c main_v20 : Spec.Mat 256 256) = Spec.top (m ((c.tc : Thread nD τ).loc main_arg7)) := by
  show StableHlo.after hostOps0 _ (Proc.devRef .tc main_v20) = _
  after_results
  funext i
  show extractStridedSlice S256x256 ![0, 0] (m ((c.tc : Thread nD τ).loc main_arg7)) slices_S512x256_S256x256_0_0 i = _
  unfold Spec.top
  refine extractStridedSlice_apply _ _ _ i _ ?_
  show ∀ a : Fin 2, _
  intro a
  match a with
  | ⟨0, _⟩ => show (i 0).val = 0 + (i 0).val; omega
  | ⟨1, _⟩ => show (i 1).val = 0 + (i 1).val; omega

open Idealize.ShloMosaic.ValueIdx in
theorem v1_v22 (c : Dev nD) :
    (V1 (F := Ideal) m ρ c main_v22 : Spec.Mat 256 256) = Spec.bot (m ((c.tc : Thread nD τ).loc main_arg7)) := by
  show StableHlo.after hostOps0 _ (Proc.devRef .tc main_v22) = _
  after_results
  funext i
  show extractStridedSlice S256x256 ![256, 0] (m ((c.tc : Thread nD τ).loc main_arg7)) slices_S512x256_S256x256_256_0 i = _
  unfold Spec.bot
  refine extractStridedSlice_apply _ _ _ i _ ?_
  show ∀ a : Fin 2, _
  intro a
  match a with
  | ⟨0, _⟩ => rfl
  | ⟨1, _⟩ => show (i 1).val = 0 + (i 1).val; omega

theorem v1_v23 (c : Dev nD) : V1 (F := Ideal) m ρ c main_v23 = m ((c.tc : Thread nD τ).loc main_arg9) := by
  show StableHlo.after hostOps0 _ (Proc.devRef .tc main_v23) = _
  after_results
  rfl

theorem v1_arg8 (c : Dev nD) : V1 (F := Ideal) m ρ c main_arg8 = m ((c.tc : Thread nD τ).loc main_arg8) :=
  keep1 m ρ c main_arg8 (by unwritten)

theorem v1_arg10 (c : Dev nD) : V1 (F := Ideal) m ρ c main_arg10 = m ((c.tc : Thread nD τ).loc main_arg10) :=
  keep1 m ρ c main_arg10 (by unwritten)

/-- The message array after the first kernel. -/
theorem msg_value (c : Dev nD) :
    W2 (F := Ideal) m ρ c (Proc.devRef .tc main_v24)
      = Spec.msgK (xd (F := Ideal) (m ((c.tc : Thread nD τ).loc main_arg0)) (m ((c.tc : Thread nD τ).loc main_arg2))) (xs (F := Ideal) (m ((c.tc : Thread nD τ).loc main_arg0)) (m ((c.tc : Thread nD τ).loc main_arg2))) (Spec.top (m ((c.tc : Thread nD τ).loc main_arg7))) (Spec.bot (m ((c.tc : Thread nD τ).loc main_arg7)))
          (m ((c.tc : Thread nD τ).loc main_arg8)) (m ((c.tc : Thread nD τ).loc main_arg9)) (m ((c.tc : Thread nD τ).loc main_arg10)) := by
  refine (W2_arr m ρ c 7).trans ((reg0_final (V1 m ρ) c).trans ?_)
  rw [v1_v11, v1_v18, v1_v20, v1_v22, v1_arg8, v1_v23, v1_arg10]

/-! ## What the second kernel finds: the messages summed into their target nodes, the rest as launched -/

theorem v3_v27 (c : Dev nD) :
    (V3 (F := Ideal) m ρ c main_v27 : FVec Ideal S10000x256 .f32)
      = aggOf (F := Ideal) (Spec.msgK (xd (F := Ideal) (m ((c.tc : Thread nD τ).loc main_arg0)) (m ((c.tc : Thread nD τ).loc main_arg2))) (xs (F := Ideal) (m ((c.tc : Thread nD τ).loc main_arg0)) (m ((c.tc : Thread nD τ).loc main_arg2))) (Spec.top (m ((c.tc : Thread nD τ).loc main_arg7))) (Spec.bot (m ((c.tc : Thread nD τ).loc main_arg7)))
          (m ((c.tc : Thread nD τ).loc main_arg8)) (m ((c.tc : Thread nD τ).loc main_arg9)) (m ((c.tc : Thread nD τ).loc main_arg10))) (m ((c.tc : Thread nD τ).loc main_arg2)) := by
  show StableHlo.after hostOps1 _ (Proc.devRef .tc main_v27) = _
  after_results
  rw [msg_value, W2_of_ne m ρ c main_v4 (by decide)]
  show Host.scatterAdd _ _ (broadcastInDim S320000x1 ![0] bcast_S320000_S320000x1_0 (V1 (F := Ideal) m ρ c main_v4)) _ = _
  rw [v1_v4]
  rfl

theorem v3_v28 (c : Dev nD) : V3 (F := Ideal) m ρ c main_v28 = m ((c.tc : Thread nD τ).loc main_arg11) := by
  show StableHlo.after hostOps1 _ (Proc.devRef .tc main_v28) = _
  after_results
  rw [keep2 m ρ c main_arg11 (by unwritten) (by decide)]
  rfl

theorem v3_v29 (c : Dev nD) : V3 (F := Ideal) m ρ c main_v29 = m ((c.tc : Thread nD τ).loc main_arg13) := by
  show StableHlo.after hostOps1 _ (Proc.devRef .tc main_v29) = _
  after_results
  rw [keep2 m ρ c main_arg13 (by unwritten) (by decide)]
  rfl

theorem v3_v30 (c : Dev nD) : V3 (F := Ideal) m ρ c main_v30 = m ((c.tc : Thread nD τ).loc main_arg15) := by
  show StableHlo.after hostOps1 _ (Proc.devRef .tc main_v30) = _
  after_results
  rw [keep2 m ρ c main_arg15 (by unwritten) (by decide)]
  rfl

theorem v3_v31 (c : Dev nD) : V3 (F := Ideal) m ρ c main_v31 = m ((c.tc : Thread nD τ).loc main_arg17) := by
  show StableHlo.after hostOps1 _ (Proc.devRef .tc main_v31) = _
  after_results
  rw [keep2 m ρ c main_arg17 (by unwritten) (by decide)]
  rfl

theorem v3_arg12 (c : Dev nD) : V3 (F := Ideal) m ρ c main_arg12 = m ((c.tc : Thread nD τ).loc main_arg12) :=
  keep3 m ρ c main_arg12 (by unwritten) (by decide) (by unwritten)

theorem v3_arg14 (c : Dev nD) : V3 (F := Ideal) m ρ c main_arg14 = m ((c.tc : Thread nD τ).loc main_arg14) :=
  keep3 m ρ c main_arg14 (by unwritten) (by decide) (by unwritten)

theorem v3_arg16 (c : Dev nD) : V3 (F := Ideal) m ρ c main_arg16 = m ((c.tc : Thread nD τ).loc main_arg16) :=
  keep3 m ρ c main_arg16 (by unwritten) (by decide) (by unwritten)

theorem v3_arg18 (c : Dev nD) : V3 (F := Ideal) m ρ c main_arg18 = m ((c.tc : Thread nD τ).loc main_arg18) :=
  keep3 m ρ c main_arg18 (by unwritten) (by decide) (by unwritten)

/-- The node array after the second kernel. -/
theorem node_value (c : Dev nD) :
    W4 (F := Ideal) m ρ c (Proc.devRef .tc main_v32)
      = Spec.hc (aggOf (F := Ideal) (Spec.msgK (xd (F := Ideal) (m ((c.tc : Thread nD τ).loc main_arg0)) (m ((c.tc : Thread nD τ).loc main_arg2))) (xs (F := Ideal) (m ((c.tc : Thread nD τ).loc main_arg0)) (m ((c.tc : Thread nD τ).loc main_arg2))) (Spec.top (m ((c.tc : Thread nD τ).loc main_arg7))) (Spec.bot (m ((c.tc : Thread nD τ).loc main_arg7)))
          (m ((c.tc : Thread nD τ).loc main_arg8)) (m ((c.tc : Thread nD τ).loc main_arg9)) (m ((c.tc : Thread nD τ).loc main_arg10))) (m ((c.tc : Thread nD τ).loc main_arg2)))
          (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (W4_arr m ρ c 9).trans ((reg1_final (V3 m ρ) c).trans ?_)
  rw [v3_v27, v3_v28, v3_arg12, v3_v29, v3_arg14, v3_v30, v3_arg16, v3_v31, v3_arg18]

/-! ## What the third kernel finds: the node array, the rest as launched -/

theorem v5_v32 (c : Dev nD) :
    V5 (F := Ideal) m ρ c main_v32
      = Spec.hc (aggOf (F := Ideal) (Spec.msgK (xd (F := Ideal) (m ((c.tc : Thread nD τ).loc main_arg0)) (m ((c.tc : Thread nD τ).loc main_arg2))) (xs (F := Ideal) (m ((c.tc : Thread nD τ).loc main_arg0)) (m ((c.tc : Thread nD τ).loc main_arg2))) (Spec.top (m ((c.tc : Thread nD τ).loc main_arg7))) (Spec.bot (m ((c.tc : Thread nD τ).loc main_arg7)))
          (m ((c.tc : Thread nD τ).loc main_arg8)) (m ((c.tc : Thread nD τ).loc main_arg9)) (m ((c.tc : Thread nD τ).loc main_arg10))) (m ((c.tc : Thread nD τ).loc main_arg2)))
          (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (StableHlo.after_of_forall_not_mem (b := Proc.devRef .tc main_v32) _ _ (by unwritten)).trans (node_value m ρ c)

theorem v5_v33 (c : Dev nD) : V5 (F := Ideal) m ρ c main_v33 = m ((c.tc : Thread nD τ).loc main_arg19) := by
  show StableHlo.after hostOps2 _ (Proc.devRef .tc main_v33) = _
  after_results
  rw [keep4 m ρ c main_arg19 (by unwritten) (by decide) (by unwritten) (by decide)]
  rfl

theorem v5_v34 (c : Dev nD) : V5 (F := Ideal) m ρ c main_v34 = m ((c.tc : Thread nD τ).loc main_arg21) := by
  show StableHlo.after hostOps2 _ (Proc.devRef .tc main_v34) = _
  after_results
  rw [keep4 m ρ c main_arg21 (by unwritten) (by decide) (by unwritten) (by decide)]
  rfl

theorem v5_arg20 (c : Dev nD) : V5 (F := Ideal) m ρ c main_arg20 = m ((c.tc : Thread nD τ).loc main_arg20) :=
  keep5 m ρ c main_arg20 (by unwritten) (by decide) (by unwritten) (by decide) (by unwritten)

theorem v5_arg22 (c : Dev nD) : V5 (F := Ideal) m ρ c main_arg22 = m ((c.tc : Thread nD τ).loc main_arg22) :=
  keep5 m ρ c main_arg22 (by unwritten) (by decide) (by unwritten) (by decide) (by unwritten)

/-- The fold's last contents at the result buffer are `valK` of the launch memory's argument arrays. -/
theorem kernel_value (c : Dev nD) :
    W6 (F := Ideal) m ρ c (Proc.devRef .tc main_v35)
      = valK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  refine (W6_arr m ρ c 5).trans ((reg2_final (V5 m ρ) c).trans ?_)
  rw [v5_v32, v5_v33, v5_arg20, v5_v34, v5_arg22]
  rfl

end Cert.KernelIdeal.Hand

end
-- ==== Proof.RDefs.lean ====
/-
  The reference program's result as a composition of its host operations, cut where the mathematics cuts it:
  the gathered end-point features, the edge messages, their sum into target nodes, the node update, the output layer.
  Each definition applies the program's own operations in the program's own order, so the run's fold over the
  operation list is this composition by unfolding.
-/
import proofs.«150242_j29703993819981_1_alg».proof.Proof.Gen.ReferenceIdeal

noncomputable section

namespace Cert.ReferenceIdeal.Hand

open Cert.ReferenceIdeal Cert.ReferenceIdeal.Gen
open Idealize.ShloMosaic

variable {F : FTy → Type} [FloatOps F]

/-- Row 0 of the edge list: the source node of each edge. -/
def srcOf (a2 : IVec S2x320000 32) : IVec S320000 32 :=
  shapeCast S320000 (extractStridedSlice S1x320000 ![0, 0] a2 slices_S2x320000_S1x320000_0_0) shapeCasts_S1x320000_S320000
/-- Row 1 of the edge list: the target node of each edge. -/
def dstOf (a2 : IVec S2x320000 32) : IVec S320000 32 :=
  shapeCast S320000 (extractStridedSlice S1x320000 ![1, 0] a2 slices_S2x320000_S1x320000_1_0) shapeCasts_S1x320000_S320000
/-- A node index as the gather takes it: a negative one counted from the end, as a column. -/
def idxN (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)
/-- The node features doubled along the feature axis. -/
def xcat (a0 : FVec F S10000x128 .f32) : FVec F S10000x256 .f32 :=
  concatenate S10000x256 1 [⟨S10000x128, a0⟩, ⟨S10000x128, a0⟩] concatenates_S10000x128_S10000x128_S10000x256_d1
/-- One feature row per edge, taken at the given node indices. -/
def gat (x : FVec F S10000x256 .f32) (i : IVec S320000x1 32) : FVec F S320000x256 .f32 :=
  Host.gather gather_S10000x256_S320000x1_S320000x256_1_0_n_n_0_1_1256 x i
/-- The target node's features of every edge. -/
def xd (a0 : FVec F S10000x128 .f32) (a2 : IVec S2x320000 32) : FVec F S320000x256 .f32 := gat (xcat a0) (idxN (dstOf a2))
/-- The source node's features of every edge. -/
def xs (a0 : FVec F S10000x128 .f32) (a2 : IVec S2x320000 32) : FVec F S320000x256 .f32 := gat (xcat a0) (idxN (srcOf a2))

/-- `elu` as the reference spells it: `select (h > 0) h (1 · expm1 (select (h > 0) 0 h))`. -/
def eluR (S : Shape) (hb : S_.BroadcastsInDim S (![] : Fin 0 → Fin S.rank)) (h : FVec F S .f32) : FVec F S .f32 :=
  select (cmpf .ogt h (broadcastInDim S ![] hb (constant S_ .f32 0x00000000#32))) h
    (mulf (broadcastInDim S ![] hb (constant S_ .f32 0x3F800000#32))
      (Host.expm1 (select (cmpf .ogt h (broadcastInDim S ![] hb (constant S_ .f32 0x00000000#32)))
        (broadcastInDim S ![] hb (id (constant S_ .f32 0x00000000#32))) h)))

/-- A bias row laid under every one of 320000 rows. -/
def biasE (b : FVec F S256 .f32) : FVec F S320000x256 .f32 :=
  broadcastInDim S320000x256 ![0, 1] bcast_S1x256_S320000x256_0_1 (broadcastInDim S1x256 ![1] bcast_S256_S1x256_1 b)
/-- A bias row laid under every one of 10000 rows. -/
def biasN (b : FVec F S256 .f32) : FVec F S10000x256 .f32 :=
  broadcastInDim S10000x256 ![0, 1] bcast_S1x256_S10000x256_0_1 (broadcastInDim S1x256 ![1] bcast_S256_S1x256_1 b)

/-- The edge messages: the perceptron over the concatenated end-point features. -/
def rawMSG (xd xs : FVec F S320000x256 .f32) (a7 : FVec F S512x256 .f32) (a8 : FVec F S256 .f32)
    (a9 : FVec F S256x256 .f32) (a10 : FVec F S256 .f32) : FVec F S320000x256 .f32 :=
  eluR S320000x256 bcast_S_S320000x256
    (addf (Host.dotGeneral dot_S320000x256_S256x256_S320000x256_1_0_0_1_n_n none
      (eluR S320000x256 bcast_S_S320000x256
        (addf (Host.dotGeneral dot_S320000x512_S512x256_S320000x256_1_0_0_1_n_n none
          (concatenate S320000x512 1 [⟨S320000x256, xd⟩, ⟨S320000x256, xs⟩] concatenates_S320000x256_S320000x256_S320000x512_d1) a7)
          (biasE a8))) a9) (biasE a10))

/-- The messages summed into their target nodes. -/
def aggOf (msg : FVec F S320000x256 .f32) (a2 : IVec S2x320000 32) : FVec F S10000x256 .f32 :=
  Host.scatterAdd scatter_S10000x256_S320000x1_S320000x256_1_0_0_1
    (broadcastInDim S10000x256 ![] bcast_S_S10000x256 (constant S_ .f32 0x00000000#32))
    (broadcastInDim S320000x1 ![0] bcast_S320000_S320000x1_0 (dstOf a2)) msg

/-- One dense layer over the nodes followed by `elu`. -/
def layerN (x : FVec F S10000x256 .f32) (w : FVec F S256x256 .f32) (b : FVec F S256 .f32) : FVec F S10000x256 .f32 :=
  eluR S10000x256 bcast_S_S10000x256 (addf (Host.dotGeneral dot_S10000x256_S256x256_S10000x256_1_0_0_1_n_n none x w) (biasN b))

/-- The node update: four such layers, then the last 128 columns. -/
def rawHC (agg : FVec F S10000x256 .f32) (a11 : FVec F S256x256 .f32) (a12 : FVec F S256 .f32) (a13 : FVec F S256x256 .f32)
    (a14 : FVec F S256 .f32) (a15 : FVec F S256x256 .f32) (a16 : FVec F S256 .f32) (a17 : FVec F S256x256 .f32)
    (a18 : FVec F S256 .f32) : FVec F S10000x128 .f32 :=
  extractStridedSlice S10000x128 ![0, 128] (layerN (layerN (layerN (layerN agg a11 a12) a13 a14) a15 a16) a17 a18)
    slices_S10000x256_S10000x128_0_128

/-- The output layer: dense, `max · 0`, dense, then `1 / (1 + exp (-o))`. -/
def rawOUT (hc : FVec F S10000x128 .f32) (a19 : FVec F S128x384 .f32) (a20 : FVec F S384 .f32)
    (a21 : FVec F S384x10000 .f32) (a22 : FVec F S10000 .f32) : FVec F S10000x10000 .f32 :=
  Host.divf (broadcastInDim S10000x10000 ![] bcast_S_S10000x10000 (constant S_ .f32 0x3F800000#32))
    (addf (broadcastInDim S10000x10000 ![] bcast_S_S10000x10000 (constant S_ .f32 0x3F800000#32))
      (Host.exp (Host.negf
        (addf (Host.dotGeneral dot_S10000x384_S384x10000_S10000x10000_1_0_0_1_n_n none
          (maximumf
            (addf (Host.dotGeneral dot_S10000x128_S128x384_S10000x384_1_0_0_1_n_n none hc a19)
              (broadcastInDim S10000x384 ![0, 1] bcast_S1x384_S10000x384_0_1 (broadcastInDim S1x384 ![1] bcast_S384_S1x384_1 a20)))
            (broadcastInDim S10000x384 ![] bcast_S_S10000x384 (constant S_ .f32 0x00000000#32))) a21)
          (broadcastInDim S10000x10000 ![0, 1] bcast_S1x10000_S10000x10000_0_1 (broadcastInDim S1x10000 ![1] bcast_S10000_S1x10000_1 a22))))))

/-- The whole reference: the result array as a function of the argument arrays it reads. -/
def valR (a0 : FVec F S10000x128 .f32) (a2 : IVec S2x320000 32) (a7 : FVec F S512x256 .f32) (a8 : FVec F S256 .f32)
    (a9 : FVec F S256x256 .f32) (a10 : FVec F S256 .f32) (a11 : FVec F S256x256 .f32) (a12 : FVec F S256 .f32)
    (a13 : FVec F S256x256 .f32) (a14 : FVec F S256 .f32) (a15 : FVec F S256x256 .f32) (a16 : FVec F S256 .f32)
    (a17 : FVec F S256x256 .f32) (a18 : FVec F S256 .f32) (a19 : FVec F S128x384 .f32) (a20 : FVec F S384 .f32)
    (a21 : FVec F S384x10000 .f32) (a22 : FVec F S10000 .f32) : FVec F S10000x10000 .f32 :=
  rawOUT (rawHC (aggOf (rawMSG (xd a0 a2) (xs a0 a2) a7 a8 a9 a10) a2) a11 a12 a13 a14 a15 a16 a17 a18) a19 a20 a21 a22

end Cert.ReferenceIdeal.Hand

end
-- ==== Proof.RRun.lean ====
/-
  The reference program's run: @main is a straight line of host operations (the outlined `elu`, `where` and `relu`
  functions opened at their calls), so every weakly fair execution terminates with each buffer at the fold of the
  operations over the launch memory; the result buffer's fold is `valR` of the arguments, and no operation writes an
  argument.
-/
import proofs.«150242_j29703993819981_1_alg».proof.Proof.Gen.ReferenceIdeal
import proofs.«150242_j29703993819981_1_alg».proof.Proof.RDefs
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-! ## The program as a line of operations

@main's statements in order, each outlined function opened at its call over that call's own buffers (an `elu` is
fifteen operations: seven of its own, the inner `where`'s three, four more, the outer `where`'s one; the `relu` is
three), cut into stretches where the mathematics cuts: each stretch computes one of the definitions of the reference's
result from buffers earlier stretches left. -/

/-- The end-point features (%0 … %18): the node features doubled along the feature axis, the two rows of the edge
    list, and for each row the indices wrapped from the end where negative, laid as a column, and the rows of the
    doubled features gathered at them. -/
def sA : List (HloOp τ sig (Elt F)) :=
  [ StableHlo.binary main_arg0 main_arg0 main_v0 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg2 main_v1 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v1 main_v2 rfl shapeCasts_S1x320000_S320000,
    StableHlo.unary main_arg2 main_v3 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v3 main_v4 rfl shapeCasts_S1x320000_S320000,
    StableHlo.nullary main_c (constantI S_ 32 0#32),
    StableHlo.unary main_c main_v5 (broadcastInDim S320000 ![] bcast_S_S320000 : (⟨S_, .i32⟩ : BufTy).Contents (Elt F) → (⟨S320000, .i32⟩ : BufTy).Contents (Elt F)),
    StableHlo.binary main_v4 main_v5 main_v6 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v7 (broadcastInDim S320000 ![] bcast_S_S320000 : (⟨S_, .i32⟩ : BufTy).Contents (Elt F) → (⟨S320000, .i32⟩ : BufTy).Contents (Elt F)),
    StableHlo.binary main_v4 main_v7 main_v8 (addi : (⟨S320000, .i32⟩ : BufTy).Contents (Elt F) → (⟨S320000, .i32⟩ : BufTy).Contents (Elt F) → (⟨S320000, .i32⟩ : BufTy).Contents (Elt F)),
    StableHlo.ternary main_v6 main_v8 main_v4 main_v9 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v9 main_v10 (broadcastInDim S320000x1 ![0] bcast_S320000_S320000x1_0 : (⟨S320000, .i32⟩ : BufTy).Contents (Elt F) → (⟨S320000x1, .i32⟩ : BufTy).Contents (Elt F)),
    StableHlo.binary main_v0 main_v10 main_v11 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_1 (constantI S_ 32 0#32),
    StableHlo.unary main_c_1 main_v12 (broadcastInDim S320000 ![] bcast_S_S320000 : (⟨S_, .i32⟩ : BufTy).Contents (Elt F) → (⟨S320000, .i32⟩ : BufTy).Contents (Elt F)),
    StableHlo.binary main_v2 main_v12 main_v13 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v14 (broadcastInDim S320000 ![] bcast_S_S320000 : (⟨S_, .i32⟩ : BufTy).Contents (Elt F) → (⟨S320000, .i32⟩ : BufTy).Contents (Elt F)),
    StableHlo.binary main_v2 main_v14 main_v15 (addi : (⟨S320000, .i32⟩ : BufTy).Contents (Elt F) → (⟨S320000, .i32⟩ : BufTy).Contents (Elt F) → (⟨S320000, .i32⟩ : BufTy).Contents (Elt F)),
    StableHlo.ternary main_v13 main_v15 main_v2 main_v16 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v16 main_v17 (broadcastInDim S320000x1 ![0] bcast_S320000_S320000x1_0 : (⟨S320000, .i32⟩ : BufTy).Contents (Elt F) → (⟨S320000x1, .i32⟩ : BufTy).Contents (Elt F)),
    StableHlo.binary main_v0 main_v17 main_v18 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ]

/-- The first edge layer (%19 … %24): the two end-point features side by side, times the weights, plus the bias row
    under every edge, through `elu` (its two comparisons with zero, the inner `where` that zeroes the positive part,
    `expm1`, the product with one, the outer `where`). -/
def sB1 : List (HloOp τ sig (Elt F)) :=
  [ StableHlo.binary main_v11 main_v18 main_v19 ((fun a b => concatenate S320000x512 1 [⟨S320000x256, a⟩, ⟨S320000x256, b⟩] concatenates_S320000x256_S320000x256_S320000x512_d1) : (⟨S320000x256, .f32⟩ : BufTy).Contents (Elt F) → (⟨S320000x256, .f32⟩ : BufTy).Contents (Elt F) → (⟨S320000x512, .f32⟩ : BufTy).Contents (Elt F)),
    StableHlo.binary main_v19 main_arg7 main_v20 ((fun l r => Host.dotGeneral dot_S320000x512_S512x256_S320000x256_1_0_0_1_n_n none l r) : (⟨S320000x512, .f32⟩ : BufTy).Contents (Elt F) → (⟨S512x256, .f32⟩ : BufTy).Contents (Elt F) → (⟨S320000x256, .f32⟩ : BufTy).Contents (Elt F)),
    StableHlo.unary main_arg8 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S320000x256 ![0, 1] bcast_S1x256_S320000x256_0_1 : (⟨S1x256, .f32⟩ : BufTy).Contents (Elt F) → (⟨S320000x256, .f32⟩ : BufTy).Contents (Elt F)),
    StableHlo.binary main_v20 main_v22 main_v23 (addf : (⟨S320000x256, .f32⟩ : BufTy).Contents (Elt F) → (⟨S320000x256, .f32⟩ : BufTy).Contents (Elt F) → (⟨S320000x256, .f32⟩ : BufTy).Contents (Elt F)),
    StableHlo.TRef.nullary main_call0.cst (constant S_ .f32 0x00000000#32),
    StableHlo.TRef.unary main_call0.cst main_call0.v0 (broadcastInDim S320000x256 ![] bcast_S_S320000x256),
    StableHlo.TRef.binary (.of main_v23) main_call0.v0 main_call0.v1 (cmpf .ogt),
    StableHlo.TRef.nullary main_call0.cst_0 (constant S_ .f32 0x00000000#32),
    StableHlo.TRef.unary main_call0.cst_0 main_call0.v2 (broadcastInDim S320000x256 ![] bcast_S_S320000x256),
    StableHlo.TRef.binary (.of main_v23) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S320000x256 ![] bcast_S_S320000x256),
    StableHlo.TRef.ternary main_call0.v3 main_call0.call0.v1 (.of main_v23) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S320000x256 ![] bcast_S_S320000x256),
    StableHlo.TRef.binary main_call0.v6 main_call0.v5 main_call0.v7 mulf,
    StableHlo.TRef.ternary main_call0.v1 (.of main_v23) main_call0.v7 main_call0.call1.v0 select ]

/-- The second edge layer (%25 … %29): times the weights, plus the bias row, through `elu`. -/
def sB2 : List (HloOp τ sig (Elt F)) :=
  [ StableHlo.binary main_v24 main_arg9 main_v25 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.unary main_arg10 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S320000x256 ![0, 1] bcast_S1x256_S320000x256_0_1 : (⟨S1x256, .f32⟩ : BufTy).Contents (Elt F) → (⟨S320000x256, .f32⟩ : BufTy).Contents (Elt F)),
    StableHlo.binary main_v25 main_v27 main_v28 (addf : (⟨S320000x256, .f32⟩ : BufTy).Contents (Elt F) → (⟨S320000x256, .f32⟩ : BufTy).Contents (Elt F) → (⟨S320000x256, .f32⟩ : BufTy).Contents (Elt F)),
    StableHlo.TRef.nullary main_call1.cst (constant S_ .f32 0x00000000#32),
    StableHlo.TRef.unary main_call1.cst main_call1.v0 (broadcastInDim S320000x256 ![] bcast_S_S320000x256),
    StableHlo.TRef.binary (.of main_v28) main_call1.v0 main_call1.v1 (cmpf .ogt),
    StableHlo.TRef.nullary main_call1.cst_0 (constant S_ .f32 0x00000000#32),
    StableHlo.TRef.unary main_call1.cst_0 main_call1.v2 (broadcastInDim S320000x256 ![] bcast_S_S320000x256),
    StableHlo.TRef.binary (.of main_v28) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S320000x256 ![] bcast_S_S320000x256),
    StableHlo.TRef.ternary main_call1.v3 main_call1.call0.v1 (.of main_v28) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S320000x256 ![] bcast_S_S320000x256),
    StableHlo.TRef.binary main_call1.v6 main_call1.v5 main_call1.v7 mulf,
    StableHlo.TRef.ternary main_call1.v1 (.of main_v28) main_call1.v7 main_call1.call1.v0 select ]

/-- The messages summed into their target nodes (%cst … %32): the zero array, the target indices as a column, the
    scatter-add. -/
def sC : List (HloOp τ sig (Elt F)) :=
  [ StableHlo.nullary main_cst (constant S_ .f32 0x00000000#32),
    StableHlo.unary main_cst main_v30 (broadcastInDim S10000x256 ![] bcast_S_S10000x256 : (⟨S_, .f32⟩ : BufTy).Contents (Elt F) → (⟨S10000x256, .f32⟩ : BufTy).Contents (Elt F)),
    StableHlo.unary main_v4 main_v31 (broadcastInDim S320000x1 ![0] bcast_S320000_S320000x1_0 : (⟨S320000, .i32⟩ : BufTy).Contents (Elt F) → (⟨S320000x1, .i32⟩ : BufTy).Contents (Elt F)),
    StableHlo.ternary main_v30 main_v31 main_v29 main_v32 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ]

/-- The first node layer (%33 … %37): times the weights, plus the bias row under every node, through `elu`. -/
def sD1 : List (HloOp τ sig (Elt F)) :=
  [ StableHlo.binary main_v32 main_arg11 main_v33 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg12 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S10000x256 ![0, 1] bcast_S1x256_S10000x256_0_1 : (⟨S1x256, .f32⟩ : BufTy).Contents (Elt F) → (⟨S10000x256, .f32⟩ : BufTy).Contents (Elt F)),
    StableHlo.binary main_v33 main_v35 main_v36 (addf : (⟨S10000x256, .f32⟩ : BufTy).Contents (Elt F) → (⟨S10000x256, .f32⟩ : BufTy).Contents (Elt F) → (⟨S10000x256, .f32⟩ : BufTy).Contents (Elt F)),
    StableHlo.TRef.nullary main_call2.cst (constant S_ .f32 0x00000000#32),
    StableHlo.TRef.unary main_call2.cst main_call2.v0 (broadcastInDim S10000x256 ![] bcast_S_S10000x256),
    StableHlo.TRef.binary (.of main_v36) main_call2.v0 main_call2.v1 (cmpf .ogt),
    StableHlo.TRef.nullary main_call2.cst_0 (constant S_ .f32 0x00000000#32),
    StableHlo.TRef.unary main_call2.cst_0 main_call2.v2 (broadcastInDim S10000x256 ![] bcast_S_S10000x256),
    StableHlo.TRef.binary (.of main_v36) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S10000x256 ![] bcast_S_S10000x256),
    StableHlo.TRef.ternary main_call2.v3 main_call2.call0.v1 (.of main_v36) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S10000x256 ![] bcast_S_S10000x256),
    StableHlo.TRef.binary main_call2.v6 main_call2.v5 main_call2.v7 mulf,
    StableHlo.TRef.ternary main_call2.v1 (.of main_v36) main_call2.v7 main_call2.call1.v0 select ]

/-- The second node layer (%38 … %42). -/
def sD2 : List (HloOp τ sig (Elt F)) :=
  [ StableHlo.binary main_v37 main_arg13 main_v38 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg14 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S10000x256 ![0, 1] bcast_S1x256_S10000x256_0_1 : (⟨S1x256, .f32⟩ : BufTy).Contents (Elt F) → (⟨S10000x256, .f32⟩ : BufTy).Contents (Elt F)),
    StableHlo.binary main_v38 main_v40 main_v41 (addf : (⟨S10000x256, .f32⟩ : BufTy).Contents (Elt F) → (⟨S10000x256, .f32⟩ : BufTy).Contents (Elt F) → (⟨S10000x256, .f32⟩ : BufTy).Contents (Elt F)),
    StableHlo.TRef.nullary main_call3.cst (constant S_ .f32 0x00000000#32),
    StableHlo.TRef.unary main_call3.cst main_call3.v0 (broadcastInDim S10000x256 ![] bcast_S_S10000x256),
    StableHlo.TRef.binary (.of main_v41) main_call3.v0 main_call3.v1 (cmpf .ogt),
    StableHlo.TRef.nullary main_call3.cst_0 (constant S_ .f32 0x00000000#32),
    StableHlo.TRef.unary main_call3.cst_0 main_call3.v2 (broadcastInDim S10000x256 ![] bcast_S_S10000x256),
    StableHlo.TRef.binary (.of main_v41) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S10000x256 ![] bcast_S_S10000x256),
    StableHlo.TRef.ternary main_call3.v3 main_call3.call0.v1 (.of main_v41) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S10000x256 ![] bcast_S_S10000x256),
    StableHlo.TRef.binary main_call3.v6 main_call3.v5 main_call3.v7 mulf,
    StableHlo.TRef.ternary main_call3.v1 (.of main_v41) main_call3.v7 main_call3.call1.v0 select ]

/-- The third node layer (%43 … %47). -/
def sD3 : List (HloOp τ sig (Elt F)) :=
  [ StableHlo.binary main_v42 main_arg15 main_v43 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg16 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S10000x256 ![0, 1] bcast_S1x256_S10000x256_0_1 : (⟨S1x256, .f32⟩ : BufTy).Contents (Elt F) → (⟨S10000x256, .f32⟩ : BufTy).Contents (Elt F)),
    StableHlo.binary main_v43 main_v45 main_v46 (addf : (⟨S10000x256, .f32⟩ : BufTy).Contents (Elt F) → (⟨S10000x256, .f32⟩ : BufTy).Contents (Elt F) → (⟨S10000x256, .f32⟩ : BufTy).Contents (Elt F)),
    StableHlo.TRef.nullary main_call4.cst (constant S_ .f32 0x00000000#32),
    StableHlo.TRef.unary main_call4.cst main_call4.v0 (broadcastInDim S10000x256 ![] bcast_S_S10000x256),
    StableHlo.TRef.binary (.of main_v46) main_call4.v0 main_call4.v1 (cmpf .ogt),
    StableHlo.TRef.nullary main_call4.cst_0 (constant S_ .f32 0x00000000#32),
    StableHlo.TRef.unary main_call4.cst_0 main_call4.v2 (broadcastInDim S10000x256 ![] bcast_S_S10000x256),
    StableHlo.TRef.binary (.of main_v46) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S10000x256 ![] bcast_S_S10000x256),
    StableHlo.TRef.ternary main_call4.v3 main_call4.call0.v1 (.of main_v46) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S10000x256 ![] bcast_S_S10000x256),
    StableHlo.TRef.binary main_call4.v6 main_call4.v5 main_call4.v7 mulf,
    StableHlo.TRef.ternary main_call4.v1 (.of main_v46) main_call4.v7 main_call4.call1.v0 select ]

/-- The fourth node layer (%48 … %52). -/
def sD4 : List (HloOp τ sig (Elt F)) :=
  [ StableHlo.binary main_v47 main_arg17 main_v48 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg18 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S10000x256 ![0, 1] bcast_S1x256_S10000x256_0_1 : (⟨S1x256, .f32⟩ : BufTy).Contents (Elt F) → (⟨S10000x256, .f32⟩ : BufTy).Contents (Elt F)),
    StableHlo.binary main_v48 main_v50 main_v51 (addf : (⟨S10000x256, .f32⟩ : BufTy).Contents (Elt F) → (⟨S10000x256, .f32⟩ : BufTy).Contents (Elt F) → (⟨S10000x256, .f32⟩ : BufTy).Contents (Elt F)),
    StableHlo.TRef.nullary main_call5.cst (constant S_ .f32 0x00000000#32),
    StableHlo.TRef.unary main_call5.cst main_call5.v0 (broadcastInDim S10000x256 ![] bcast_S_S10000x256),
    StableHlo.TRef.binary (.of main_v51) main_call5.v0 main_call5.v1 (cmpf .ogt),
    StableHlo.TRef.nullary main_call5.cst_0 (constant S_ .f32 0x00000000#32),
    StableHlo.TRef.unary main_call5.cst_0 main_call5.v2 (broadcastInDim S10000x256 ![] bcast_S_S10000x256),
    StableHlo.TRef.binary (.of main_v51) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S10000x256 ![] bcast_S_S10000x256),
    StableHlo.TRef.ternary main_call5.v3 main_call5.call0.v1 (.of main_v51) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S10000x256 ![] bcast_S_S10000x256),
    StableHlo.TRef.binary main_call5.v6 main_call5.v5 main_call5.v7 mulf,
    StableHlo.TRef.ternary main_call5.v1 (.of main_v51) main_call5.v7 main_call5.call1.v0 select ]

/-- The output layer (%53 … %68): the last 128 columns, times the weights, plus the bias row, the maximum with zero,
    times the weights, plus the bias row, then `1 / (1 + exp (-o))`. -/
def sE : List (HloOp τ sig (Elt F)) :=
  [ StableHlo.unary main_v52 main_v53 ((extractStridedSlice S10000x128 ![0, 128] · slices_S10000x256_S10000x128_0_128) : (⟨S10000x256, .f32⟩ : BufTy).Contents (Elt F) → (⟨S10000x128, .f32⟩ : BufTy).Contents (Elt F)),
    StableHlo.binary main_v53 main_arg19 main_v54 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    StableHlo.unary main_arg20 main_v55 (broadcastInDim S1x384 ![1] bcast_S384_S1x384_1 : (⟨S384, .f32⟩ : BufTy).Contents (Elt F) → (⟨S1x384, .f32⟩ : BufTy).Contents (Elt F)),
    StableHlo.unary main_v55 main_v56 (broadcastInDim S10000x384 ![0, 1] bcast_S1x384_S10000x384_0_1 : (⟨S1x384, .f32⟩ : BufTy).Contents (Elt F) → (⟨S10000x384, .f32⟩ : BufTy).Contents (Elt F)),
    StableHlo.binary main_v54 main_v56 main_v57 (addf : (⟨S10000x384, .f32⟩ : BufTy).Contents (Elt F) → (⟨S10000x384, .f32⟩ : BufTy).Contents (Elt F) → (⟨S10000x384, .f32⟩ : BufTy).Contents (Elt F)),
    StableHlo.TRef.nullary main_call6.cst (constant S_ .f32 0x00000000#32),
    StableHlo.TRef.unary main_call6.cst main_call6.v0 (broadcastInDim S10000x384 ![] bcast_S_S10000x384),
    StableHlo.TRef.binary (.of main_v57) main_call6.v0 main_call6.v1 maximumf,
    StableHlo.binary main_v58 main_arg21 main_v59 ((fun l r => Host.dotGeneral dot_S10000x384_S384x10000_S10000x10000_1_0_0_1_n_n none l r) : (⟨S10000x384, .f32⟩ : BufTy).Contents (Elt F) → (⟨S384x10000, .f32⟩ : BufTy).Contents (Elt F) → (⟨S10000x10000, .f32⟩ : BufTy).Contents (Elt F)),
    StableHlo.unary main_arg22 main_v60 (broadcastInDim S1x10000 ![1] bcast_S10000_S1x10000_1 : (⟨S10000, .f32⟩ : BufTy).Contents (Elt F) → (⟨S1x10000, .f32⟩ : BufTy).Contents (Elt F)),
    StableHlo.unary main_v60 main_v61 (broadcastInDim S10000x10000 ![0, 1] bcast_S1x10000_S10000x10000_0_1 : (⟨S1x10000, .f32⟩ : BufTy).Contents (Elt F) → (⟨S10000x10000, .f32⟩ : BufTy).Contents (Elt F)),
    StableHlo.binary main_v59 main_v61 main_v62 (addf : (⟨S10000x10000, .f32⟩ : BufTy).Contents (Elt F) → (⟨S10000x10000, .f32⟩ : BufTy).Contents (Elt F) → (⟨S10000x10000, .f32⟩ : BufTy).Contents (Elt F)),
    StableHlo.unary main_v62 main_v63 (Host.negf : (⟨S10000x10000, .f32⟩ : BufTy).Contents (Elt F) → (⟨S10000x10000, .f32⟩ : BufTy).Contents (Elt F)),
    StableHlo.unary main_v63 main_v64 (Host.exp : (⟨S10000x10000, .f32⟩ : BufTy).Contents (Elt F) → (⟨S10000x10000, .f32⟩ : BufTy).Contents (Elt F)),
    StableHlo.nullary main_cst_3 (constant S_ .f32 0x3F800000#32),
    StableHlo.unary main_cst_3 main_v65 (broadcastInDim S10000x10000 ![] bcast_S_S10000x10000 : (⟨S_, .f32⟩ : BufTy).Contents (Elt F) → (⟨S10000x10000, .f32⟩ : BufTy).Contents (Elt F)),
    StableHlo.binary main_v65 main_v64 main_v66 (addf : (⟨S10000x10000, .f32⟩ : BufTy).Contents (Elt F) → (⟨S10000x10000, .f32⟩ : BufTy).Contents (Elt F) → (⟨S10000x10000, .f32⟩ : BufTy).Contents (Elt F)),
    StableHlo.nullary main_cst_4 (constant S_ .f32 0x3F800000#32),
    StableHlo.unary main_cst_4 main_v67 (broadcastInDim S10000x10000 ![] bcast_S_S10000x10000 : (⟨S_, .f32⟩ : BufTy).Contents (Elt F) → (⟨S10000x10000, .f32⟩ : BufTy).Contents (Elt F)),
    StableHlo.binary main_v67 main_v66 main_v68 (Host.divf : (⟨S10000x10000, .f32⟩ : BufTy).Contents (Elt F) → (⟨S10000x10000, .f32⟩ : BufTy).Contents (Elt F) → (⟨S10000x10000, .f32⟩ : BufTy).Contents (Elt F)) ]

/-- @main's 162 operations, in order. -/
abbrev ops : List (HloOp τ sig (Elt F)) := sA ++ (sB1 ++ (sB2 ++ (sC ++ (sD1 ++ (sD2 ++ (sD3 ++ (sD4 ++ sE)))))))

/-- @main is that straight line: with the functions' bodies unfolded at their calls and the call records at their
    fields, both sides are the same chain of steps. -/
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub ..,
    StableHlo.reshape_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub ..,
    StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub ..,
    StableHlo.unary_bufs_sub .., StableHlo.binary_bufs_sub .., StableHlo.ternary_bufs_sub .., StableHlo.binary_bufs_sub ..,
    StableHlo.unary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.unary_bufs_sub ..,
    StableHlo.ternary_bufs_sub .., StableHlo.unary_bufs_sub .., StableHlo.nullary_bufs_sub .., StableHlo.unary_bufs_sub ..,
    StableHlo.binary_bufs_sub .., StableHlo.ternary_bufs_sub .., StableHlo.nullary_bufs_sub .., StableHlo.unary_bufs_sub ..,
    StableHlo.unary_bufs_sub .., StableHlo.ternary_bufs_sub .., StableHlo.binary_bufs_sub .., StableHlo.unary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.unary_bufs_sub .., StableHlo.ternary_bufs_sub ..,
    StableHlo.unary_bufs_sub .., StableHlo.nullary_bufs_sub .., StableHlo.unary_bufs_sub .., StableHlo.binary_bufs_sub ..,
    StableHlo.ternary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub ..,
    StableHlo.nullary_bufs_sub .., StableHlo.unary_bufs_sub .., StableHlo.binary_bufs_sub .., StableHlo.ternary_bufs_sub ..,
    StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub ..,
    StableHlo.unary_bufs_sub .., StableHlo.binary_bufs_sub .., StableHlo.ternary_bufs_sub .., StableHlo.binary_bufs_sub ..,
    StableHlo.unary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.unary_bufs_sub ..,
    StableHlo.ternary_bufs_sub .., StableHlo.unary_bufs_sub .., StableHlo.nullary_bufs_sub .., StableHlo.unary_bufs_sub ..,
    StableHlo.binary_bufs_sub .., StableHlo.ternary_bufs_sub .., StableHlo.unary_bufs_sub .., StableHlo.binary_bufs_sub ..,
    StableHlo.unary_bufs_sub .., StableHlo.unary_bufs_sub .., StableHlo.binary_bufs_sub .., StableHlo.nullary_bufs_sub ..,
    StableHlo.unary_bufs_sub .., StableHlo.binary_bufs_sub .., StableHlo.binary_bufs_sub .., StableHlo.unary_bufs_sub ..,
    StableHlo.unary_bufs_sub .., StableHlo.binary_bufs_sub .., StableHlo.unary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub ..⟩

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

/-! ## What each stretch writes, and leaves alone -/

/-- The fold over two lines run one after the other is the second's over the first's. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- A result buffer listed among the references `w` lies, as a one-element set, within `w`'s device buffers. -/
theorem single_sub {w : List (Ref sig .tc)} {y : Ref sig .tc} (h : y ∈ w) :
    ({Proc.devRef .tc y} : Finset (DevRef τ sig)) ⊆ (w.map (Proc.devRef (τ := τ) .tc)).toFinset :=
  Finset.singleton_subset_iff.mpr (List.mem_toFinset.mpr (List.mem_map_of_mem h))

/-- The buffers `sA` writes, in order: one per operation. -/
abbrev wA : List (Ref sig .tc) :=
  [ main_v0, main_v1, main_v2, main_v3, main_v4, main_c,
    main_v5, main_v6, main_c_0, main_v7, main_v8, main_v9,
    main_v10, main_v11, main_c_1, main_v12, main_v13, main_c_2,
    main_v14, main_v15, main_v16, main_v17, main_v18 ]

theorem sA_writes :
    (sA : List (HloOp τ sig (Elt F))).Forall fun op => op.writes ⊆ (wA.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide)⟩

/-- `sA` leaves every buffer outside `wA` as it found it. -/
theorem sA_frame (W : Valuation τ sig (Elt F)) {r : Ref sig .tc} (h : r ∉ wA) :
    StableHlo.after sA W (no_index (Proc.devRef .tc r)) = W (Proc.devRef .tc r) :=
  StableHlo.after_of_writes_sub sA W sA_writes h

/-- The buffers `sB1` writes, in order: one per operation. -/
abbrev wB1 : List (Ref sig .tc) :=
  [ main_v19, main_v20, main_v21, main_v22, main_v23, main_call0_cst,
    main_call0_v0, main_call0_v1, main_call0_cst_0, main_call0_v2, main_call0_v3, main_call0_cst_1,
    main_call0_call0_v0, main_call0_call0_v1, main_call0_v4, main_call0_v5, main_call0_cst_2, main_call0_v6,
    main_call0_v7, main_v24 ]

theorem sB1_writes :
    (sB1 : List (HloOp τ sig (Elt F))).Forall fun op => op.writes ⊆ (wB1.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide)⟩

/-- `sB1` leaves every buffer outside `wB1` as it found it. -/
theorem sB1_frame (W : Valuation τ sig (Elt F)) {r : Ref sig .tc} (h : r ∉ wB1) :
    StableHlo.after sB1 W (no_index (Proc.devRef .tc r)) = W (Proc.devRef .tc r) :=
  StableHlo.after_of_writes_sub sB1 W sB1_writes h

/-- The buffers `sB2` writes, in order: one per operation. -/
abbrev wB2 : List (Ref sig .tc) :=
  [ main_v25, main_v26, main_v27, main_v28, main_call1_cst, main_call1_v0,
    main_call1_v1, main_call1_cst_0, main_call1_v2, main_call1_v3, main_call1_cst_1, main_call1_call0_v0,
    main_call1_call0_v1, main_call1_v4, main_call1_v5, main_call1_cst_2, main_call1_v6, main_call1_v7,
    main_v29 ]

theorem sB2_writes :
    (sB2 : List (HloOp τ sig (Elt F))).Forall fun op => op.writes ⊆ (wB2.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide)⟩

/-- `sB2` leaves every buffer outside `wB2` as it found it. -/
theorem sB2_frame (W : Valuation τ sig (Elt F)) {r : Ref sig .tc} (h : r ∉ wB2) :
    StableHlo.after sB2 W (no_index (Proc.devRef .tc r)) = W (Proc.devRef .tc r) :=
  StableHlo.after_of_writes_sub sB2 W sB2_writes h

/-- The buffers `sC` writes, in order: one per operation. -/
abbrev wC : List (Ref sig .tc) :=
  [ main_cst, main_v30, main_v31, main_v32 ]

theorem sC_writes :
    (sC : List (HloOp τ sig (Elt F))).Forall fun op => op.writes ⊆ (wC.map (Proc.devRef (τ := τ) .tc)).toFinset :=
  ⟨single_sub (by decide), single_sub (by decide), single_sub (by decide), single_sub (by decide)⟩

/-- `sC` leaves every buffer outside `wC` as it found it. -/
theorem sC_frame (W : Valuation τ sig (Elt F)) {r : Ref sig .tc} (h : r ∉ wC) :
    StableHlo.after sC W (no_index (Proc.devRef .tc r)) = W (Proc.devRef .tc r) :=
  StableHlo.after_of_writes_sub sC W sC_writes h

/-- The buffers `sD1` writes, in order: one per operation. -/
abbrev wD1 : List (Ref sig .tc) :=
  [ main_v33, main_v34, main_v35, main_v36, main_call2_cst, main_call2_v0,
    main_call2_v1, main_call2_cst_0, main_call2_v2, main_call2_v3, main_call2_cst_1, main_call2_call0_v0,
    main_call2_call0_v1, main_call2_v4, main_call2_v5, main_call2_cst_2, main_call2_v6, main_call2_v7,
    main_v37 ]

theorem sD1_writes :
    (sD1 : List (HloOp τ sig (Elt F))).Forall fun op => op.writes ⊆ (wD1.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide)⟩

/-- `sD1` leaves every buffer outside `wD1` as it found it. -/
theorem sD1_frame (W : Valuation τ sig (Elt F)) {r : Ref sig .tc} (h : r ∉ wD1) :
    StableHlo.after sD1 W (no_index (Proc.devRef .tc r)) = W (Proc.devRef .tc r) :=
  StableHlo.after_of_writes_sub sD1 W sD1_writes h

/-- The buffers `sD2` writes, in order: one per operation. -/
abbrev wD2 : List (Ref sig .tc) :=
  [ main_v38, main_v39, main_v40, main_v41, main_call3_cst, main_call3_v0,
    main_call3_v1, main_call3_cst_0, main_call3_v2, main_call3_v3, main_call3_cst_1, main_call3_call0_v0,
    main_call3_call0_v1, main_call3_v4, main_call3_v5, main_call3_cst_2, main_call3_v6, main_call3_v7,
    main_v42 ]

theorem sD2_writes :
    (sD2 : List (HloOp τ sig (Elt F))).Forall fun op => op.writes ⊆ (wD2.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide)⟩

/-- `sD2` leaves every buffer outside `wD2` as it found it. -/
theorem sD2_frame (W : Valuation τ sig (Elt F)) {r : Ref sig .tc} (h : r ∉ wD2) :
    StableHlo.after sD2 W (no_index (Proc.devRef .tc r)) = W (Proc.devRef .tc r) :=
  StableHlo.after_of_writes_sub sD2 W sD2_writes h

/-- The buffers `sD3` writes, in order: one per operation. -/
abbrev wD3 : List (Ref sig .tc) :=
  [ main_v43, main_v44, main_v45, main_v46, main_call4_cst, main_call4_v0,
    main_call4_v1, main_call4_cst_0, main_call4_v2, main_call4_v3, main_call4_cst_1, main_call4_call0_v0,
    main_call4_call0_v1, main_call4_v4, main_call4_v5, main_call4_cst_2, main_call4_v6, main_call4_v7,
    main_v47 ]

theorem sD3_writes :
    (sD3 : List (HloOp τ sig (Elt F))).Forall fun op => op.writes ⊆ (wD3.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide)⟩

/-- `sD3` leaves every buffer outside `wD3` as it found it. -/
theorem sD3_frame (W : Valuation τ sig (Elt F)) {r : Ref sig .tc} (h : r ∉ wD3) :
    StableHlo.after sD3 W (no_index (Proc.devRef .tc r)) = W (Proc.devRef .tc r) :=
  StableHlo.after_of_writes_sub sD3 W sD3_writes h

/-- The buffers `sD4` writes, in order: one per operation. -/
abbrev wD4 : List (Ref sig .tc) :=
  [ main_v48, main_v49, main_v50, main_v51, main_call5_cst, main_call5_v0,
    main_call5_v1, main_call5_cst_0, main_call5_v2, main_call5_v3, main_call5_cst_1, main_call5_call0_v0,
    main_call5_call0_v1, main_call5_v4, main_call5_v5, main_call5_cst_2, main_call5_v6, main_call5_v7,
    main_v52 ]

theorem sD4_writes :
    (sD4 : List (HloOp τ sig (Elt F))).Forall fun op => op.writes ⊆ (wD4.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide)⟩

/-- `sD4` leaves every buffer outside `wD4` as it found it. -/
theorem sD4_frame (W : Valuation τ sig (Elt F)) {r : Ref sig .tc} (h : r ∉ wD4) :
    StableHlo.after sD4 W (no_index (Proc.devRef .tc r)) = W (Proc.devRef .tc r) :=
  StableHlo.after_of_writes_sub sD4 W sD4_writes h

/-- The buffers `sE` writes, in order: one per operation. -/
abbrev wE : List (Ref sig .tc) :=
  [ main_v53, main_v54, main_v55, main_v56, main_v57, main_call6_cst,
    main_call6_v0, main_v58, main_v59, main_v60, main_v61, main_v62,
    main_v63, main_v64, main_cst_3, main_v65, main_v66, main_cst_4,
    main_v67, main_v68 ]

theorem sE_writes :
    (sE : List (HloOp τ sig (Elt F))).Forall fun op => op.writes ⊆ (wE.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide)⟩

/-- `sE` leaves every buffer outside `wE` as it found it. -/
theorem sE_frame (W : Valuation τ sig (Elt F)) {r : Ref sig .tc} (h : r ∉ wE) :
    StableHlo.after sE W (no_index (Proc.devRef .tc r)) = W (Proc.devRef .tc r) :=
  StableHlo.after_of_writes_sub sE W sE_writes h

/-! ## What each stretch leaves at its outputs, over any contents `W` at its start

Each is the stretch's fold unrolled: every operation's result at its own buffer is its function of its operands'
contents, and the composed term is the definition's body. -/

theorem sA_v4 (W : Valuation τ sig (Elt F)) :
    StableHlo.after sA W (no_index (main_v4 : DevRef τ sig)) = dstOf (W (main_arg2 : DevRef τ sig)) := by
  unfold sA
  after_results_simp
  rfl

theorem sA_v11 (W : Valuation τ sig (Elt F)) :
    StableHlo.after sA W (no_index (main_v11 : DevRef τ sig))
      = xd (W (main_arg0 : DevRef τ sig)) (W (main_arg2 : DevRef τ sig)) := by
  unfold sA
  after_results_simp
  rfl

theorem sA_v18 (W : Valuation τ sig (Elt F)) :
    StableHlo.after sA W (no_index (main_v18 : DevRef τ sig))
      = xs (W (main_arg0 : DevRef τ sig)) (W (main_arg2 : DevRef τ sig)) := by
  unfold sA
  after_results_simp
  rfl

theorem sB1_val (W : Valuation τ sig (Elt F)) :
    StableHlo.after sB1 W (no_index (main_v24 : DevRef τ sig))
      = eluR S320000x256 bcast_S_S320000x256
          (addf (Host.dotGeneral dot_S320000x512_S512x256_S320000x256_1_0_0_1_n_n none
            (concatenate S320000x512 1 [⟨S320000x256, W (main_v11 : DevRef τ sig)⟩, ⟨S320000x256, W (main_v18 : DevRef τ sig)⟩]
              concatenates_S320000x256_S320000x256_S320000x512_d1) (W (main_arg7 : DevRef τ sig)))
            (biasE (W (main_arg8 : DevRef τ sig)))) := by
  unfold sB1
  after_results_simp
  rfl

theorem sB2_val (W : Valuation τ sig (Elt F)) :
    StableHlo.after sB2 W (no_index (main_v29 : DevRef τ sig))
      = eluR S320000x256 bcast_S_S320000x256
          (addf (Host.dotGeneral dot_S320000x256_S256x256_S320000x256_1_0_0_1_n_n none (W (main_v24 : DevRef τ sig))
              (W (main_arg9 : DevRef τ sig)))
            (biasE (W (main_arg10 : DevRef τ sig)))) := by
  unfold sB2
  after_results_simp
  rfl

theorem sC_val (W : Valuation τ sig (Elt F)) :
    StableHlo.after sC W (no_index (main_v32 : DevRef τ sig))
      = Host.scatterAdd scatter_S10000x256_S320000x1_S320000x256_1_0_0_1
          (broadcastInDim S10000x256 ![] bcast_S_S10000x256 (constant S_ .f32 0x00000000#32))
          (broadcastInDim S320000x1 ![0] bcast_S320000_S320000x1_0 (W (main_v4 : DevRef τ sig)))
          (W (main_v29 : DevRef τ sig)) := by
  unfold sC
  after_results_simp

theorem sD1_val (W : Valuation τ sig (Elt F)) :
    StableHlo.after sD1 W (no_index (main_v37 : DevRef τ sig))
      = layerN (W (main_v32 : DevRef τ sig)) (W (main_arg11 : DevRef τ sig)) (W (main_arg12 : DevRef τ sig)) := by
  unfold sD1
  after_results_simp
  rfl

theorem sD2_val (W : Valuation τ sig (Elt F)) :
    StableHlo.after sD2 W (no_index (main_v42 : DevRef τ sig))
      = layerN (W (main_v37 : DevRef τ sig)) (W (main_arg13 : DevRef τ sig)) (W (main_arg14 : DevRef τ sig)) := by
  unfold sD2
  after_results_simp
  rfl

theorem sD3_val (W : Valuation τ sig (Elt F)) :
    StableHlo.after sD3 W (no_index (main_v47 : DevRef τ sig))
      = layerN (W (main_v42 : DevRef τ sig)) (W (main_arg15 : DevRef τ sig)) (W (main_arg16 : DevRef τ sig)) := by
  unfold sD3
  after_results_simp
  rfl

theorem sD4_val (W : Valuation τ sig (Elt F)) :
    StableHlo.after sD4 W (no_index (main_v52 : DevRef τ sig))
      = layerN (W (main_v47 : DevRef τ sig)) (W (main_arg17 : DevRef τ sig)) (W (main_arg18 : DevRef τ sig)) := by
  unfold sD4
  after_results_simp
  rfl

theorem sE_val (W : Valuation τ sig (Elt F)) :
    StableHlo.after sE W (no_index (main_v68 : DevRef τ sig))
      = rawOUT (extractStridedSlice S10000x128 ![0, 128] (W (main_v52 : DevRef τ sig)) slices_S10000x256_S10000x128_0_128)
          (W (main_arg19 : DevRef τ sig)) (W (main_arg20 : DevRef τ sig)) (W (main_arg21 : DevRef τ sig))
          (W (main_arg22 : DevRef τ sig)) := by
  unfold sE
  after_results_simp
  rfl

/-! ## The whole line -/

/-- The fold at the result buffer is `valR` of the argument arrays: stretch by stretch, each stretch's output at the
    definition it spells, every other buffer read being one the stretches between leave alone. -/
theorem out_eq (V : Valuation τ sig (Elt F)) :
    StableHlo.after ops V (main_v68 : DevRef τ sig)
      = valR (V (main_arg0 : DevRef τ sig)) (V (main_arg2 : DevRef τ sig)) (V (main_arg7 : DevRef τ sig))
          (V (main_arg8 : DevRef τ sig)) (V (main_arg9 : DevRef τ sig)) (V (main_arg10 : DevRef τ sig))
          (V (main_arg11 : DevRef τ sig)) (V (main_arg12 : DevRef τ sig)) (V (main_arg13 : DevRef τ sig))
          (V (main_arg14 : DevRef τ sig)) (V (main_arg15 : DevRef τ sig)) (V (main_arg16 : DevRef τ sig))
          (V (main_arg17 : DevRef τ sig)) (V (main_arg18 : DevRef τ sig)) (V (main_arg19 : DevRef τ sig))
          (V (main_arg20 : DevRef τ sig)) (V (main_arg21 : DevRef τ sig)) (V (main_arg22 : DevRef τ sig)) := by
  unfold ops
  simp (disch := decide) only [after_app, sE_val, sD4_val, sD3_val, sD2_val, sD1_val, sC_val, sB2_val, sB1_val, sA_v4,
    sA_frame, sB1_frame, sB2_frame, sC_frame, sD1_frame, sD2_frame, sD3_frame, sD4_frame]
  rw [sA_v11, sA_v18]
  rfl

/-- A buffer no stretch writes holds at the end what it held at the start. -/
theorem arg_eq (V : Valuation τ sig (Elt F)) {r : Ref sig .tc}
    (h : r ∉ wA ∧ r ∉ wB1 ∧ r ∉ wB2 ∧ r ∉ wC ∧ r ∉ wD1 ∧ r ∉ wD2 ∧ r ∉ wD3 ∧ r ∉ wD4 ∧ r ∉ wE) :
    StableHlo.after ops V (Proc.devRef .tc r) = V (Proc.devRef .tc r) := by
  obtain ⟨hA, hB1, hB2, hC, hD1, hD2, hD3, hD4, hE⟩ := h
  unfold ops
  simp only [after_app]
  rw [sE_frame _ hE, sD4_frame _ hD4, sD3_frame _ hD3, sD2_frame _ hD2, sD1_frame _ hD1, sC_frame _ hC, sB2_frame _ hB2,
    sB1_frame _ hB1, sA_frame _ hA]

/-! ## The statement -/

/-- Every weakly fair execution of the reference terminates with the result array at `valR` of the argument arrays and
    the argument arrays unchanged. -/
theorem run_value (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v68) = valR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)) :=
  (θ_run _ _ _).mono (fun _ h c => ⟨(h c main_v68).trans (out_eq _),
      (h c main_arg0).trans (arg_eq _ (by decide)), (h c main_arg1).trans (arg_eq _ (by decide)),
      (h c main_arg2).trans (arg_eq _ (by decide)), (h c main_arg3).trans (arg_eq _ (by decide)),
      (h c main_arg4).trans (arg_eq _ (by decide)), (h c main_arg5).trans (arg_eq _ (by decide)),
      (h c main_arg6).trans (arg_eq _ (by decide)), (h c main_arg7).trans (arg_eq _ (by decide)),
      (h c main_arg8).trans (arg_eq _ (by decide)), (h c main_arg9).trans (arg_eq _ (by decide)),
      (h c main_arg10).trans (arg_eq _ (by decide)), (h c main_arg11).trans (arg_eq _ (by decide)),
      (h c main_arg12).trans (arg_eq _ (by decide)), (h c main_arg13).trans (arg_eq _ (by decide)),
      (h c main_arg14).trans (arg_eq _ (by decide)), (h c main_arg15).trans (arg_eq _ (by decide)),
      (h c main_arg16).trans (arg_eq _ (by decide)), (h c main_arg17).trans (arg_eq _ (by decide)),
      (h c main_arg18).trans (arg_eq _ (by decide)), (h c main_arg19).trans (arg_eq _ (by decide)),
      (h c main_arg20).trans (arg_eq _ (by decide)), (h c main_arg21).trans (arg_eq _ (by decide)),
      (h c main_arg22).trans (arg_eq _ (by decide))⟩)
    (run_main m ρ)

end Cert.ReferenceIdeal.Hand

end
-- ==== Proof.SpecLaws.lean ====
/-
  Laws of the specification: the two spellings of the first message layer agree (a 512-term sum splits into its first
  and last 256 terms), and each program's spelling of `elu` and of the logistic function at one element is the
  specification's.
-/
import proofs.«150242_j29703993819981_1_alg».proof.Proof.Spec

noncomputable section

open scoped BigOperators

namespace Cert.Spec

open Idealize.ShloMosaic Idealize.ShloMosaic.ValueIdx

/-- A dense layer over two rows laid end to end is the two half layers added. -/
theorem lin_cat (x y : Fin 256 → EReal) (W : Mat 512 256) (b : Row 256) (j : Fin 256) :
    lin (cat x y) W b j = lin2 x y (top W) (bot W) b j := by
  unfold lin lin2
  congr 1
  have split : (∑ k : Fin 512, cat x y k * W (ix2 k j))
      = ∑ k : Fin (256 + 256), cat x y k * W (ix2 k j) := rfl
  rw [split, Fin.sum_univ_add]
  refine congrArg₂ (· + ·) ?_ ?_
  · refine Finset.sum_congr rfl fun k _ => ?_
    have hc : cat x y (Fin.castAdd 256 k) = x k := by
      unfold cat
      exact dif_pos k.isLt
    rw [hc]
    rfl
  · refine Finset.sum_congr rfl fun k _ => ?_
    have hc : cat x y (Fin.natAdd 256 k) = y k := by
      unfold cat
      have hn : ¬ (Fin.natAdd 256 k).val < 256 := by simp
      rw [dif_neg hn]
      congr 1
      ext
      simp
    rw [hc]
    rfl

/-- The two spellings of the edge messages agree. -/
theorem msgK_eq_msgR (xd xs : Mat 320000 256) (W1 : Mat 512 256) (b1 : Row 256) (W2 : Mat 256 256) (b2 : Row 256) :
    msgK xd xs (top W1) (bot W1) b1 W2 b2 = msgR xd xs W1 b1 W2 b2 := by
  funext i
  unfold msgK msgR mlp
  simp only [lin_cat]

/-- The reference's spelling of `elu` at one element: `select (h > 0) h (1 · (e^(select (h > 0) 0 h) - 1))`. -/
theorem elu_ref (h : EReal) :
    Scalar.select (Ideal.cmp .ogt h 0) h (1 * (Ideal.exp (Scalar.select (Ideal.cmp .ogt h 0) 0 h) - 1)) = elu h := by
  unfold elu
  by_cases hc : Ideal.cmp .ogt h 0 = 1#1
  · rw [hc]
    simp only [select_one]
  · rw [eq_zero_of_ne_one hc]
    simp only [select_zero, one_mul]

/-- The kernel's spelling of the logistic function at one element negates by subtracting from zero. -/
theorem sigm_sub (o : EReal) : Ideal.div 1 (1 + Ideal.exp (0 - o)) = sigm o := by
  unfold sigm
  rw [zero_sub]

end Cert.Spec

end
-- ==== Proof.RMsg.lean ====
/-
  The reference's edge-message stage read at an index: each host matrix product is a finite sum over the contracted axis, the
  bias broadcasts read their row, the concatenation reads its left or right piece, and the reference's spelling of elu is `Spec.elu`.
-/
import proofs.«150242_j29703993819981_1_alg».proof.Proof.Gen.ReferenceIdeal
import proofs.«150242_j29703993819981_1_alg».proof.Proof.RDefs
import proofs.«150242_j29703993819981_1_alg».proof.Proof.Spec
import proofs.«150242_j29703993819981_1_alg».proof.Proof.SpecLaws
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.Hand

open Cert.ReferenceIdeal Cert.ReferenceIdeal.Gen
open Idealize.ShloMosaic Idealize.ShloMosaic.ValueIdx

/-! ## Splats, the bias and the concatenation at an index -/

/-- The zero splat reads `0` everywhere. -/
theorem zeroE_apply (i : S320000x256.Idx) :
    broadcastInDim S320000x256 ![] bcast_S_S320000x256 (constant (F := Ideal) S_ .f32 0x00000000#32) i = 0 :=
  (broadcastInDim_apply ![] bcast_S_S320000x256 _ i ix0 (fun a => a.elim0)).trans
    ((constant_apply _ _).trans Ideal.ofBits_zero_f32)

/-- The one splat reads `1` everywhere. -/
theorem oneE_apply (i : S320000x256.Idx) :
    broadcastInDim S320000x256 ![] bcast_S_S320000x256 (constant (F := Ideal) S_ .f32 0x3F800000#32) i = 1 :=
  (broadcastInDim_apply ![] bcast_S_S320000x256 _ i ix0 (fun a => a.elim0)).trans
    ((constant_apply _ _).trans Ideal.ofBits_one_f32)

/-- The bias laid under every row reads its own entry of the column. -/
theorem biasE_apply (b : FVec Ideal S256 .f32) (p : Fin 320000) (q : Fin 256) :
    biasE (F := Ideal) b (ix2 p q) = b (ix1 q) := by
  unfold biasE
  refine (broadcastInDim_apply ![0, 1] bcast_S1x256_S320000x256_0_1 _ (ix2 p q) (ix2 ⟨0, by decide⟩ q) (fun a => by
    match a with
    | ⟨0, _⟩ => rfl
    | ⟨1, _⟩ => rfl)).trans ?_
  exact broadcastInDim_apply ![1] bcast_S256_S1x256_1 b (ix2 ⟨0, by decide⟩ q) (ix1 q) (fun a => by
    match a with
    | ⟨0, _⟩ => rfl)

/-- Two arrays of 256 columns laid side by side read, row by row, as the two rows laid end to end. -/
theorem cat_apply (xd xs : FVec Ideal S320000x256 .f32) (p : Fin 320000) (l : Fin 512) :
    concatenate S320000x512 1 [⟨S320000x256, xd⟩, ⟨S320000x256, xs⟩] concatenates_S320000x256_S320000x256_S320000x512_d1 (ix2 p l)
      = Spec.cat (fun l => xd (ix2 p l)) (fun l => xs (ix2 p l)) l := by
  unfold Spec.cat
  by_cases h : l.val < 256
  · rw [dif_pos h]
    exact concatenate_pair_apply_left 1 xd xs _ (ix2 p l) rfl (ix2 p ⟨l.val, h⟩) (fun b => by
      match b with
      | ⟨0, _⟩ => rfl
      | ⟨1, _⟩ => rfl)
  · rw [dif_neg h]
    exact concatenate_pair_apply_right 1 xd xs _ (ix2 p l) rfl rfl (ix2 p ⟨l.val - 256, by have := l.isLt; omega⟩)
      (fun b hb => by
        match b with
        | ⟨0, _⟩ => rfl
        | ⟨1, _⟩ => exact absurd rfl hb)
      (by show l.val - 256 + 256 = l.val; omega)

/-- The reference's spelling of `elu`, entry by entry, is the specification's. -/
theorem eluR_apply (h : FVec Ideal S320000x256 .f32) (i : S320000x256.Idx) :
    eluR (F := Ideal) S320000x256 bcast_S_S320000x256 h i = Spec.elu (h i) := by
  unfold eluR
  show Scalar.select (Ideal.cmp .ogt (h i) (broadcastInDim S320000x256 ![] bcast_S_S320000x256 (constant (F := Ideal) S_ .f32 0x00000000#32) i)) (h i)
      (broadcastInDim S320000x256 ![] bcast_S_S320000x256 (constant (F := Ideal) S_ .f32 0x3F800000#32) i *
        (Ideal.exp (Scalar.select (Ideal.cmp .ogt (h i) (broadcastInDim S320000x256 ![] bcast_S_S320000x256 (constant (F := Ideal) S_ .f32 0x00000000#32) i))
          (broadcastInDim S320000x256 ![] bcast_S_S320000x256 (constant (F := Ideal) S_ .f32 0x00000000#32) i) (h i)) - 1)) = _
  rw [zeroE_apply, oneE_apply]
  exact Spec.elu_ref (h i)

/-! ## The two matrix products at an index -/

theorem lhs_D512_0 (i : S320000x256.Idx) (q : dot_S320000x512_S512x256_S320000x256_1_0_0_1_n_n.contr.Idx) :
    (dot_S320000x512_S512x256_S320000x256_1_0_0_1_n_n.lhsIdx i q 0).val = (i 0).val := by
  unfold DotDims.lhsIdx
  rw [dif_neg (show ¬(0 : Fin S320000x512.rank) ∈ dot_S320000x512_S512x256_S320000x256_1_0_0_1_n_n.lhsBatch by decide),
    dif_pos (show (0 : Fin S320000x512.rank) ∈ dot_S320000x512_S512x256_S320000x256_1_0_0_1_n_n.lhsNonContracting by decide)]
  rfl
theorem lhs_D512_1 (i : S320000x256.Idx) (q : dot_S320000x512_S512x256_S320000x256_1_0_0_1_n_n.contr.Idx) :
    (dot_S320000x512_S512x256_S320000x256_1_0_0_1_n_n.lhsIdx i q 1).val = (q ⟨0, by decide⟩).val :=
  dot_S320000x512_S512x256_S320000x256_1_0_0_1_n_n.lhsIdx_val_of_single rfl i q
theorem rhs_D512_0 (i : S320000x256.Idx) (q : dot_S320000x512_S512x256_S320000x256_1_0_0_1_n_n.contr.Idx) :
    (dot_S320000x512_S512x256_S320000x256_1_0_0_1_n_n.rhsIdx i q 0).val = (q ⟨0, by decide⟩).val :=
  dot_S320000x512_S512x256_S320000x256_1_0_0_1_n_n.rhsIdx_val_of_single rfl i q
theorem rhs_D512_1 (i : S320000x256.Idx) (q : dot_S320000x512_S512x256_S320000x256_1_0_0_1_n_n.contr.Idx) :
    (dot_S320000x512_S512x256_S320000x256_1_0_0_1_n_n.rhsIdx i q 1).val = (i 1).val := by
  unfold DotDims.rhsIdx
  rw [dif_neg (show ¬(1 : Fin S512x256.rank) ∈ dot_S320000x512_S512x256_S320000x256_1_0_0_1_n_n.rhsBatch by decide),
    dif_pos (show (1 : Fin S512x256.rank) ∈ dot_S320000x512_S512x256_S320000x256_1_0_0_1_n_n.rhsNonContracting by decide)]
  rfl

/-- The first product at an entry: the row against the column, 512 terms. -/
theorem dot512_apply (x : FVec Ideal S320000x512 .f32) (w : FVec Ideal S512x256 .f32) (p : Fin 320000) (q : Fin 256) :
    Host.dotGeneral (F := Ideal) dot_S320000x512_S512x256_S320000x256_1_0_0_1_n_n none x w (ix2 p q)
      = ∑ k : Fin 512, x (ix2 p k) * w (ix2 k q) := by
  simp only [Host.dotGeneral]
  rw [Ideal.dotGeneral_apply,
    ← Equiv.sum_comp (ValueIdx.contrEquiv1 dot_S320000x512_S512x256_S320000x256_1_0_0_1_n_n 512 rfl rfl).symm]
  refine Finset.sum_congr rfl fun k _ => ?_
  have hk := ValueIdx.contrEquiv1_symm_val dot_S320000x512_S512x256_S320000x256_1_0_0_1_n_n 512 rfl rfl k
  have el : dot_S320000x512_S512x256_S320000x256_1_0_0_1_n_n.lhsIdx (ix2 p q)
      ((ValueIdx.contrEquiv1 dot_S320000x512_S512x256_S320000x256_1_0_0_1_n_n 512 rfl rfl).symm k) = ix2 p k :=
    funext fun a => Fin.ext (by
      match a with
      | ⟨0, _⟩ => exact lhs_D512_0 _ _
      | ⟨1, _⟩ => exact (lhs_D512_1 _ _).trans hk)
  have er : dot_S320000x512_S512x256_S320000x256_1_0_0_1_n_n.rhsIdx (ix2 p q)
      ((ValueIdx.contrEquiv1 dot_S320000x512_S512x256_S320000x256_1_0_0_1_n_n 512 rfl rfl).symm k) = ix2 k q :=
    funext fun a => Fin.ext (by
      match a with
      | ⟨0, _⟩ => exact (rhs_D512_0 _ _).trans hk
      | ⟨1, _⟩ => exact rhs_D512_1 _ _)
  rw [el, er]

theorem lhs_D256_0 (i : S320000x256.Idx) (q : dot_S320000x256_S256x256_S320000x256_1_0_0_1_n_n.contr.Idx) :
    (dot_S320000x256_S256x256_S320000x256_1_0_0_1_n_n.lhsIdx i q 0).val = (i 0).val := by
  unfold DotDims.lhsIdx
  rw [dif_neg (show ¬(0 : Fin S320000x256.rank) ∈ dot_S320000x256_S256x256_S320000x256_1_0_0_1_n_n.lhsBatch by decide),
    dif_pos (show (0 : Fin S320000x256.rank) ∈ dot_S320000x256_S256x256_S320000x256_1_0_0_1_n_n.lhsNonContracting by decide)]
  rfl
theorem lhs_D256_1 (i : S320000x256.Idx) (q : dot_S320000x256_S256x256_S320000x256_1_0_0_1_n_n.contr.Idx) :
    (dot_S320000x256_S256x256_S320000x256_1_0_0_1_n_n.lhsIdx i q 1).val = (q ⟨0, by decide⟩).val :=
  dot_S320000x256_S256x256_S320000x256_1_0_0_1_n_n.lhsIdx_val_of_single rfl i q
theorem rhs_D256_0 (i : S320000x256.Idx) (q : dot_S320000x256_S256x256_S320000x256_1_0_0_1_n_n.contr.Idx) :
    (dot_S320000x256_S256x256_S320000x256_1_0_0_1_n_n.rhsIdx i q 0).val = (q ⟨0, by decide⟩).val :=
  dot_S320000x256_S256x256_S320000x256_1_0_0_1_n_n.rhsIdx_val_of_single rfl i q
theorem rhs_D256_1 (i : S320000x256.Idx) (q : dot_S320000x256_S256x256_S320000x256_1_0_0_1_n_n.contr.Idx) :
    (dot_S320000x256_S256x256_S320000x256_1_0_0_1_n_n.rhsIdx i q 1).val = (i 1).val := by
  unfold DotDims.rhsIdx
  rw [dif_neg (show ¬(1 : Fin S256x256.rank) ∈ dot_S320000x256_S256x256_S320000x256_1_0_0_1_n_n.rhsBatch by decide),
    dif_pos (show (1 : Fin S256x256.rank) ∈ dot_S320000x256_S256x256_S320000x256_1_0_0_1_n_n.rhsNonContracting by decide)]
  rfl

/-- The second product at an entry: the row against the column, 256 terms. -/
theorem dot256_apply (x : FVec Ideal S320000x256 .f32) (w : FVec Ideal S256x256 .f32) (p : Fin 320000) (q : Fin 256) :
    Host.dotGeneral (F := Ideal) dot_S320000x256_S256x256_S320000x256_1_0_0_1_n_n none x w (ix2 p q)
      = ∑ k : Fin 256, x (ix2 p k) * w (ix2 k q) := by
  simp only [Host.dotGeneral]
  rw [Ideal.dotGeneral_apply,
    ← Equiv.sum_comp (ValueIdx.contrEquiv1 dot_S320000x256_S256x256_S320000x256_1_0_0_1_n_n 256 rfl rfl).symm]
  refine Finset.sum_congr rfl fun k _ => ?_
  have hk := ValueIdx.contrEquiv1_symm_val dot_S320000x256_S256x256_S320000x256_1_0_0_1_n_n 256 rfl rfl k
  have el : dot_S320000x256_S256x256_S320000x256_1_0_0_1_n_n.lhsIdx (ix2 p q)
      ((ValueIdx.contrEquiv1 dot_S320000x256_S256x256_S320000x256_1_0_0_1_n_n 256 rfl rfl).symm k) = ix2 p k :=
    funext fun a => Fin.ext (by
      match a with
      | ⟨0, _⟩ => exact lhs_D256_0 _ _
      | ⟨1, _⟩ => exact (lhs_D256_1 _ _).trans hk)
  have er : dot_S320000x256_S256x256_S320000x256_1_0_0_1_n_n.rhsIdx (ix2 p q)
      ((ValueIdx.contrEquiv1 dot_S320000x256_S256x256_S320000x256_1_0_0_1_n_n 256 rfl rfl).symm k) = ix2 k q :=
    funext fun a => Fin.ext (by
      match a with
      | ⟨0, _⟩ => exact (rhs_D256_0 _ _).trans hk
      | ⟨1, _⟩ => exact rhs_D256_1 _ _)
  rw [el, er]

/-! ## The two layers at an entry -/

/-- The first layer at an entry: `elu` of the dense layer over the two end points' rows laid end to end. -/
theorem layer1_apply (xd xs : FVec Ideal S320000x256 .f32) (a7 : FVec Ideal S512x256 .f32) (a8 : FVec Ideal S256 .f32)
    (p : Fin 320000) (k : Fin 256) :
    eluR (F := Ideal) S320000x256 bcast_S_S320000x256
      (addf (Host.dotGeneral dot_S320000x512_S512x256_S320000x256_1_0_0_1_n_n none
        (concatenate S320000x512 1 [⟨S320000x256, xd⟩, ⟨S320000x256, xs⟩] concatenates_S320000x256_S320000x256_S320000x512_d1) a7)
        (biasE a8)) (ix2 p k)
      = Spec.elu (Spec.lin (Spec.cat (fun l => xd (ix2 p l)) (fun l => xs (ix2 p l))) a7 a8 k) := by
  rw [eluR_apply, addf_apply, dot512_apply, biasE_apply]
  unfold Spec.lin
  refine congrArg Spec.elu (congrArg (· + a8 (ix1 k)) (Finset.sum_congr rfl fun l _ => ?_))
  rw [cat_apply]

/-- The second layer at an entry: `elu` of the dense layer over the row of the array it is given. -/
theorem layer2_apply (x : FVec Ideal S320000x256 .f32) (a9 : FVec Ideal S256x256 .f32) (a10 : FVec Ideal S256 .f32)
    (p : Fin 320000) (q : Fin 256) :
    eluR (F := Ideal) S320000x256 bcast_S_S320000x256
      (addf (Host.dotGeneral dot_S320000x256_S256x256_S320000x256_1_0_0_1_n_n none x a9) (biasE a10)) (ix2 p q)
      = Spec.elu (Spec.lin (fun k => x (ix2 p k)) a9 a10 q) := by
  rw [eluR_apply, addf_apply, dot256_apply, biasE_apply]
  rfl

/-- The reference's message stage, entry by entry, is the specification's perceptron over the concatenated rows. -/
theorem rawMSG_eq (xd xs : FVec Ideal S320000x256 .f32) (a7 : FVec Ideal S512x256 .f32) (a8 : FVec Ideal S256 .f32)
    (a9 : FVec Ideal S256x256 .f32) (a10 : FVec Ideal S256 .f32) :
    rawMSG (F := Ideal) xd xs a7 a8 a9 a10 = Spec.msgR xd xs a7 a8 a9 a10 := by
  funext i
  obtain ⟨p, q, rfl⟩ : ∃ (p : Fin 320000) (q : Fin 256), i = ix2 p q := ⟨i 0, i 1, eq_ix2 i⟩
  unfold rawMSG
  rw [layer2_apply]
  exact congrArg (fun f => Spec.elu (Spec.lin f a9 a10 q)) (funext fun k => layer1_apply xd xs a7 a8 p k)

end Cert.ReferenceIdeal.Hand

end
-- ==== Proof.RHc.lean ====
/-
  The reference's node-update stage read at an index: four dense layers with elu, then columns 128 … 255.
-/
import proofs.«150242_j29703993819981_1_alg».proof.Proof.Gen.ReferenceIdeal
import proofs.«150242_j29703993819981_1_alg».proof.Proof.RDefs
import proofs.«150242_j29703993819981_1_alg».proof.Proof.Spec
import proofs.«150242_j29703993819981_1_alg».proof.Proof.SpecLaws
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.Hand

open Cert.ReferenceIdeal Cert.ReferenceIdeal.Gen
open Idealize.ShloMosaic Idealize.ShloMosaic.ValueIdx

namespace RHc

/-! ## The matrix product of a layer at an index -/

theorem lhs_d3_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
theorem lhs_d3_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_d3_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_d3_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- The product of a 10000 × 256 by a 256 × 256 matrix at (p, q): the sum over the contracted coordinate of the products
    of the entries. -/
theorem d3_apply (x : FVec Ideal S10000x256 .f32) (w : FVec Ideal S256x256 .f32) (p : Fin 10000) (q : Fin 256) :
    Host.dotGeneral dot_S10000x256_S256x256_S10000x256_1_0_0_1_n_n none x w (ix2 p q) = ∑ k : Fin 256, x (ix2 p k) * w (ix2 k q) := by
  show FloatOps.dotGeneral dot_S10000x256_S256x256_S10000x256_1_0_0_1_n_n none _ x w (ix2 p q) = _
  rw [Ideal.dotGeneral_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx (ix2 p q) ((ValueIdx.contrEquiv1 dot_S10000x256_S256x256_S10000x256_1_0_0_1_n_n 256 rfl rfl).symm k) = ix2 p k :=
    funext fun a => Fin.ext (by
      match a with
      | ⟨0, _⟩ => exact lhs_d3_0 _ _
      | ⟨1, _⟩ => exact (lhs_d3_1 _ _).trans hk)
  have er : dot_S10000x256_S256x256_S10000x256_1_0_0_1_n_n.rhsIdx (ix2 p q) ((ValueIdx.contrEquiv1 dot_S10000x256_S256x256_S10000x256_1_0_0_1_n_n 256 rfl rfl).symm k) = ix2 k q :=
    funext fun a => Fin.ext (by
      match a with
      | ⟨0, _⟩ => exact (rhs_d3_0 _ _).trans hk
      | ⟨1, _⟩ => exact rhs_d3_1 _ _)
  rw [el, er]

/-! ## The bias, the splats and elu at an index -/

/-- A bias row laid under every row reads the row's entry. -/
theorem biasN_apply (b : FVec Ideal S256 .f32) (p : Fin 10000) (q : Fin 256) : biasN (F := Ideal) b (ix2 p q) = b (ix1 q) := by
  unfold biasN
  refine (broadcastInDim_apply ![0, 1] bcast_S1x256_S10000x256_0_1 _ (ix2 p q) (ix2 (0 : Fin 1) q) ?_).trans ?_
  · intro a
    match a with
    | ⟨0, _⟩ => rfl
    | ⟨1, _⟩ => rfl
  · refine broadcastInDim_apply ![1] bcast_S256_S1x256_1 b (ix2 (0 : Fin 1) q) (ix1 q) ?_
    intro a
    match a with
    | ⟨0, _⟩ => rfl

/-- A splat of a word reads the extended real the word encodes, everywhere. -/
theorem splat_apply {T : Shape} (h : S_.BroadcastsInDim T (![] : Fin 0 → Fin T.rank)) (w : BitVec 32) (j : T.Idx) :
    broadcastInDim T ![] h (constant (F := Ideal) S_ .f32 w) j = Ideal.ofBits .f32 w :=
  broadcastInDim_scalar_apply h _ j

/-- The program's spelling of elu, at one element, is the specification's. -/
theorem eluR_apply (S : Shape) (hb : S_.BroadcastsInDim S (![] : Fin 0 → Fin S.rank)) (h : FVec Ideal S .f32) (j : S.Idx) :
    eluR (F := Ideal) S hb h j = Spec.elu (h j) := by
  have z : broadcastInDim S ![] hb (constant (F := Ideal) S_ .f32 0x00000000#32) j = 0 := by
    rw [splat_apply, Ideal.ofBits_zero_f32]
  have o : broadcastInDim S ![] hb (constant (F := Ideal) S_ .f32 0x3F800000#32) j = 1 := by
    rw [splat_apply, Ideal.ofBits_one_f32]
  refine Eq.trans ?_ (Spec.elu_ref (h j))
  unfold eluR
  show Scalar.select (Ideal.cmp .ogt (h j) (broadcastInDim S ![] hb (constant (F := Ideal) S_ .f32 0x00000000#32) j)) (h j)
      (broadcastInDim S ![] hb (constant (F := Ideal) S_ .f32 0x3F800000#32) j
        * (Ideal.exp (Scalar.select (Ideal.cmp .ogt (h j) (broadcastInDim S ![] hb (constant (F := Ideal) S_ .f32 0x00000000#32) j))
            (broadcastInDim S ![] hb (constant (F := Ideal) S_ .f32 0x00000000#32) j) (h j)) - 1)) = _
  rw [z, o]

/-- One dense layer with elu, at an index. -/
theorem layerN_apply (x : FVec Ideal S10000x256 .f32) (w : FVec Ideal S256x256 .f32) (b : FVec Ideal S256 .f32)
    (p : Fin 10000) (q : Fin 256) :
    layerN (F := Ideal) x w b (ix2 p q) = Spec.elu (Spec.lin (fun l => x (ix2 p l)) w b q) := by
  unfold layerN
  rw [eluR_apply, addf_apply, d3_apply, biasN_apply]
  rfl

/-- The same for a whole row. -/
theorem layerN_row (x : FVec Ideal S10000x256 .f32) (w : FVec Ideal S256x256 .f32) (b : FVec Ideal S256 .f32) (p : Fin 10000) :
    (fun l : Fin 256 => layerN (F := Ideal) x w b (ix2 p l)) = fun l => Spec.elu (Spec.lin (fun l => x (ix2 p l)) w b l) :=
  funext fun l => layerN_apply x w b p l

end RHc

open RHc in
/-- The reference's node-update stage, entry by entry, is the specification's. -/
theorem rawHC_eq (agg : FVec Ideal S10000x256 .f32) (a11 : FVec Ideal S256x256 .f32) (a12 : FVec Ideal S256 .f32)
    (a13 : FVec Ideal S256x256 .f32) (a14 : FVec Ideal S256 .f32) (a15 : FVec Ideal S256x256 .f32) (a16 : FVec Ideal S256 .f32)
    (a17 : FVec Ideal S256x256 .f32) (a18 : FVec Ideal S256 .f32) :
    rawHC (F := Ideal) agg a11 a12 a13 a14 a15 a16 a17 a18 = Spec.hc agg a11 a12 a13 a14 a15 a16 a17 a18 := by
  funext i
  obtain ⟨p, q, rfl⟩ : ∃ (p : Fin 10000) (q : Fin 128), i = ix2 p q := ⟨i 0, i 1, eq_ix2 i⟩
  unfold rawHC Spec.hc Spec.mlp
  refine (extractStridedSlice_apply ![0, 128] _ slices_S10000x256_S10000x128_0_128 (ix2 p q)
    (ix2 p (⟨128 + q.val, by omega⟩ : Fin 256)) ?_).trans ?_
  · intro a
    match a with
    | ⟨0, _⟩ => exact (Nat.zero_add _).symm
    | ⟨1, _⟩ => rfl
  · rw [layerN_apply, layerN_row, layerN_row, layerN_row]

end Cert.ReferenceIdeal.Hand

end
-- ==== Proof.ROut.lean ====
/-
  The reference's output stage read at an index: dense, max with 0, dense, the logistic function.
-/
import proofs.«150242_j29703993819981_1_alg».proof.Proof.Gen.ReferenceIdeal
import proofs.«150242_j29703993819981_1_alg».proof.Proof.RDefs
import proofs.«150242_j29703993819981_1_alg».proof.Proof.Spec
import proofs.«150242_j29703993819981_1_alg».proof.Proof.SpecLaws
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.Hand

open Cert.ReferenceIdeal Cert.ReferenceIdeal.Gen
open Idealize.ShloMosaic Idealize.ShloMosaic.ValueIdx

namespace ROut

/-! ## The first matrix product at an index -/

theorem lhs_d1_0 (i : S10000x384.Idx) (q : dot_S10000x128_S128x384_S10000x384_1_0_0_1_n_n.contr.Idx) :
    (dot_S10000x128_S128x384_S10000x384_1_0_0_1_n_n.lhsIdx i q 0).val = (i 0).val := by
  unfold DotDims.lhsIdx
  rw [dif_neg (show ¬(0 : Fin S10000x128.rank) ∈ dot_S10000x128_S128x384_S10000x384_1_0_0_1_n_n.lhsBatch by decide),
    dif_pos (show (0 : Fin S10000x128.rank) ∈ dot_S10000x128_S128x384_S10000x384_1_0_0_1_n_n.lhsNonContracting by decide)]
  rfl
theorem lhs_d1_1 (i : S10000x384.Idx) (q : dot_S10000x128_S128x384_S10000x384_1_0_0_1_n_n.contr.Idx) :
    (dot_S10000x128_S128x384_S10000x384_1_0_0_1_n_n.lhsIdx i q 1).val = (q ⟨0, by decide⟩).val :=
  dot_S10000x128_S128x384_S10000x384_1_0_0_1_n_n.lhsIdx_val_of_single rfl i q
theorem rhs_d1_0 (i : S10000x384.Idx) (q : dot_S10000x128_S128x384_S10000x384_1_0_0_1_n_n.contr.Idx) :
    (dot_S10000x128_S128x384_S10000x384_1_0_0_1_n_n.rhsIdx i q 0).val = (q ⟨0, by decide⟩).val :=
  dot_S10000x128_S128x384_S10000x384_1_0_0_1_n_n.rhsIdx_val_of_single rfl i q
theorem rhs_d1_1 (i : S10000x384.Idx) (q : dot_S10000x128_S128x384_S10000x384_1_0_0_1_n_n.contr.Idx) :
    (dot_S10000x128_S128x384_S10000x384_1_0_0_1_n_n.rhsIdx i q 1).val = (i 1).val := by
  unfold DotDims.rhsIdx
  rw [dif_neg (show ¬(1 : Fin S128x384.rank) ∈ dot_S10000x128_S128x384_S10000x384_1_0_0_1_n_n.rhsBatch by decide),
    dif_pos (show (1 : Fin S128x384.rank) ∈ dot_S10000x128_S128x384_S10000x384_1_0_0_1_n_n.rhsNonContracting by decide)]
  rfl

/-- The product of a 10000 × 128 by a 128 × 384 matrix at (p, q): the sum over the contracted coordinate of the products
    of the entries. -/
theorem d1_apply (x : FVec Ideal S10000x128 .f32) (w : FVec Ideal S128x384 .f32) (p : Fin 10000) (q : Fin 384) :
    Host.dotGeneral dot_S10000x128_S128x384_S10000x384_1_0_0_1_n_n none x w (ix2 p q) = ∑ k : Fin 128, x (ix2 p k) * w (ix2 k q) := by
  show FloatOps.dotGeneral dot_S10000x128_S128x384_S10000x384_1_0_0_1_n_n none _ x w (ix2 p q) = _
  rw [Ideal.dotGeneral_apply, ← Equiv.sum_comp (ValueIdx.contrEquiv1 dot_S10000x128_S128x384_S10000x384_1_0_0_1_n_n 128 rfl rfl).symm]
  refine Finset.sum_congr rfl fun k _ => ?_
  have hk := ValueIdx.contrEquiv1_symm_val dot_S10000x128_S128x384_S10000x384_1_0_0_1_n_n 128 rfl rfl k
  have el : dot_S10000x128_S128x384_S10000x384_1_0_0_1_n_n.lhsIdx (ix2 p q) ((ValueIdx.contrEquiv1 dot_S10000x128_S128x384_S10000x384_1_0_0_1_n_n 128 rfl rfl).symm k) = ix2 p k :=
    funext fun a => Fin.ext (by
      match a with
      | ⟨0, _⟩ => exact lhs_d1_0 _ _
      | ⟨1, _⟩ => exact (lhs_d1_1 _ _).trans hk)
  have er : dot_S10000x128_S128x384_S10000x384_1_0_0_1_n_n.rhsIdx (ix2 p q) ((ValueIdx.contrEquiv1 dot_S10000x128_S128x384_S10000x384_1_0_0_1_n_n 128 rfl rfl).symm k) = ix2 k q :=
    funext fun a => Fin.ext (by
      match a with
      | ⟨0, _⟩ => exact (rhs_d1_0 _ _).trans hk
      | ⟨1, _⟩ => exact rhs_d1_1 _ _)
  rw [el, er]

/-! ## The second matrix product at an index -/

theorem lhs_d2_0 (i : S10000x10000.Idx) (q : dot_S10000x384_S384x10000_S10000x10000_1_0_0_1_n_n.contr.Idx) :
    (dot_S10000x384_S384x10000_S10000x10000_1_0_0_1_n_n.lhsIdx i q 0).val = (i 0).val := by
  unfold DotDims.lhsIdx
  rw [dif_neg (show ¬(0 : Fin S10000x384.rank) ∈ dot_S10000x384_S384x10000_S10000x10000_1_0_0_1_n_n.lhsBatch by decide),
    dif_pos (show (0 : Fin S10000x384.rank) ∈ dot_S10000x384_S384x10000_S10000x10000_1_0_0_1_n_n.lhsNonContracting by decide)]
  rfl
theorem lhs_d2_1 (i : S10000x10000.Idx) (q : dot_S10000x384_S384x10000_S10000x10000_1_0_0_1_n_n.contr.Idx) :
    (dot_S10000x384_S384x10000_S10000x10000_1_0_0_1_n_n.lhsIdx i q 1).val = (q ⟨0, by decide⟩).val :=
  dot_S10000x384_S384x10000_S10000x10000_1_0_0_1_n_n.lhsIdx_val_of_single rfl i q
theorem rhs_d2_0 (i : S10000x10000.Idx) (q : dot_S10000x384_S384x10000_S10000x10000_1_0_0_1_n_n.contr.Idx) :
    (dot_S10000x384_S384x10000_S10000x10000_1_0_0_1_n_n.rhsIdx i q 0).val = (q ⟨0, by decide⟩).val :=
  dot_S10000x384_S384x10000_S10000x10000_1_0_0_1_n_n.rhsIdx_val_of_single rfl i q
theorem rhs_d2_1 (i : S10000x10000.Idx) (q : dot_S10000x384_S384x10000_S10000x10000_1_0_0_1_n_n.contr.Idx) :
    (dot_S10000x384_S384x10000_S10000x10000_1_0_0_1_n_n.rhsIdx i q 1).val = (i 1).val := by
  unfold DotDims.rhsIdx
  rw [dif_neg (show ¬(1 : Fin S384x10000.rank) ∈ dot_S10000x384_S384x10000_S10000x10000_1_0_0_1_n_n.rhsBatch by decide),
    dif_pos (show (1 : Fin S384x10000.rank) ∈ dot_S10000x384_S384x10000_S10000x10000_1_0_0_1_n_n.rhsNonContracting by decide)]
  rfl

/-- The product of a 10000 × 384 by a 384 × 10000 matrix at (p, q): the sum over the contracted coordinate of the products
    of the entries. -/
theorem d2_apply (x : FVec Ideal S10000x384 .f32) (w : FVec Ideal S384x10000 .f32) (p : Fin 10000) (q : Fin 10000) :
    Host.dotGeneral dot_S10000x384_S384x10000_S10000x10000_1_0_0_1_n_n none x w (ix2 p q) = ∑ k : Fin 384, x (ix2 p k) * w (ix2 k q) := by
  show FloatOps.dotGeneral dot_S10000x384_S384x10000_S10000x10000_1_0_0_1_n_n none _ x w (ix2 p q) = _
  rw [Ideal.dotGeneral_apply, ← Equiv.sum_comp (ValueIdx.contrEquiv1 dot_S10000x384_S384x10000_S10000x10000_1_0_0_1_n_n 384 rfl rfl).symm]
  refine Finset.sum_congr rfl fun k _ => ?_
  have hk := ValueIdx.contrEquiv1_symm_val dot_S10000x384_S384x10000_S10000x10000_1_0_0_1_n_n 384 rfl rfl k
  have el : dot_S10000x384_S384x10000_S10000x10000_1_0_0_1_n_n.lhsIdx (ix2 p q) ((ValueIdx.contrEquiv1 dot_S10000x384_S384x10000_S10000x10000_1_0_0_1_n_n 384 rfl rfl).symm k) = ix2 p k :=
    funext fun a => Fin.ext (by
      match a with
      | ⟨0, _⟩ => exact lhs_d2_0 _ _
      | ⟨1, _⟩ => exact (lhs_d2_1 _ _).trans hk)
  have er : dot_S10000x384_S384x10000_S10000x10000_1_0_0_1_n_n.rhsIdx (ix2 p q) ((ValueIdx.contrEquiv1 dot_S10000x384_S384x10000_S10000x10000_1_0_0_1_n_n 384 rfl rfl).symm k) = ix2 k q :=
    funext fun a => Fin.ext (by
      match a with
      | ⟨0, _⟩ => exact (rhs_d2_0 _ _).trans hk
      | ⟨1, _⟩ => exact rhs_d2_1 _ _)
  rw [el, er]

/-! ## The biases and the splats at an index -/

/-- The first bias row laid under every row reads the row's entry. -/
theorem bias1_apply (b : FVec Ideal S384 .f32) (p : Fin 10000) (q : Fin 384) :
    broadcastInDim S10000x384 ![0, 1] bcast_S1x384_S10000x384_0_1 (broadcastInDim S1x384 ![1] bcast_S384_S1x384_1 b) (ix2 p q)
      = b (ix1 q) := by
  refine (broadcastInDim_apply ![0, 1] bcast_S1x384_S10000x384_0_1 _ (ix2 p q) (ix2 (0 : Fin 1) q) ?_).trans ?_
  · intro a
    match a with
    | ⟨0, _⟩ => rfl
    | ⟨1, _⟩ => rfl
  · refine broadcastInDim_apply ![1] bcast_S384_S1x384_1 b (ix2 (0 : Fin 1) q) (ix1 q) ?_
    intro a
    match a with
    | ⟨0, _⟩ => rfl

/-- The second bias row laid under every row reads the row's entry. -/
theorem bias2_apply (b : FVec Ideal S10000 .f32) (p : Fin 10000) (q : Fin 10000) :
    broadcastInDim S10000x10000 ![0, 1] bcast_S1x10000_S10000x10000_0_1 (broadcastInDim S1x10000 ![1] bcast_S10000_S1x10000_1 b) (ix2 p q)
      = b (ix1 q) := by
  refine (broadcastInDim_apply ![0, 1] bcast_S1x10000_S10000x10000_0_1 _ (ix2 p q) (ix2 (0 : Fin 1) q) ?_).trans ?_
  · intro a
    match a with
    | ⟨0, _⟩ => rfl
    | ⟨1, _⟩ => rfl
  · refine broadcastInDim_apply ![1] bcast_S10000_S1x10000_1 b (ix2 (0 : Fin 1) q) (ix1 q) ?_
    intro a
    match a with
    | ⟨0, _⟩ => rfl

/-- A splat of a word reads the extended real the word encodes, everywhere. -/
theorem splat_apply {T : Shape} (h : S_.BroadcastsInDim T (![] : Fin 0 → Fin T.rank)) (w : BitVec 32) (j : T.Idx) :
    broadcastInDim T ![] h (constant (F := Ideal) S_ .f32 w) j = Ideal.ofBits .f32 w :=
  broadcastInDim_scalar_apply h _ j

/-- The host's division, exponential and negation at an index are the extended reals'. -/
theorem hdivf_apply {s : Shape} (a b : FVec Ideal s .f32) (i : s.Idx) : Host.divf a b i = Ideal.div (a i) (b i) := rfl
theorem hexp_apply {s : Shape} (a : FVec Ideal s .f32) (i : s.Idx) : Host.exp a i = Ideal.exp (a i) := rfl
theorem hnegf_apply {s : Shape} (a : FVec Ideal s .f32) (i : s.Idx) : Host.negf a i = -(a i) := rfl

/-- The output stage's hidden layer at an index. -/
theorem hid_apply (hc : FVec Ideal S10000x128 .f32) (a19 : FVec Ideal S128x384 .f32) (a20 : FVec Ideal S384 .f32)
    (p : Fin 10000) (k : Fin 384) :
    maximumf
        (addf (Host.dotGeneral dot_S10000x128_S128x384_S10000x384_1_0_0_1_n_n none hc a19)
          (broadcastInDim S10000x384 ![0, 1] bcast_S1x384_S10000x384_0_1 (broadcastInDim S1x384 ![1] bcast_S384_S1x384_1 a20)))
        (broadcastInDim S10000x384 ![] bcast_S_S10000x384 (constant (F := Ideal) S_ .f32 0x00000000#32)) (ix2 p k)
      = max (Spec.lin (fun l => hc (ix2 p l)) a19 a20 k) 0 := by
  rw [maximumf_apply, addf_apply, d1_apply, bias1_apply, splat_apply, Ideal.ofBits_zero_f32]
  rfl

end ROut

open ROut in
/-- The reference's output stage, entry by entry, is the specification's. -/
theorem rawOUT_eq (hc : FVec Ideal S10000x128 .f32) (a19 : FVec Ideal S128x384 .f32) (a20 : FVec Ideal S384 .f32)
    (a21 : FVec Ideal S384x10000 .f32) (a22 : FVec Ideal S10000 .f32) :
    rawOUT (F := Ideal) hc a19 a20 a21 a22 = Spec.out hc a19 a20 a21 a22 := by
  funext i
  obtain ⟨p, q, rfl⟩ : ∃ (p : Fin 10000) (q : Fin 10000), i = ix2 p q := ⟨i 0, i 1, eq_ix2 i⟩
  unfold rawOUT Spec.out
  rw [hdivf_apply, addf_apply, hexp_apply, hnegf_apply, addf_apply, d2_apply, bias2_apply, splat_apply,
    Ideal.ofBits_one_f32]
  refine congrArg (fun t => Ideal.div 1 (1 + Ideal.exp (-(t + a22 (ix1 q))))) ?_
  refine Finset.sum_congr rfl fun k _ => ?_
  rw [hid_apply]

end Cert.ReferenceIdeal.Hand

end
-- ==== Proof.Bridge.lean ====
/-
  The two programs compute one function: their host sides are the same operations, the reference's three stages are the
  specification's (`rawMSG_eq`, `rawHC_eq`, `rawOUT_eq`), and the kernel's split first layer is the reference's
  layer over the concatenated row (`Spec.msgK_eq_msgR`).
-/
import proofs.«150242_j29703993819981_1_alg».proof.Proof.KDefs
import proofs.«150242_j29703993819981_1_alg».proof.Proof.RDefs
import proofs.«150242_j29703993819981_1_alg».proof.Proof.RMsg
import proofs.«150242_j29703993819981_1_alg».proof.Proof.RHc
import proofs.«150242_j29703993819981_1_alg».proof.Proof.ROut
import proofs.«150242_j29703993819981_1_alg».proof.Proof.SpecLaws

noncomputable section

namespace Cert.Bridge

open Idealize.ShloMosaic

/-- The gathered target features are the same host operations in both programs. -/
theorem xd_eq (a0 : FVec Ideal Cert.KernelIdeal.S10000x128 .f32) (a2 : IVec Cert.KernelIdeal.S2x320000 32) :
    Cert.KernelIdeal.Hand.xd (F := Ideal) a0 a2 = Cert.ReferenceIdeal.Hand.xd (F := Ideal) a0 a2 := rfl
/-- The gathered source features are the same host operations in both programs. -/
theorem xs_eq (a0 : FVec Ideal Cert.KernelIdeal.S10000x128 .f32) (a2 : IVec Cert.KernelIdeal.S2x320000 32) :
    Cert.KernelIdeal.Hand.xs (F := Ideal) a0 a2 = Cert.ReferenceIdeal.Hand.xs (F := Ideal) a0 a2 := rfl
/-- The sum of messages into target nodes is the same host operation in both programs. -/
theorem aggOf_eq (msg : FVec Ideal Cert.KernelIdeal.S320000x256 .f32) (a2 : IVec Cert.KernelIdeal.S2x320000 32) :
    Cert.KernelIdeal.Hand.aggOf (F := Ideal) msg a2 = Cert.ReferenceIdeal.Hand.aggOf (F := Ideal) msg a2 := rfl

/-- The kernel program's result function is the reference's. -/
theorem valK_eq_valR (a0 : FVec Ideal Cert.KernelIdeal.S10000x128 .f32) (a2 : IVec Cert.KernelIdeal.S2x320000 32) (a7 : FVec Ideal Cert.KernelIdeal.S512x256 .f32) (a8 : FVec Ideal Cert.KernelIdeal.S256 .f32) (a9 : FVec Ideal Cert.KernelIdeal.S256x256 .f32) (a10 : FVec Ideal Cert.KernelIdeal.S256 .f32) (a11 : FVec Ideal Cert.KernelIdeal.S256x256 .f32) (a12 : FVec Ideal Cert.KernelIdeal.S256 .f32) (a13 : FVec Ideal Cert.KernelIdeal.S256x256 .f32) (a14 : FVec Ideal Cert.KernelIdeal.S256 .f32) (a15 : FVec Ideal Cert.KernelIdeal.S256x256 .f32) (a16 : FVec Ideal Cert.KernelIdeal.S256 .f32) (a17 : FVec Ideal Cert.KernelIdeal.S256x256 .f32) (a18 : FVec Ideal Cert.KernelIdeal.S256 .f32) (a19 : FVec Ideal Cert.KernelIdeal.S128x384 .f32) (a20 : FVec Ideal Cert.KernelIdeal.S384 .f32) (a21 : FVec Ideal Cert.KernelIdeal.S384x10000 .f32) (a22 : FVec Ideal Cert.KernelIdeal.S10000 .f32) :
    Cert.KernelIdeal.Hand.valK a0 a2 a7 a8 a9 a10 a11 a12 a13 a14 a15 a16 a17 a18 a19 a20 a21 a22 = Cert.ReferenceIdeal.Hand.valR (F := Ideal) a0 a2 a7 a8 a9 a10 a11 a12 a13 a14 a15 a16 a17 a18 a19 a20 a21 a22 := by
  unfold Cert.KernelIdeal.Hand.valK Cert.ReferenceIdeal.Hand.valR
  rw [Cert.ReferenceIdeal.Hand.rawOUT_eq, Cert.ReferenceIdeal.Hand.rawHC_eq, Cert.ReferenceIdeal.Hand.rawMSG_eq,
    ← Cert.Spec.msgK_eq_msgR, xd_eq, xs_eq, aggOf_eq]

end Cert.Bridge

end
-- ==== Proof.lean ====
/-
  The certificate. Both programs take node features, an edge list and the weights of four perceptrons; both gather each
  edge's end-point features, pass them through a perceptron, sum the messages into their target nodes, update every
  node through two more perceptrons, keep the last 128 coordinates and apply the output layer. The kernel program does
  the dense work in three pipelined kernels (row blocks of 2000 edges, 1000 nodes, 200 nodes), the reference on the host.
  Over the extended reals the two compute one function (`Bridge.valK_eq_valR`): rounding to bf16 is the identity, a matrix
  product is a finite sum, the split first layer is the layer over the concatenated row, `e^h - 1` is `expm1 h`, and
  `0 - o` is `-o`. No step needs the inputs finite, so the precondition is never opened.
  The frames of the two kernel programs are the generated ones; the reference's is its run with the result dropped;
  the ideal pass rewrote nothing, so `preserves` is trivial.
-/
import proofs.«150242_j29703993819981_1_alg».proof.Defs
import proofs.«150242_j29703993819981_1_alg».proof.Proof.Gen.Kernel
import proofs.«150242_j29703993819981_1_alg».proof.Proof.Gen.Kernel.Skeleton
import proofs.«150242_j29703993819981_1_alg».proof.Proof.Gen.Kernel.Launch
import proofs.«150242_j29703993819981_1_alg».proof.Proof.Gen.Kernel.Points
import proofs.«150242_j29703993819981_1_alg».proof.Proof.Gen.Kernel.Frame
import proofs.«150242_j29703993819981_1_alg».proof.Proof.Gen.KernelIdeal
import proofs.«150242_j29703993819981_1_alg».proof.Proof.Gen.KernelIdeal.Skeleton
import proofs.«150242_j29703993819981_1_alg».proof.Proof.Gen.KernelIdeal.Launch
import proofs.«150242_j29703993819981_1_alg».proof.Proof.Gen.KernelIdeal.Points
import proofs.«150242_j29703993819981_1_alg».proof.Proof.Gen.KernelIdeal.Frame
import proofs.«150242_j29703993819981_1_alg».proof.Proof.Gen.ReferenceIdeal
import proofs.«150242_j29703993819981_1_alg».proof.Proof.Gen.Pre_finite_inputs
import proofs.«150242_j29703993819981_1_alg».proof.Proof.KRun
import proofs.«150242_j29703993819981_1_alg».proof.Proof.KValue
import proofs.«150242_j29703993819981_1_alg».proof.Proof.RRun
import proofs.«150242_j29703993819981_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run_value (F := Ideal) m ρ)

/-- Both runs end, from memories agreeing on the arguments, with the result array at the same function of them. -/
theorem algebraic : Cert.algebraic_KernelIdeal_ReferenceIdeal := by
  intro m ρ m' ρ' _ hagree
  refine ⟨fun c => Cert.KernelIdeal.Hand.valK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun _ h c => ⟨(h c).1.trans (Cert.KernelIdeal.Hand.kernel_value m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Hand.run_value (F := Ideal) m' ρ')
    obtain ⟨h0, h1, h2, h3, h4, h5, h6, h7, h8, h9, h10, h11, h12, h13, h14, h15, h16, h17, h18, h19, h20, h21, h22⟩ := hagree c
    rw [h0, h2, h7, h8, h9, h10, h11, h12, h13, h14, h15, h16, h17, h18, h19, h20, h21, h22]
    exact (Cert.Bridge.valK_eq_valR _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
